-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_arg2 : IVec S2x800000 32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_c_20 : IVec S_ 32 := constantI S_ 32 0#32
  let main_v54 : IVec S2x800000 32 := broadcastInDim S2x800000 ![] bcast_S_S2x800000 main_c_20
  let main_v55 : IVec S2x800000 1 := cmpi .sge main_arg1 main_v54
  let main_c_21 : IVec S_ 32 := constantI S_ 32 50000#32
  let main_v56 : IVec S2x800000 32 := broadcastInDim S2x800000 ![] bcast_S_S2x800000 main_c_21
  let main_v57 : IVec S2x800000 1 := cmpi .slt main_arg1 main_v56
  let main_v58 : IVec S2x800000 1 := andi main_v55 main_v57
  let main_c_22 : IVec S_ 1 := constantI S_ 1 1#1
  let main_v59 : IVec S_ 1 := (fun x v => Host.reduce IntOp.andi x v reducesTo_S2x800000_S_d0_1 h_S_) main_v58 main_c_22
  let main_v60 : IVec S_ 1 := andi main_v53 main_v59
  let main_c_23 : IVec S_ 32 := constantI S_ 32 0#32
  let main_v61 : IVec S2x800000 32 := broadcastInDim S2x800000 ![] bcast_S_S2x800000 main_c_23
  let main_v62 : IVec S2x800000 1 := cmpi .sge main_arg2 main_v61
  let main_c_24 : IVec S_ 32 := constantI S_ 32 50000#32
  let main_v63 : IVec S2x800000 32 := broadcastInDim S2x800000 ![] bcast_S_S2x800000 main_c_24
  let main_v64 : IVec S2x800000 1 := cmpi .slt main_arg2 main_v63
  let main_v65 : IVec S2x800000 1 := andi main_v62 main_v64
  let main_c_25 : IVec S_ 1 := constantI S_ 1 1#1
  let main_v66 : IVec S_ 1 := (fun x v => Host.reduce IntOp.andi x v reducesTo_S2x800000_S_d0_1 h_S_) main_v65 main_c_25
  let main_v67 : IVec S_ 1 := andi main_v60 main_v66
  main_v67

def fn_part2 {F : FTy → Type} [FloatOps F] (main_arg1 : IVec S2x800000 32) (main_arg2 : IVec S2x800000 32) (main_arg9 : FVec F S256x256 .f32) (main_arg10 : FVec F S256 .f32) (main_arg11 : FVec F S256x256 .f32) (main_arg12 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg1 main_arg2 main_v48 main_v49 main_v50

def fn_part1 {F : FTy → Type} [FloatOps F] (main_arg1 : IVec S2x800000 32) (main_arg2 : IVec S2x800000 32) (main_arg6 : FVec F S128x256 .f32) (main_arg7 : FVec F S128x256 .f32) (main_arg8 : FVec F S128 .f32) (main_arg9 : FVec F S256x256 .f32) (main_arg10 : FVec F S256 .f32) (main_arg11 : FVec F S256x256 .f32) (main_arg12 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg2 main_arg9 main_arg10 main_arg11 main_arg12 main_v33

def fn {F : FTy → Type} [FloatOps F] (main_arg0 : FVec F S50000x256 .f32) (main_arg1 : IVec S2x800000 32) (main_arg2 : IVec S2x800000 32) (main_arg3 : FVec F S128x256 .f32) (main_arg4 : FVec F S128x256 .f32) (main_arg5 : FVec F S128 .f32) (main_arg6 : FVec F S128x256 .f32) (main_arg7 : FVec F S128x256 .f32) (main_arg8 : FVec F S128 .f32) (main_arg9 : FVec F S256x256 .f32) (main_arg10 : FVec F S256 .f32) (main_arg11 : FVec F S256x256 .f32) (main_arg12 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_arg8 main_arg9 main_arg10 main_arg11 main_arg12 main_v13 main_v16
-- ==== Kernel.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S256x256 : Shape := ⟨2, ![256, 256]⟩
abbrev S256 : Shape := ⟨1, ![256]⟩
abbrev S512x256 : Shape := ⟨2, ![512, 256]⟩
abbrev S512 : Shape := ⟨1, ![512]⟩
abbrev S1x512 : Shape := ⟨2, ![1, 512]⟩
abbrev S256x512 : Shape := ⟨2, ![256, 512]⟩
abbrev S50000x512 : Shape := ⟨2, ![50000, 512]⟩
abbrev S2000x256 : Shape := ⟨2, ![2000, 256]⟩
abbrev S2000x512 : Shape := ⟨2, ![2000, 512]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x256 : Shape := ⟨2, ![800000, 256]⟩
abbrev S4000x256 : Shape := ⟨2, ![4000, 256]⟩
abbrev S4000 : Shape := ⟨1, ![4000]⟩
abbrev S4000x1 : Shape := ⟨2, ![4000, 1]⟩
abbrev S50000 : Shape := ⟨1, ![50000]⟩
abbrev S50000x1 : Shape := ⟨2, ![50000, 1]⟩
abbrev S256x128 : Shape := ⟨2, ![256, 128]⟩
abbrev S1x128 : Shape := ⟨2, ![1, 128]⟩
abbrev S2000x1 : Shape := ⟨2, ![2000, 1]⟩
abbrev S2000x128 : Shape := ⟨2, ![2000, 128]⟩

abbrev nBuf : Space → Nat
  | .hbm => 163
  | .vmem => 36
  | .smem => 0
  | _ => 0

abbrev hbmTy0_0 (i : Nat) : BufTy := match i % 128 with
  | 0 => ⟨S50000x256, .f32⟩
  | 1 => ⟨S2x800000, .i32⟩
  | 2 => ⟨S2x800000, .i32⟩
  | 3 => ⟨S128x256, .f32⟩
  | 4 => ⟨S128x256, .f32⟩
  | 5 => ⟨S128, .f32⟩
  | 6 => ⟨S128x256, .f32⟩
  | 7 => ⟨S128x256, .f32⟩
  | 8 => ⟨S128, .f32⟩
  | 9 => ⟨S256x256, .f32⟩
  | 10 => ⟨S256, .f32⟩
  | 11 => ⟨S256x256, .f32⟩
  | 12 => ⟨S256, .f32⟩
  | 13 => ⟨S512x256, .f32⟩
  | 14 => ⟨S512, .f32⟩
  | 15 => ⟨S1x512, .f32⟩
  | 16 => ⟨S256x512, .f32⟩
  | 17 => ⟨S50000x512, .f32⟩
  | 18 => ⟨S50000x256, .f32⟩
  | 19 => ⟨S50000x256, .f32⟩
  | 20 => ⟨S1x800000, .i32⟩
  | 21 => ⟨S800000, .i32⟩
  | 22 => ⟨S1x800000, .i32⟩
  | 23 => ⟨S800000, .i32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S1, .i32⟩
  | 37 => ⟨S_, .i32⟩
  | 38 => ⟨S800000x1, .i32⟩
  | 39 => ⟨S800000x1, .i1⟩
  | 40 => ⟨S1x1, .i32⟩
  | 41 => ⟨S800000x1, .i32⟩
  | 42 => ⟨S800000x1, .i1⟩
  | 43 => ⟨S800000x1, .i1⟩
  | 44 => ⟨S_, .i1⟩
  | 45 => ⟨S800000, .i1⟩
  | 46 => ⟨S800000x256, .f32⟩
  | 47 => ⟨S800000x256, .i1⟩
  | 48 => ⟨S_, .f32⟩
  | 49 => ⟨S800000x256, .f32⟩
  | 50 => ⟨S800000x256, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x256, .f32⟩
  | 70 => ⟨S800000x256, .i1⟩
  | 71 => ⟨S_, .f32⟩
  | 72 => ⟨S800000x256, .f32⟩
  | 73 => ⟨S800000x256, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S1, .i32⟩
  | 83 => ⟨S_, .i32⟩
  | 84 => ⟨S800000x1, .i32⟩
  | 85 => ⟨S800000x1, .i1⟩
  | 86 => ⟨S1x1, .i32⟩
  | 87 => ⟨S800000x1, .i32⟩
  | 88 => ⟨S800000x1, .i1⟩
  | 89 => ⟨S800000x1, .i1⟩
  | 90 => ⟨S_, .i1⟩
  | 91 => ⟨S800000, .i1⟩
  | 92 => ⟨S800000x256, .f32⟩
  | 93 => ⟨S800000x256, .i1⟩
  | 94 => ⟨S_, .f32⟩
  | 95 => ⟨S800000x256, .f32⟩
  | 96 => ⟨S800000x256, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S1, .i32⟩
  | 106 => ⟨S_, .i32⟩
  | 107 => ⟨S800000x1, .i32⟩
  | 108 => ⟨S800000x1, .i1⟩
  | 109 => ⟨S1x1, .i32⟩
  | 110 => ⟨S800000x1, .i32⟩
  | 111 => ⟨S800000x1, .i1⟩
  | 112 => ⟨S800000x1, .i1⟩
  | 113 => ⟨S_, .i1⟩
  | 114 => ⟨S800000, .i1⟩
  | 115 => ⟨S800000x256, .f32⟩
  | 116 => ⟨S800000x256, .i1⟩
  | 117 => ⟨S_, .f32⟩
  | 118 => ⟨S800000x256, .f32⟩
  | 119 => ⟨S800000x256, .f32⟩
  | 120 => ⟨S800000x256, .f32⟩
  | 121 => ⟨S800000x256, .f32⟩
  | 122 => ⟨S_, .f32⟩
  | 123 => ⟨S50000x256, .f32⟩
  | 124 => ⟨S800000x1, .i32⟩
  | 125 => ⟨S50000x256, .f32⟩
  | 126 => ⟨S_, .f32⟩
  | 127 => ⟨S800000, .f32⟩
  | _ => ⟨S50000x256, .f32⟩

abbrev hbmTy0_1 (i : Nat) : BufTy := match i % 128 with
  | 0 => ⟨S_, .f32⟩
  | 1 => ⟨S50000, .f32⟩
  | 2 => ⟨S800000x1, .i32⟩
  | 3 => ⟨S50000, .f32⟩
  | 4 => ⟨S_, .f32⟩
  | 5 => ⟨S50000x256, .f32⟩
  | 6 => ⟨S800000x1, .i32⟩
  | 7 => ⟨S50000x256, .f32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S_, .f32⟩
  | 18 => ⟨S50000, .f32⟩
  | 19 => ⟨S50000, .f32⟩
  | 20 => ⟨S50000x1, .f32⟩
  | 21 => ⟨S_, .f32⟩
  | 22 => ⟨S50000, .f32⟩
  | 23 => ⟨S50000, .f32⟩
  | 24 => ⟨S_, .f32⟩
  | 25 => ⟨S50000, .f32⟩
  | 26 => ⟨S50000, .f32⟩
  | 27 => ⟨S50000x1, .f32⟩
  | 28 => ⟨S256x128, .f32⟩
  | 29 => ⟨S256x128, .f32⟩
  | 30 => ⟨S1x128, .f32⟩
  | 31 => ⟨S256x128, .f32⟩
  | 32 => ⟨S256x128, .f32⟩
  | 33 => ⟨S1x128, .f32⟩
  | 34 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x512, .f32⟩
  | .local _ .vmem, ⟨3, _⟩ => ⟨S1x512, .f32⟩
  | .local _ .vmem, ⟨4, _⟩ => ⟨S2000x512, .f32⟩
  | .local _ .vmem, ⟨5, _⟩ => ⟨S2000x512, .f32⟩
  | .local _ .vmem, ⟨6, _⟩ => ⟨S4000x256, .f32⟩
  | .local _ .vmem, ⟨7, _⟩ => ⟨S4000x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S4000x256, .f32⟩
  | .local _ .vmem, ⟨14, _⟩ => ⟨S4000x256, .f32⟩
  | .local _ .vmem, ⟨15, _⟩ => ⟨S4000x256, .f32⟩
  | .local _ .vmem, ⟨16, _⟩ => ⟨S4000x256, .f32⟩
  | .local _ .vmem, ⟨17, _⟩ => ⟨S4000x256, .f32⟩
  | .local _ .vmem, ⟨18, _⟩ => ⟨S2000x256, .f32⟩
  | .local _ .vmem, ⟨19, _⟩ => ⟨S2000x256, .f32⟩
  | .local _ .vmem, ⟨20, _⟩ => ⟨S2000x1, .f32⟩
  | .local _ .vmem, ⟨21, _⟩ => ⟨S2000x1, .f32⟩
  | .local _ .vmem, ⟨22, _⟩ => ⟨S2000x256, .f32⟩
  | .local _ .vmem, ⟨23, _⟩ => ⟨S2000x256, .f32⟩
  | .local _ .vmem, ⟨24, _⟩ => ⟨S2000x1, .f32⟩
  | .local _ .vmem, ⟨25, _⟩ => ⟨S2000x1, .f32⟩
  | .local _ .vmem, ⟨26, _⟩ => ⟨S2000x256, .f32⟩
  | .local _ .vmem, ⟨27, _⟩ => ⟨S2000x256, .f32⟩
  | .local _ .vmem, ⟨28, _⟩ => ⟨S256x128, .f32⟩
  | .local _ .vmem, ⟨29, _⟩ => ⟨S256x128, .f32⟩
  | .local _ .vmem, ⟨30, _⟩ => ⟨S1x128, .f32⟩
  | .local _ .vmem, ⟨31, _⟩ => ⟨S256x128, .f32⟩
  | .local _ .vmem, ⟨32, _⟩ => ⟨S256x128, .f32⟩
  | .local _ .vmem, ⟨33, _⟩ => ⟨S1x128, .f32⟩
  | .local _ .vmem, ⟨34, _⟩ => ⟨S2000x256, .f32⟩
  | .local _ .vmem, ⟨35, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v15 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v16 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_c_1 : Ref sig .tc := ⟨.hbm, 82, rfl⟩
abbrev main_call2_c_2 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_v11 : Ref sig .tc := ⟨.hbm, 89, rfl⟩
abbrev main_call2_c_3 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_cst : Ref sig .tc := ⟨.hbm, 94, rfl⟩
abbrev main_call2_v15 : Ref sig .tc := ⟨.hbm, 95, rfl⟩
abbrev main_v17 : Ref sig .tc := ⟨.hbm, 96, rfl⟩
abbrev main_call3_c : Ref sig .tc := ⟨.hbm, 97, rfl⟩
abbrev main_call3_v0 : Ref sig .tc := ⟨.hbm, 98, rfl⟩
abbrev main_call3_v1 : Ref sig .tc := ⟨.hbm, 99, rfl⟩
abbrev main_call3_c_0 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_c_1 : Ref sig .tc := ⟨.hbm, 105, rfl⟩
abbrev main_call3_c_2 : Ref sig .tc := ⟨.hbm, 106, rfl⟩
abbrev main_call3_v6 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_3 : Ref sig .tc := ⟨.hbm, 113, rfl⟩
abbrev main_call3_v12 : Ref sig .tc := ⟨.hbm, 114, rfl⟩
abbrev main_call3_v13 : Ref sig .tc := ⟨.hbm, 115, rfl⟩
abbrev main_call3_v14 : Ref sig .tc := ⟨.hbm, 116, rfl⟩
abbrev main_call3_cst : Ref sig .tc := ⟨.hbm, 117, rfl⟩
abbrev main_call3_v15 : Ref sig .tc := ⟨.hbm, 118, rfl⟩
abbrev main_v18 : Ref sig .tc := ⟨.hbm, 119, rfl⟩
abbrev main_v19 : Ref sig .tc := ⟨.hbm, 120, rfl⟩
abbrev main_v20 : Ref sig .tc := ⟨.hbm, 121, rfl⟩
abbrev main_cst : Ref sig .tc := ⟨.hbm, 122, rfl⟩
abbrev main_v21 : Ref sig .tc := ⟨.hbm, 123, rfl⟩
abbrev main_v22 : Ref sig .tc := ⟨.hbm, 124, rfl⟩
abbrev main_v23 : Ref sig .tc := ⟨.hbm, 125, rfl⟩
abbrev main_cst_0 : Ref sig .tc := ⟨.hbm, 126, rfl⟩
abbrev main_v24 : Ref sig .tc := ⟨.hbm, 127, rfl⟩
abbrev main_cst_1 : Ref sig .tc := ⟨.hbm, 128, rfl⟩
abbrev main_v25 : Ref sig .tc := ⟨.hbm, 129, rfl⟩
abbrev main_v26 : Ref sig .tc := ⟨.hbm, 130, rfl⟩
abbrev main_v27 : Ref sig .tc := ⟨.hbm, 131, rfl⟩
abbrev main_cst_2 : Ref sig .tc := ⟨.hbm, 132, rfl⟩
abbrev main_v28 : Ref sig .tc := ⟨.hbm, 133, rfl⟩
abbrev main_v29 : Ref sig .tc := ⟨.hbm, 134, rfl⟩
abbrev main_v30 : Ref sig .tc := ⟨.hbm, 135, rfl⟩
abbrev main_cst_3 : Ref sig .tc := ⟨.hbm, 136, rfl⟩
abbrev main_v31 : Ref sig .tc := ⟨.hbm, 137, rfl⟩
abbrev main_cst_4 : Ref sig .tc := ⟨.hbm, 138, rfl⟩
abbrev main_v32 : Ref sig .tc := ⟨.hbm, 139, rfl⟩
abbrev main_v33 : Ref sig .tc := ⟨.hbm, 140, rfl⟩
abbrev main_v34 : Ref sig .tc := ⟨.hbm, 141, rfl⟩
abbrev main_cst_5 : Ref sig .tc := ⟨.hbm, 142, rfl⟩
abbrev main_v35 : Ref sig .tc := ⟨.hbm, 143, rfl⟩
abbrev main_v36 : Ref sig .tc := ⟨.hbm, 144, rfl⟩
abbrev main_cst_6 : Ref sig .tc := ⟨.hbm, 145, rfl⟩
abbrev main_v37 : Ref sig .tc := ⟨.hbm, 146, rfl⟩
abbrev main_v38 : Ref sig .tc := ⟨.hbm, 147, rfl⟩
abbrev main_v39 : Ref sig .tc := ⟨.hbm, 148, rfl⟩
abbrev main_cst_7 : Ref sig .tc := ⟨.hbm, 149, rfl⟩
abbrev main_v40 : Ref sig .tc := ⟨.hbm, 150, rfl⟩
abbrev main_v41 : Ref sig .tc := ⟨.hbm, 151, rfl⟩
abbrev main_cst_8 : Ref sig .tc := ⟨.hbm, 152, rfl⟩
abbrev main_v42 : Ref sig .tc := ⟨.hbm, 153, rfl⟩
abbrev main_v43 : Ref sig .tc := ⟨.hbm, 154, rfl⟩
abbrev main_v44 : Ref sig .tc := ⟨.hbm, 155, rfl⟩
abbrev main_v45 : Ref sig .tc := ⟨.hbm, 156, rfl⟩
abbrev main_v46 : Ref sig .tc := ⟨.hbm, 157, rfl⟩
abbrev main_v47 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg8_0 : Ref sig .tc := ⟨.vmem, 31, rfl⟩
abbrev cc3_stg9_0 : Ref sig .tc := ⟨.vmem, 32, rfl⟩
abbrev cc3_stg10_0 : Ref sig .tc := ⟨.vmem, 33, rfl⟩
abbrev cc3_stg11_0 : Ref sig .tc := ⟨.vmem, 34, rfl⟩
abbrev cc3_stg11_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem10_0 : DmaSem sig := 33
abbrev cc3_sem11_0 : DmaSem sig := 34
abbrev cc3_sem11_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S256x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2000x256 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

class Facts₀ : Prop where
  concatenates_S256x256_S256x256_S512x256_d0 : Shape.Concatenates [S256x256, S256x256] S512x256 0
  concatenates_S256_S256_S512_d0 : Shape.Concatenates [S256, S256] S512 0
  shapeCasts_S512_S1x512 : S512.ShapeCasts S1x512
  transposes_S512x256_S256x512_1_0 : S512x256.Transposes [1, 0] S256x512
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S50000x512_S50000x256_0_0 : S50000x512.Slices ![0, 0] S50000x256
  slices_S50000x512_S50000x256_0_256 : S50000x512.Slices ![0, 256] S50000x256
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x256_0 : S800000.BroadcastsInDim S800000x256 (![0] : Fin 1 → Fin S800000x256.rank)
  bcast_S_S800000x256 : S_.BroadcastsInDim S800000x256 (![] : Fin 0 → Fin S800000x256.rank)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  reduces_S4000x256_S4000 : S4000x256.Reduces [1] S4000
  shapeCasts_S4000_S4000x1 : S4000.ShapeCasts S4000x1
  broadcasts_S4000x1_S4000x256 : S4000x1.Broadcasts S4000x256
  bcast_S_S50000x256 : S_.BroadcastsInDim S50000x256 (![] : Fin 0 → Fin S50000x256.rank)
  bcast_S_S50000 : S_.BroadcastsInDim S50000 (![] : Fin 0 → Fin S50000.rank)
  shapeCasts_S50000_S50000x1 : S50000.ShapeCasts S50000x1
  transposes_S128x256_S256x128_1_0 : S128x256.Transposes [1, 0] S256x128
  shapeCasts_S128_S1x128 : S128.ShapeCasts S1x128
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x256_S2000x128_0_0 : ∀ a, (![0, 0] : Fin 2 → Nat) a + S2000x128.size a ≤ S2000x256.size a
  h_S2000x128 : 0 < S2000x128.numel
  inb_S2000x256_S2000x128_0_128 : ∀ a, (![0, 128] : Fin 2 → Nat) a + S2000x128.size a ≤ S2000x256.size a
  dot_S2000x256_S256x512_S2000x512_1_0_0_1_n_n_wf : DotDims.WF S2000x256 S256x512 S2000x512 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S50000x512.size a
  hwx0_3 : ∀ i : grid0.Coords, EltTy.bits .f32 = 32 ∨ (Rect.block (s := S50000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S800000x256.size a
  hwx1_0 : ∀ i : grid1.Coords, EltTy.bits .f32 = 32 ∨ (Rect.block (s := S800000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S800000x256.size a
  hwx1_1 : ∀ i : grid1.Coords, EltTy.bits .f32 = 32 ∨ (Rect.block (s := S800000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S800000x256.size a
  hwx1_2 : ∀ i : grid1.Coords, EltTy.bits .f32 = 32 ∨ (Rect.block (s := S800000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S800000x256.size a
  hwx2_0 : ∀ i : grid2.Coords, EltTy.bits .f32 = 32 ∨ (Rect.block (s := S800000x256) S4000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x256.size a ≤ S800000x256.size a
  hwx2_1 : ∀ i : grid2.Coords, EltTy.bits .f32 = 32 ∨ (Rect.block (s := S800000x256) S4000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x256.size a ≤ S800000x256.size a
  hwx2_2 : ∀ i : grid2.Coords, EltTy.bits .f32 = 32 ∨ (Rect.block (s := S800000x256) S4000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x256.size a ≤ S50000x256.size a
  hwx3_4 : ∀ i : grid3.Coords, EltTy.bits .f32 = 32 ∨ (Rect.block (s := S50000x256) S2000x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x128.size a ≤ S256x128.size a
  hwx3_6 : ∀ i : grid3.Coords, EltTy.bits .f32 = 32 ∨ (Rect.block (s := S256x128) S256x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S256x128.size a ≤ S256x128.size a
  hwx3_8 : ∀ i : grid3.Coords, EltTy.bits .f32 = 32 ∨ (Rect.block (s := S256x128) S256x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S256x128.size a ≤ S256x128.size a
  hwx3_9 : ∀ i : grid3.Coords, EltTy.bits .f32 = 32 ∨ (Rect.block (s := S256x128) S256x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x256.size a ≤ S50000x256.size a
  hwx3_11 : ∀ i : grid3.Coords, EltTy.bits .f32 = 32 ∨ (Rect.block (s := S50000x256) S2000x256.size (cc3_transform_11 i) (hinb3_11 i)).WholeWords (EltTy.packing .f32)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S4000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S4000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg0) S2000x256.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v45) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S256x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v48) S256x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v49) S256x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v50) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v51) S2000x256.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S256x256 : Shape := ⟨2, ![256, 256]⟩
abbrev S256 : Shape := ⟨1, ![256]⟩
abbrev S1x256 : Shape := ⟨2, ![1, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S256x128 : Shape := ⟨2, ![256, 128]⟩
abbrev S50000x128 : Shape := ⟨2, ![50000, 128]⟩
abbrev S1x128 : Shape := ⟨2, ![1, 128]⟩

abbrev nBuf : Space → Nat
  | .hbm => 154
  | .vmem => 0
  | .smem => 0
  | _ => 0

abbrev hbmTy0_0 (i : Nat) : BufTy := match i % 128 with
  | 0 => ⟨S50000x256, .f32⟩
  | 1 => ⟨S2x800000, .i32⟩
  | 2 => ⟨S2x800000, .i32⟩
  | 3 => ⟨S128x256, .f32⟩
  | 4 => ⟨S128x256, .f32⟩
  | 5 => ⟨S128, .f32⟩
  | 6 => ⟨S128x256, .f32⟩
  | 7 => ⟨S128x256, .f32⟩
  | 8 => ⟨S128, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S50000x256, .f32⟩
  | 15 => ⟨S1x256, .f32⟩
  | 16 => ⟨S50000x256, .f32⟩
  | 17 => ⟨S50000x256, .f32⟩
  | 18 => ⟨S256x256, .f32⟩
  | 19 => ⟨S50000x256, .f32⟩
  | 20 => ⟨S1x256, .f32⟩
  | 21 => ⟨S50000x256, .f32⟩
  | 22 => ⟨S50000x256, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x256, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x256, .f32⟩
  | 45 => ⟨S800000x256, .f32⟩
  | 46 => ⟨S_, .f32⟩
  | 47 => ⟨S800000, .f32⟩
  | 48 => ⟨S1x800000, .i32⟩
  | 49 => ⟨S800000, .i32⟩
  | 50 => ⟨S1x800000, .i32⟩
  | 51 => ⟨S800000, .i32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x256, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x256, .f32⟩
  | 70 => ⟨S800000x256, .f32⟩
  | 71 => ⟨S_, .f32⟩
  | 72 => ⟨S800000, .f32⟩
  | 73 => ⟨S1x800000, .i32⟩
  | 74 => ⟨S800000, .i32⟩
  | 75 => ⟨S1x800000, .i32⟩
  | 76 => ⟨S800000, .i32⟩
  | 77 => ⟨S800000x1, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x256, .f32⟩
  | 87 => ⟨S800000x256, .f32⟩
  | 88 => ⟨S800000x256, .f32⟩
  | 89 => ⟨S_, .f32⟩
  | 90 => ⟨S50000x256, .f32⟩
  | 91 => ⟨S800000x1, .i32⟩
  | 92 => ⟨S50000x256, .f32⟩
  | 93 => ⟨S_, .f32⟩
  | 94 => ⟨S800000, .f32⟩
  | 95 => ⟨S_, .f32⟩
  | 96 => ⟨S50000, .f32⟩
  | 97 => ⟨S800000x1, .i32⟩
  | 98 => ⟨S50000, .f32⟩
  | 99 => ⟨S_, .f32⟩
  | 100 => ⟨S50000, .f32⟩
  | 101 => ⟨S50000, .f32⟩
  | 102 => ⟨S50000x1, .f32⟩
  | 103 => ⟨S50000x256, .f32⟩
  | 104 => ⟨S50000x256, .f32⟩
  | 105 => ⟨S256x128, .f32⟩
  | 106 => ⟨S50000x128, .f32⟩
  | 107 => ⟨S256x128, .f32⟩
  | 108 => ⟨S50000x128, .f32⟩
  | 109 => ⟨S1x128, .f32⟩
  | 110 => ⟨S50000x128, .f32⟩
  | 111 => ⟨S50000x128, .f32⟩
  | 112 => ⟨S50000x128, .f32⟩
  | 113 => ⟨S1x800000, .i32⟩
  | 114 => ⟨S800000, .i32⟩
  | 115 => ⟨S1x800000, .i32⟩
  | 116 => ⟨S800000, .i32⟩
  | 117 => ⟨S800000x1, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x256, .f32⟩
  | 127 => ⟨S800000x256, .f32⟩
  | _ => ⟨S50000x256, .f32⟩

abbrev hbmTy0_1 (i : Nat) : BufTy := match i % 128 with
  | 0 => ⟨S800000x256, .f32⟩
  | 1 => ⟨S_, .f32⟩
  | 2 => ⟨S50000x256, .f32⟩
  | 3 => ⟨S800000x1, .i32⟩
  | 4 => ⟨S50000x256, .f32⟩
  | 5 => ⟨S_, .f32⟩
  | 6 => ⟨S800000, .f32⟩
  | 7 => ⟨S_, .f32⟩
  | 8 => ⟨S50000, .f32⟩
  | 9 => ⟨S800000x1, .i32⟩
  | 10 => ⟨S50000, .f32⟩
  | 11 => ⟨S_, .f32⟩
  | 12 => ⟨S50000, .f32⟩
  | 13 => ⟨S50000, .f32⟩
  | 14 => ⟨S50000x1, .f32⟩
  | 15 => ⟨S50000x256, .f32⟩
  | 16 => ⟨S50000x256, .f32⟩
  | 17 => ⟨S256x128, .f32⟩
  | 18 => ⟨S50000x128, .f32⟩
  | 19 => ⟨S256x128, .f32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_3 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_c_6 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_8 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_14 : Ref sig .tc := ⟨.hbm, 118, rfl⟩
abbrev main_v89 : Ref sig .tc := ⟨.hbm, 119, rfl⟩
abbrev main_v90 : Ref sig .tc := ⟨.hbm, 120, rfl⟩
abbrev main_c_15 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_16 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_17 : Ref sig .tc := ⟨.hbm, 133, rfl⟩
abbrev main_v101 : Ref sig .tc := ⟨.hbm, 134, rfl⟩
abbrev main_cst_18 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_19 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x256_S800000_d1 : S800000x256.ReducesTo [1] S800000
  h_S_ : 0 < S_.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics of the signed graph convolution, stated once over literal shapes at the extended reals, with no
  program in sight: N = 50000 nodes with F = 256 features, E = 800000 edges per sign, 128 output features per sign.

  For each sign: the attention matrix is  A = x Wₐᵀ + bₐ  ([N, F]);  an edge e with target r(e) and source l(e) has
  the score  w(e) = Σ_f A[r(e), f] · x[l(e), f]  and sends the message  w(e) · x[l(e), ·];  messages are added up per
  target node and divided by  max(count, 1);  the sign's half of the result is
  mean Wᵀ + (x W_ccᵀ + b_cc).  The two halves sit side by side in the [N, 256] result.

  The row gather and the two scatter-adds are the SAME functions in both programs, so they are parameters here
  (`gath`, `scat2`, `scat1`) and are never opened.  The first part of the file states what each of the kernel's three
  tiled computations leaves in its whole output array (`proj`, `msg`, `combo`), over weights laid out as the kernel's
  caller hands them over (transposed, concatenated, biases as rows, reciprocal counts as a column); the second part
  states the result the reference's way (`G`); the last part proves the two agree.
-/
import Idealize.ShloMosaic.PureOps.Ideal.Laws
import Idealize.ShloMosaic.Lib.ValueIdx

noncomputable section

open scoped BigOperators
open Idealize.ShloMosaic Idealize.ShloMosaic.ValueIdx

namespace Cert.SignedConv

abbrev SNF : Shape := ⟨2, ![50000, 256]⟩
abbrev SNC : Shape := ⟨2, ![50000, 512]⟩
abbrev SN1 : Shape := ⟨2, ![50000, 1]⟩
abbrev SN : Shape := ⟨1, ![50000]⟩
abbrev SEF : Shape := ⟨2, ![800000, 256]⟩
abbrev SE1 : Shape := ⟨2, ![800000, 1]⟩
abbrev SE : Shape := ⟨1, ![800000]⟩
abbrev SFC : Shape := ⟨2, ![256, 512]⟩
abbrev S1C : Shape := ⟨2, ![1, 512]⟩
abbrev SFF : Shape := ⟨2, ![256, 256]⟩
abbrev SF : Shape := ⟨1, ![256]⟩
abbrev SFO : Shape := ⟨2, ![256, 128]⟩
abbrev S1O : Shape := ⟨2, ![1, 128]⟩
abbrev SOF : Shape := ⟨2, ![128, 256]⟩
abbrev SO : Shape := ⟨1, ![128]⟩
abbrev S2E : Shape := ⟨2, ![2, 800000]⟩

/-- The words both programs write for 0.0 and 1.0, read at the extended reals. -/
def zero32 : EReal := Ideal.ofBits .f32 0x00000000#32
def one32 : EReal := Ideal.ofBits .f32 0x3F800000#32

/-! ## What each tiled computation leaves in its whole output array -/

/-- Row n of the features against column j of a weight matrix laid out [in, out], plus entry j of a bias row. -/
def projAt (x : SNF.Idx → EReal) (w : SFC.Idx → EReal) (b : S1C.Idx → EReal) (n : Fin 50000) (j : Fin 512) : EReal :=
  (∑ k : Fin 256, x (ix2 n k) * w (ix2 k j)) + b (ix2 0 j)
/-- Both attention matrices side by side, [N, 512]. -/
def proj (x : SNF.Idx → EReal) (w : SFC.Idx → EReal) (b : S1C.Idx → EReal) : SNC.Idx → EReal :=
  fun i => projAt x w b (i 0) (i 1)

/-- An edge's score: the inner product of its gathered attention row and its gathered feature row. -/
def scoreAt (rl xl : SEF.Idx → EReal) (e : Fin 800000) : EReal := ∑ f : Fin 256, rl (ix2 e f) * xl (ix2 e f)
def msgAt (rl xl : SEF.Idx → EReal) (e : Fin 800000) (f : Fin 256) : EReal := scoreAt rl xl e * xl (ix2 e f)
/-- Every edge's message, [E, F]. -/
def msg (rl xl : SEF.Idx → EReal) : SEF.Idx → EReal := fun i => msgAt rl xl (i 0) (i 1)

/-- One sign's half of the result at node n, output feature j, from the summed messages `ag`, the column `rc` of
    reciprocal counts, and weights laid out [in, out] with the bias as a row. -/
def comboAt (ag : SNF.Idx → EReal) (rc : SN1.Idx → EReal) (x : SNF.Idx → EReal) (w wc : SFO.Idx → EReal) (b : S1O.Idx → EReal)
    (n : Fin 50000) (j : Fin 128) : EReal :=
  (∑ f : Fin 256, (ag (ix2 n f) * rc (ix2 n 0)) * w (ix2 f j)) + ((∑ f : Fin 256, x (ix2 n f) * wc (ix2 f j)) + b (ix2 0 j))
/-- The two halves side by side. -/
def combo (agp : SNF.Idx → EReal) (rcp : SN1.Idx → EReal) (agn : SNF.Idx → EReal) (rcn : SN1.Idx → EReal) (x : SNF.Idx → EReal)
    (wp wpc : SFO.Idx → EReal) (bp : S1O.Idx → EReal) (wn wnc : SFO.Idx → EReal) (bn : S1O.Idx → EReal) : SNF.Idx → EReal :=
  fun i =>
    if h : (i 1).val < 128 then comboAt agp rcp x wp wpc bp (i 0) ⟨(i 1).val, h⟩
    else comboAt agn rcn x wn wnc bn (i 0) ⟨(i 1).val - 128, by have := idx2_lt1 i; omega⟩

/-! ## The layouts the kernel's caller prepares -/

/-- Two [256, 256] weight matrices stacked and transposed: [256, 512], column j < 256 from the first, else the second. -/
def catT (Wa Wb : SFF.Idx → EReal) : SFC.Idx → EReal := fun i =>
  if h : (i 1).val < 256 then Wa (ix2 ⟨(i 1).val, h⟩ (i 0))
  else Wb (ix2 ⟨(i 1).val - 256, by have := idx2_lt1 i; omega⟩ (i 0))
/-- Two [256] biases concatenated, as a [1, 512] row. -/
def catRow (ba bb : SF.Idx → EReal) : S1C.Idx → EReal := fun i =>
  if h : (i 1).val < 256 then ba (ix1 ⟨(i 1).val, h⟩)
  else bb (ix1 ⟨(i 1).val - 256, by have := idx2_lt1 i; omega⟩)
/-- The left and right [N, 256] halves of an [N, 512] array. -/
def leftHalf (a : SNC.Idx → EReal) : SNF.Idx → EReal := fun i =>
  a (ix2 (i 0) ⟨(i 1).val, by have := idx2_lt1 i; omega⟩)
def rightHalf (a : SNC.Idx → EReal) : SNF.Idx → EReal := fun i =>
  a (ix2 (i 0) ⟨(i 1).val + 256, by have := idx2_lt1 i; omega⟩)
/-- A [128, 256] weight matrix transposed to [256, 128]; a [128] bias as a [1, 128] row. -/
def tr (W : SOF.Idx → EReal) : SFO.Idx → EReal := fun i => W (ix2 (i 1) (i 0))
def row (b : SO.Idx → EReal) : S1O.Idx → EReal := fun i => b (ix1 (i 1))
/-- The column of reciprocals 1 / max(count, 1). -/
def recipCol (ct : SN.Idx → EReal) : SN1.Idx → EReal := fun i => Ideal.div one32 (max (ct (ix1 (i 0))) one32)

/-! ## The edge indices -/

/-- Row r of an edge-index array as a flat [E] vector (row 0: the targets r(e); row 1: the sources l(e)). -/
def rowFlat (a : IVec S2E 32) (r : Fin 2) : IVec SE 32 := fun i => a (ix2 r (i 0))
/-- A flat vector of indices as an [E, 1] column of start indices: what the scatter-adds take. -/
def colFlat (v : IVec SE 32) : IVec SE1 32 := fun i => v (ix1 (i 0))
/-- The same column after the wrap of a negative index (v < 0 ↦ v + N): what the row gathers take. -/
def wrapFlat (v : IVec SE 32) : IVec SE1 32 := fun i =>
  Scalar.select (IntOp.cmpi .slt (v (ix1 (i 0))) 0#32) (IntOp.addi (v (ix1 (i 0))) 50000#32) (v (ix1 (i 0)))
/-- Row r as a column, plain and wrapped. -/
def colOf (a : IVec S2E 32) (r : Fin 2) : IVec SE1 32 := colFlat (rowFlat a r)
def wrapCol (a : IVec S2E 32) (r : Fin 2) : IVec SE1 32 := wrapFlat (rowFlat a r)
/-- Every entry of an edge-index array names a node: 0 ≤ v < 50000, read signed. -/
def InRange (a : IVec S2E 32) : Prop :=
  ∀ i : S2E.Idx, IntOp.cmpi .sge (a i) 0#32 = 1#1 ∧ IntOp.cmpi .slt (a i) 50000#32 = 1#1

/-! ## The result, the reference's way -/

/-- Entry (n, j) of x Wₐᵀ + bₐ. -/
def attAt (x : SNF.Idx → EReal) (W : SFF.Idx → EReal) (b : SF.Idx → EReal) (n : Fin 50000) (j : Fin 256) : EReal :=
  (∑ k : Fin 256, x (ix2 n k) * W (ix2 j k)) + b (ix1 j)
def att (x : SNF.Idx → EReal) (W : SFF.Idx → EReal) (b : SF.Idx → EReal) : SNF.Idx → EReal := fun i => attAt x W b (i 0) (i 1)

section Shared
variable (gath : (SNF.Idx → EReal) → IVec SE1 32 → SEF.Idx → EReal)
variable (scat2 : (SNF.Idx → EReal) → IVec SE1 32 → (SEF.Idx → EReal) → SNF.Idx → EReal)
variable (scat1 : (SN.Idx → EReal) → IVec SE1 32 → (SE.Idx → EReal) → SN.Idx → EReal)

/-- The messages summed per target node: the attention rows gathered at `gr`, the feature rows at `gl`, the
    messages scattered to `sr`. -/
def agg (x A : SNF.Idx → EReal) (gr gl sr : IVec SE1 32) : SNF.Idx → EReal :=
  scat2 (fun _ => zero32) sr (msg (gath A gr) (gath x gl))
/-- How many edges point at each node. -/
def cnt (sr : IVec SE1 32) : SN.Idx → EReal := scat1 (fun _ => zero32) sr (fun _ => one32)
/-- The summed messages divided by max(count, 1). -/
def mean (ag : SNF.Idx → EReal) (ct : SN.Idx → EReal) : SNF.Idx → EReal :=
  fun i => Ideal.div (ag i) (max (ct (ix1 (i 0))) one32)
/-- One sign's half: mean Wᵀ + (x W_ccᵀ + b_cc) at (n, j). -/
def halfAt (mn x : SNF.Idx → EReal) (W Wcc : SOF.Idx → EReal) (b : SO.Idx → EReal) (n : Fin 50000) (j : Fin 128) : EReal :=
  (∑ f : Fin 256, mn (ix2 n f) * W (ix2 j f)) + ((∑ f : Fin 256, x (ix2 n f) * Wcc (ix2 j f)) + b (ix1 j))

/-- THE RESULT: positive half in columns 0 … 127, negative half in columns 128 … 255. -/
def G (x : SNF.Idx → EReal) (grp glp srp grn gln srn : IVec SE1 32)
    (Wp Wpc : SOF.Idx → EReal) (bp : SO.Idx → EReal) (Wn Wnc : SOF.Idx → EReal) (bn : SO.Idx → EReal)
    (Wpa : SFF.Idx → EReal) (bpa : SF.Idx → EReal) (Wna : SFF.Idx → EReal) (bna : SF.Idx → EReal) : SNF.Idx → EReal :=
  fun i =>
    if h : (i 1).val < 128 then
      halfAt (mean (agg gath scat2 x (att x Wpa bpa) grp glp srp) (cnt scat1 srp)) x Wp Wpc bp (i 0) ⟨(i 1).val, h⟩
    else
      halfAt (mean (agg gath scat2 x (att x Wna bna) grn gln srn) (cnt scat1 srn)) x Wn Wnc bn (i 0)
        ⟨(i 1).val - 128, by have := idx2_lt1 i; omega⟩

end Shared

end Cert.SignedConv

end
-- ==== Proof.EdgeRange.lean ====
/-
  The precondition decoded for the two edge-index arrays.  The precondition is a conjunction, one conjunct per
  argument array: each float array is finite everywhere, and each of the two [2, 800000] edge-index arrays has every
  entry ≥ 0 and < 50000 read signed.  A conjunct is the and-reduction over all axes of an elementwise mask, and the
  conjunction is nested to the left, so the two edge-index conjuncts are the right operands of the two outermost
  conjunctions.  An and of one-bit words is 1 exactly when both are; an and-reduction over all axes that is 1 had a 1
  at every index of the mask; the mask at an index is the and of the two comparisons of that entry against the
  constants 0 and 50000 broadcast to the array's shape.
-/
import proofs.«405337_j10660108829350_1_alg».proof.Defs
import proofs.«405337_j10660108829350_1_alg».proof.Proof.Gen.Pre_finite_inputs
import proofs.«405337_j10660108829350_1_alg».proof.Proof.Spec
import Idealize.ShloMosaic.Lib.ReduceAll
import Idealize.ShloMosaic.Lib.StableHlo.Predicate
import Idealize.ShloMosaic.Lib.ValueIdx

noncomputable section

namespace Cert.KernelIdeal.EdgeRange

open Cert.KernelIdeal Cert.SignedConv Idealize.ShloMosaic Idealize.ShloMosaic.TcCoe Idealize.ShloMosaic.ValueIdx

/-- A rank-0 array has one index. -/
instance : Subsingleton Cert.Pre_finite_inputs.S_.Idx := ⟨fun a b => funext fun d => d.elim0⟩

/-- A conjunction of two rank-0 one-bit arrays that is 1 has both operands 1. -/
theorem both_of_andi (x y : IVec Cert.Pre_finite_inputs.S_ 1) (h : andi x y ix0 = 1#1) : x ix0 = 1#1 ∧ y ix0 = 1#1 :=
  IntOp.andi_eq_one.1 h

/-- One edge-index conjunct: the and-reduction over both axes of the mask (a ≥ 0) ∧ (a < 50000), the constants
    broadcast from rank 0, is 1 only if every entry of the array is in range. -/
theorem inRange_of_all (a : IVec S2E 32)
    (hb : Cert.Pre_finite_inputs.S_.BroadcastsInDim S2E (![] : Fin 0 → Fin S2E.rank))
    (hr : S2E.ReducesTo [0, 1] Cert.Pre_finite_inputs.S_) (h0 : 0 < Cert.Pre_finite_inputs.S_.numel)
    (h : Host.reduce IntOp.andi
          (andi (cmpi .sge a (broadcastInDim S2E ![] hb (constantI Cert.Pre_finite_inputs.S_ 32 0#32)))
                (cmpi .slt a (broadcastInDim S2E ![] hb (constantI Cert.Pre_finite_inputs.S_ 32 50000#32))))
          (constantI Cert.Pre_finite_inputs.S_ 1 1#1) hr h0 ix0 = 1#1) : InRange a := by
  intro i
  have hi := Host.reduce_andi_all _ _ hr h0 ix0 h i
  exact IntOp.andi_eq_one.1 hi

/-- The last part of the precondition: whatever the running conjunction and the last float operands are, a result
    of 1 says both edge-index arrays are in range. -/
theorem part3_range {F : FTy → Type} [FloatOps F] (a1 a2 : IVec S2E 32) (v48 : IVec Cert.Pre_finite_inputs.S_ 1)
    (v49 v50 : FVec F Cert.Pre_finite_inputs.S256 .f32)
    (h : Cert.Pre_finite_inputs.fn_part3 (F := F) a1 a2 v48 v49 v50 ix0 = 1#1) : InRange a1 ∧ InRange a2 := by
  unfold Cert.Pre_finite_inputs.fn_part3 at h
  dsimp only at h
  obtain ⟨h60, h66⟩ := both_of_andi _ _ h
  obtain ⟨-, h59⟩ := both_of_andi _ _ h60
  exact ⟨inRange_of_all a1 _ _ _ h59, inRange_of_all a2 _ _ _ h66⟩

/-- THE PRECONDITION DECODED: on every device both edge-index arguments hold node numbers only. -/
theorem inRange_of_pre (m : (ℓ : Loc nD τ sig) → Buf (Elt Ideal) ℓ) (h : Cert.Pre_KernelIdeal m) (c : Dev nD) :
    InRange (m ((c : Thread nD τ).loc main_arg1)) ∧ InRange (m ((c : Thread nD τ).loc main_arg2)) := by
  have e := congrFun (h c) ix0
  unfold Cert.Pre_finite_inputs.fn Cert.Pre_finite_inputs.fn_part1 Cert.Pre_finite_inputs.fn_part2 at e
  exact part3_range (F := Ideal) _ _ _ _ _ e

end Cert.KernelIdeal.EdgeRange

end
-- ==== Proof.Bridge.lean ====
/-
  The algebra joining the two statements of the signed graph convolution's result: what the three tiled computations
  leave in their output arrays, read over the layouts the caller prepares, is the result stated the reference's way.

  The joining laws are few.  The words for 0.0 and 1.0 denote 0 and 1.  A product with the reciprocal 1 / max(c, 1) is
  the quotient by max(c, 1), since max(c, 1) ≥ 1 is never zero.  A column of two weight matrices stacked and transposed
  is a row of one of them, so each half of the joint projection is one attention matrix.  A transposed weight matrix read
  at (f, j) is the matrix read at (j, f), and a bias row read at (0, j) is the bias read at j.  An index that names a node
  is not negative, so the wrap of negative indices leaves it alone.
-/
import proofs.«405337_j10660108829350_1_alg».proof.Proof.Spec
import Idealize.ShloMosaic.PureOps.Ideal.Laws
import Idealize.ShloMosaic.Lib.ValueIdx

noncomputable section

open scoped BigOperators
open Idealize.ShloMosaic Idealize.ShloMosaic.ValueIdx

namespace Cert.SignedConv

/-! ## The two constants -/

/-- The all-zero word denotes 0. -/
theorem zero32_eq : zero32 = 0 := Ideal.ofBits_zero_f32

/-- The word 0x3F800000 (sign 0, exponent 127, fraction 0) denotes 1 · 2⁰ = 1. -/
theorem one32_eq : one32 = 1 := IdealRules.sign_bit.ideal_onePat .f32

/-- max(c, 1) is at least 1, so it is not zero. -/
private theorem max_one_ne_zero (c : EReal) : max c (1 : EReal) ≠ 0 :=
  ne_of_gt (lt_of_lt_of_le zero_lt_one (le_max_right c 1))

/-- Multiplying by the reciprocal 1 / max(c, 1) is dividing by max(c, 1): off zero both are a product with the inverse. -/
theorem mul_recip (a c : EReal) : a * Ideal.div one32 (max c one32) = Ideal.div a (max c one32) := by
  rw [one32_eq]
  unfold Ideal.div
  rw [if_neg (max_one_ne_zero c), if_neg (max_one_ne_zero c), one_mul]

/-! ## The halves of the joint projection -/

/-- A column j < 256 of the stacked, transposed weights is row j of the first matrix. -/
theorem catT_left (Wa Wb : SFF.Idx → EReal) (k : Fin 256) (j : Fin 512) (h : j.val < 256) :
    catT Wa Wb (ix2 k j) = Wa (ix2 ⟨j.val, h⟩ k) := by
  unfold catT
  exact dif_pos h

/-- A column j ≥ 256 is row j - 256 of the second matrix. -/
theorem catT_right (Wa Wb : SFF.Idx → EReal) (k : Fin 256) (j : Fin 512) (h : ¬ j.val < 256) :
    catT Wa Wb (ix2 k j) = Wb (ix2 ⟨j.val - 256, by have := j.isLt; omega⟩ k) := by
  unfold catT
  exact dif_neg h

/-- Entry j < 256 of the concatenated bias row is entry j of the first bias. -/
theorem catRow_left (ba bb : SF.Idx → EReal) (j : Fin 512) (h : j.val < 256) :
    catRow ba bb (ix2 0 j) = ba (ix1 ⟨j.val, h⟩) := by
  unfold catRow
  exact dif_pos h

/-- Entry j ≥ 256 is entry j - 256 of the second bias. -/
theorem catRow_right (ba bb : SF.Idx → EReal) (j : Fin 512) (h : ¬ j.val < 256) :
    catRow ba bb (ix2 0 j) = bb (ix1 ⟨j.val - 256, by have := j.isLt; omega⟩) := by
  unfold catRow
  exact dif_neg h

/-- The left half of the joint projection is the first attention matrix. -/
theorem leftHalf_proj (x : SNF.Idx → EReal) (Wa Wb : SFF.Idx → EReal) (ba bb : SF.Idx → EReal) :
    leftHalf (proj x (catT Wa Wb) (catRow ba bb)) = att x Wa ba := by
  funext i
  obtain ⟨n, j, rfl⟩ : ∃ n j, i = ix2 n j := ⟨i 0, i 1, eq_ix2 i⟩
  have hj : j.val < 256 := j.isLt
  have hj' : j.val < 512 := by omega
  show projAt x (catT Wa Wb) (catRow ba bb) n ⟨j.val, hj'⟩ = attAt x Wa ba n j
  unfold projAt attAt
  have hs : ∀ k : Fin 256, x (ix2 n k) * catT Wa Wb (ix2 k ⟨j.val, hj'⟩) = x (ix2 n k) * Wa (ix2 j k) := by
    intro k
    rw [catT_left Wa Wb k ⟨j.val, hj'⟩ hj]
  rw [catRow_left ba bb ⟨j.val, hj'⟩ hj, Finset.sum_congr rfl fun k _ => hs k]

/-- The right half of the joint projection is the second attention matrix. -/
theorem rightHalf_proj (x : SNF.Idx → EReal) (Wa Wb : SFF.Idx → EReal) (ba bb : SF.Idx → EReal) :
    rightHalf (proj x (catT Wa Wb) (catRow ba bb)) = att x Wb bb := by
  funext i
  obtain ⟨n, j, rfl⟩ : ∃ n j, i = ix2 n j := ⟨i 0, i 1, eq_ix2 i⟩
  have hj : j.val < 256 := j.isLt
  have hj' : j.val + 256 < 512 := by omega
  have hge : ¬ (⟨j.val + 256, hj'⟩ : Fin 512).val < 256 := by
    show ¬ j.val + 256 < 256
    omega
  have hback : (⟨(⟨j.val + 256, hj'⟩ : Fin 512).val - 256, by show j.val + 256 - 256 < 256; omega⟩ : Fin 256) = j :=
    Fin.ext (by show j.val + 256 - 256 = j.val; omega)
  show projAt x (catT Wa Wb) (catRow ba bb) n ⟨j.val + 256, hj'⟩ = attAt x Wb bb n j
  unfold projAt attAt
  have hs : ∀ k : Fin 256, x (ix2 n k) * catT Wa Wb (ix2 k ⟨j.val + 256, hj'⟩) = x (ix2 n k) * Wb (ix2 j k) := by
    intro k
    rw [catT_right Wa Wb k ⟨j.val + 256, hj'⟩ hge, hback]
  rw [catRow_right ba bb ⟨j.val + 256, hj'⟩ hge, hback, Finset.sum_congr rfl fun k _ => hs k]

/-! ## The last computation against the reference's half -/

/-- One sign's half: with the reciprocal counts as a column, the weights transposed and the bias as a row, the tiled
    computation's entry is the reference's  mean Wᵀ + (x W_ccᵀ + b_cc)  entry. -/
theorem comboAt_eq_halfAt (ag x : SNF.Idx → EReal) (ct : SN.Idx → EReal) (W Wcc : SOF.Idx → EReal) (b : SO.Idx → EReal)
    (n : Fin 50000) (j : Fin 128) :
    comboAt ag (recipCol ct) x (tr W) (tr Wcc) (row b) n j = halfAt (mean ag ct) x W Wcc b n j := by
  unfold comboAt halfAt
  congr 1
  refine Finset.sum_congr rfl fun f _ => ?_
  show (ag (ix2 n f) * Ideal.div one32 (max (ct (ix1 n)) one32)) * W (ix2 j f)
      = Ideal.div (ag (ix2 n f)) (max (ct (ix1 n)) one32) * W (ix2 j f)
  rw [mul_recip]

/-- The two halves side by side are the result. -/
theorem combo_eq_G
    (gath : (SNF.Idx → EReal) → IVec SE1 32 → SEF.Idx → EReal)
    (scat2 : (SNF.Idx → EReal) → IVec SE1 32 → (SEF.Idx → EReal) → SNF.Idx → EReal)
    (scat1 : (SN.Idx → EReal) → IVec SE1 32 → (SE.Idx → EReal) → SN.Idx → EReal)
    (x : SNF.Idx → EReal) (grp glp srp grn gln srn : IVec SE1 32)
    (Wp Wpc : SOF.Idx → EReal) (bp : SO.Idx → EReal) (Wn Wnc : SOF.Idx → EReal) (bn : SO.Idx → EReal)
    (Wpa : SFF.Idx → EReal) (bpa : SF.Idx → EReal) (Wna : SFF.Idx → EReal) (bna : SF.Idx → EReal) :
    combo (agg gath scat2 x (att x Wpa bpa) grp glp srp) (recipCol (cnt scat1 srp))
        (agg gath scat2 x (att x Wna bna) grn gln srn) (recipCol (cnt scat1 srn)) x
        (tr Wp) (tr Wpc) (row bp) (tr Wn) (tr Wnc) (row bn)
      = G gath scat2 scat1 x grp glp srp grn gln srn Wp Wpc bp Wn Wnc bn Wpa bpa Wna bna := by
  funext i
  unfold combo G
  by_cases h : (i 1).val < 128
  · rw [dif_pos h, dif_pos h]
    exact comboAt_eq_halfAt _ x _ Wp Wpc bp _ _
  · rw [dif_neg h, dif_neg h]
    exact comboAt_eq_halfAt _ x _ Wn Wnc bn _ _

/-! ## The wrap of negative indices -/

/-- A one-bit word made from a truth value is 1 exactly when the value is true. -/
private theorem ofBool_eq_one (b : Bool) : BitVec.ofBool b = 1#1 ↔ b = true := by cases b <;> decide

/-- A word v with 0 ≤ v < 50000 (read signed) is not negative, so the wrap  v < 0 ↦ v + 50000  returns v itself, which
    lies in 0 … 49999. -/
theorem wrap_in_range (v : BitVec 32) (h0 : IntOp.cmpi .sge v 0#32 = 1#1) (h1 : IntOp.cmpi .slt v 50000#32 = 1#1) :
    IntOp.cmpi .sge (Scalar.select (IntOp.cmpi .slt v 0#32) (IntOp.addi v 50000#32) v) 0#32 = 1#1
    ∧ IntOp.cmpi .sle (Scalar.select (IntOp.cmpi .slt v 0#32) (IntOp.addi v 50000#32) v) 49999#32 = 1#1 := by
  have e0 : (0#32 : BitVec 32).toInt = 0 := by decide
  have e1 : (50000#32 : BitVec 32).toInt = 50000 := by decide
  have e2 : (49999#32 : BitVec 32).toInt = 49999 := by decide
  have g0 : (0 : Int) ≤ v.toInt := by
    unfold IntOp.cmpi at h0
    rw [ofBool_eq_one] at h0
    simp only [BitVec.sle, decide_eq_true_eq, e0] at h0
    exact h0
  have g1 : v.toInt < 50000 := by
    unfold IntOp.cmpi at h1
    rw [ofBool_eq_one] at h1
    simp only [BitVec.slt, decide_eq_true_eq, e1] at h1
    exact h1
  have hneg : IntOp.cmpi .slt v 0#32 ≠ 1#1 := by
    unfold IntOp.cmpi
    rw [Ne, ofBool_eq_one]
    simp only [BitVec.slt, decide_eq_true_eq, e0]
    omega
  have hsel : Scalar.select (IntOp.cmpi .slt v 0#32) (IntOp.addi v 50000#32) v = v := by
    unfold Scalar.select
    exact if_neg hneg
  rw [hsel]
  refine ⟨h0, ?_⟩
  unfold IntOp.cmpi
  rw [ofBool_eq_one]
  simp only [BitVec.sle, decide_eq_true_eq, e2]
  omega

end Cert.SignedConv

end
-- ==== Proof.Region0.lean ====
import proofs.«405337_j10660108829350_1_alg».proof.Proof.Gen.KernelIdeal.Frame
import proofs.«405337_j10660108829350_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.SignedConv

/-! ## The body's arithmetic at an index -/

theorem zeroOff : (![0, 0] : Fin 2 → Nat) = fun _ => 0 := funext fun a => by fin_cases a <;> rfl

/-- On the rows axis the left operand is read at the output's row. -/
theorem lhs_axis0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
/-- On the features axis the left operand is read at the contraction position. -/
theorem lhs_axis1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
/-- On its first axis the weight matrix is read at the contraction position. -/
theorem rhs_axis0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
/-- On its second axis the weight matrix is read at the output's column. -/
theorem rhs_axis1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- A product of a [2000, 256] block and a [256, 512] matrix into a zero accumulator, at (p, q): the sum over the
    256 features. -/
theorem matmul_at (a : FVec Ideal S2000x256 .bf16) (b : FVec Ideal S256x512 .bf16) (p : Fin 2000) (q : Fin 512) :
    matmul dot_S2000x256_S256x512_S2000x512_1_0_0_1_n_n none a b (constant (F := Ideal) S2000x512 .f32 0x00000000#32) (ix2 p q)
      = ∑ k : Fin 256, a (ix2 p k) * b (ix2 k q) := by
  simp only [matmul]
  rw [Ideal.matmul_constant_zero_apply, ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q) ((contrEquiv1 dot_S2000x256_S256x512_S2000x512_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x512_S2000x512_1_0_0_1_n_n.rhsIdx (ix2 p q) ((contrEquiv1 dot_S2000x256_S256x512_S2000x512_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the 2000 rows, at (p, q): entry q of the row. -/
theorem biasRow_at (b : FVec Ideal S1x512 .f32) (p : Fin 2000) (q : Fin 512) :
    broadcastTo S2000x512 b broadcasts_S1x512_S2000x512 (ix2 p q) = b (ix2 0 q) :=
  broadcastTo_apply b broadcasts_S1x512_S2000x512 (ix2 p q) (ix2 0 q) fun a => by
    match a with
    | ⟨0, _⟩ => rfl
    | ⟨1, _⟩ => rfl

/-- THE BODY AT AN INDEX: row p of the feature block against column q of the weight matrix, plus entry q of the bias
    row (the narrowing of both operands is the identity on the extended reals). -/
theorem body_at (x0 : Vec Ideal S2000x256 .f32) (x1 : Vec Ideal S256x512 .f32) (x2 : Vec Ideal S1x512 .f32) (p : Fin 2000) (q : Fin 512) :
    k0_pay1 (F := Ideal) x0 x1 x2 (ix2 p q) = (∑ k : Fin 256, x0 (ix2 p k) * x1 (ix2 k q)) + x2 (ix2 0 q) := by
  unfold k0_pay1
  rw [shapeCast_self, shapeCast_self]
  refine (addf_apply _ _ _).trans ?_
  rw [matmul_at, biasRow_at]
  rfl

/-! ## From the grid's blocks to the whole array -/

variable (V : (c : Dev nD) → (b : Ref sig .tc) → Buf (Elt Ideal) ((c : Thread nD τ).loc b))

/-- The features, the weight matrix laid out [in, out] and the bias row, as the region finds them. -/
abbrev feats (c : Dev nD) : SNF.Idx → EReal := V c main_arg0
abbrev weights (c : Dev nD) : SFC.Idx → EReal := V c main_v3
abbrev biasRow (c : Dev nD) : S1C.Idx → EReal := V c main_v2

/-- The body at any index of the block, over the index's own coordinates. -/
theorem body_at' (x0 : Vec Ideal S2000x256 .f32) (x1 : Vec Ideal S256x512 .f32) (x2 : Vec Ideal S1x512 .f32) (y : S2000x512.Idx) :
    k0_pay1 (F := Ideal) x0 x1 x2 y = (∑ k : Fin 256, x0 (ix2 (y 0) k) * x1 (ix2 k (y 1))) + x2 (ix2 0 (y 1)) := by
  obtain ⟨p, q, rfl⟩ : ∃ (p : Fin 2000) (q : Fin 512), y = ix2 p q := ⟨y 0, y 1, eq_ix2 y⟩
  exact body_at x0 x1 x2 p q

/-- The index maps over the grid: the feature blocks and the output blocks move down the rows with the point; the
    weight matrix and the bias row are one block each. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's feature block is rows 2000 t … 2000 t + 1999 of the features. -/
theorem featBlock_at (c : Dev nD) (t : Fin cfg0.N) (y : S2000x256.Idx) (n : Fin 50000) (k : Fin 256)
    (h0 : n.val = t.val * 2000 + (y 0).val) (h1 : k.val = (y 1).val) :
    (iblk0 (F := Ideal) V c 0 t : Vec Ideal S2000x256 .f32) y = feats V c (ix2 n k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = n.val; rw [e0, h0]; omega
  | ⟨1, _⟩ => show win0_0.index t (1 : Fin 2) * 256 + 1 * (y 1).val = k.val; rw [e1, h1]; omega

/-- Every point's weight block is the whole weight matrix. -/
theorem weightBlock_at (c : Dev nD) (t : Fin cfg0.N) (y : S256x512.Idx) (k : Fin 256) (j : Fin 512)
    (h0 : k.val = (y 0).val) (h1 : j.val = (y 1).val) :
    (iblk0 (F := Ideal) V c 1 t : Vec Ideal S256x512 .f32) y = weights V c (ix2 k j) := by
  obtain ⟨-, -, e2, e3, -⟩ := idx_facts t
  unfold iblk0
  rw [View.read_apply]
  show V c main_v3 _ = V c main_v3 _
  congr 1
  funext a
  apply Fin.ext
  match a with
  | ⟨0, _⟩ => show win0_1.index t (0 : Fin 2) * 256 + 1 * (y 0).val = k.val; rw [e2, h0]; omega
  | ⟨1, _⟩ => show win0_1.index t (1 : Fin 2) * 512 + 1 * (y 1).val = j.val; rw [e3, h1]; omega

/-- Every point's bias block is the whole bias row. -/
theorem biasBlock_at (c : Dev nD) (t : Fin cfg0.N) (y : S1x512.Idx) (j : Fin 512)
    (h1 : j.val = (y 1).val) :
    (iblk0 (F := Ideal) V c 2 t : Vec Ideal S1x512 .f32) y = biasRow V c (ix2 0 j) := by
  obtain ⟨-, -, -, -, e4, e5, -⟩ := idx_facts t
  unfold iblk0
  rw [View.read_apply]
  show V c main_v2 _ = V c main_v2 _
  congr 1
  funext a
  apply Fin.ext
  match a with
  | ⟨0, _⟩ => show win0_2.index t (0 : Fin 2) * 1 + 1 * (y 0).val = 0; rw [e4]; have hy : (y 0).val < 1 := (y 0).isLt; omega
  | ⟨1, _⟩ => show win0_2.index t (1 : Fin 2) * 512 + 1 * (y 1).val = j.val; rw [e5, h1]; omega

/-- WHAT POINT t WRITES BACK is block t of the projection of the arrays as the region finds them. -/
theorem flushed_eq (c : Dev nD) (t : Fin cfg0.N) :
    (dat0 (F := Ideal) V c).flushed 3 t
      = ((cfg0.win 3).blk t).view.read (Elt Ideal) (proj (V c main_arg0) (V c main_v3) (V c main_v2)) := by
  show (cfg0.win 3).cut (grid0.coords t) ((dat0 (F := Ideal) V c).after 3 t) = _
  rw [after0_3]
  unfold out0_3
  rw [View.canon_unit_zero zeroOff]
  simp only [View.ld_unit_zero (S := S2000x256) zeroOff, View.ld_unit_zero (S := S256x512) zeroOff, View.ld_unit_zero (S := S1x512) zeroOff]
  obtain ⟨-, -, -, -, -, -, e6, e7⟩ := idx_facts t
  funext j
  refine (body_at' (iblk0 (F := Ideal) V c 0 t) (iblk0 (F := Ideal) V c 1 t) (iblk0 (F := Ideal) V c 2 t) ((cfg0.win 3).xinj (grid0.coords t) j)).trans ?_
  rw [View.read_apply]
  show _ = projAt (V c main_arg0) (V c main_v3) (V c main_v2) ((((cfg0.win 3).blk t).view.emb j) 0) ((((cfg0.win 3).blk t).view.emb j) 1)
  unfold projAt
  refine congrArg₂ (· + ·) (Finset.sum_congr rfl fun k _ => congrArg₂ (· * ·) ?_ ?_) ?_
  · refine featBlock_at V c t _ _ k ?_ rfl
    show win0_3.index t (0 : Fin 2) * 2000 + 1 * (j 0).val = t.val * 2000 + (j 0).val
    rw [e6]; omega
  · refine weightBlock_at V c t _ k _ rfl ?_
    show win0_3.index t (1 : Fin 2) * 512 + 1 * (j 1).val = (j 1).val
    rw [e7]; omega
  · refine biasBlock_at V c t _ _ ?_
    show win0_3.index t (1 : Fin 2) * 512 + 1 * (j 1).val = (j 1).val
    rw [e7]; omega

/-- An index of the output is in point t's block iff each coordinate is in the block's range on its axis. -/
theorem mem_block (t : Fin cfg0.N) (i : S50000x512.Idx) :
    i ∈ ((cfg0.win 3).blk t).view.set
      ↔ ∀ a : Fin 2, win0_3.index t a * S2000x512.size a ≤ (i a).val ∧ (i a).val < win0_3.index t a * S2000x512.size a + S2000x512.size a := by
  show i ∈ ((View.whole main_v4).slice (win0_3.rect t)).set ↔ _
  rw [View.set_slice_whole, Rect.mem_set_unit]
  exact Iff.rfl

/-- The blocks tile the output: row r is in the block of point r / 2000. -/
theorem covered (i : S50000x512.Idx) :
    ∃ t : Fin cfg0.N, (cfg0.win 3).flush t = true ∧ i ∈ ((cfg0.win 3).blk t).view.set := by
  have hi0 : (i 0).val < 50000 := (i 0).isLt
  have hi1 : (i 1).val < 512 := (i 1).isLt
  have hN : grid0.N = 25 := N_0
  have ht : (i 0).val / 2000 < cfg0.N := by show (i 0).val / 2000 < grid0.N; rw [hN]; omega
  obtain ⟨-, -, -, -, -, -, e6, e7⟩ := idx_facts ⟨(i 0).val / 2000, ht⟩
  refine ⟨⟨(i 0).val / 2000, ht⟩, flush0_3 _, ?_⟩
  rw [mem_block]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, ht⟩ (1 : Fin 2) * 512 ≤ (i 1).val ∧ (i 1).val < win0_3.index ⟨(i 0).val / 2000, ht⟩ (1 : Fin 2) * 512 + 512
    rw [e7]; omega

/-- THE ARRAY after the region: the projection of the features by the weight matrix plus the bias row, everywhere. -/
theorem region0_array (c : Dev nD) :
    (dat0 (F := Ideal) V c).arrAt 3 cfg0.N = proj (V c main_arg0) (V c main_v3) (V c main_v2) :=
  (dat0 (F := Ideal) V c).arrAt_eq_of_cover 3 (proj (V c main_arg0) (V c main_v3) (V c main_v2))
    (fun t _ => flushed_eq V c t) covered

end Cert.KernelIdeal.Region0

end
-- ==== Proof.Region1.lean ====
/-
  What the first per-edge message computation (the positive edges) leaves in its [800000, 256] output array: entry (e, f)
  is the inner product of row e of the gathered attention rows with row e of the gathered feature rows, times entry
  (e, f) of the feature rows.  First the body's stored block read at an index (a lane sum into the zero accumulator,
  kept as a column and broadcast back along the lanes); then each grid point's block is block (t, 0) of that one
  array function, because all three index maps send point t to block (t, 0); then the 200 blocks of 4000 rows cover
  the array, row r lying in block r / 4000.
-/
import proofs.«405337_j10660108829350_1_alg».proof.Proof.Gen.KernelIdeal.Frame
import proofs.«405337_j10660108829350_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.SignedConv

/-! ## The body's arithmetic at an index -/

/-- A [4000, 1] column broadcast along the lanes reads its row's entry. -/
theorem bcast_col (v : FVec Ideal S4000x1 .f32) (h : S4000x1.Broadcasts S4000x256) (r : Fin 4000) (f : Fin 256) :
    broadcastTo S4000x256 v h (ix2 r f) = v (ix2 r 0) :=
  broadcastTo_apply v h (ix2 r f) (ix2 r 0) fun a => by
    match a with
    | ⟨0, _⟩ => rfl
    | ⟨1, _⟩ => rfl

/-- A [4000] vector viewed as a [4000, 1] column reads the same entry. -/
theorem cast_col (v : FVec Ideal S4000 .f32) (h : S4000.ShapeCasts S4000x1) (r : Fin 4000) :
    shapeCast S4000x1 v h (ix2 r 0) = v (ix1 r) :=
  shapeCast_apply v h (ix2 r 0) (ix1 r) (by
    rw [Shape.rowMajor_val_one, Shape.rowMajor_val_two]
    show r.val = r.val * 1 + 0
    omega)

/-- The sum over the lanes of a [4000, 256] block into the zero accumulator, at a row. -/
theorem red_row (src : FVec Ideal S4000x256 .f32) (h : S4000x256.Reduces [1] S4000) (hφ : FKind.Formats FTy.f32)
    (hacc : (0x00000000#32 : BitVec 32) = 0x00000000#32) (r : Fin 4000) :
    multiReduction .add [1] S4000 src 0x00000000#32 h hφ hacc (ix1 r) = ∑ k : Fin 256, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The stored block at (r, f): the row's inner product of the two loaded blocks, times the first block's entry. -/
theorem pay_apply (x0 x1 : Vec Ideal S4000x256 .f32) (r : Fin 4000) (f : Fin 256) :
    k1_pay1 (F := Ideal) x0 x1 (ix2 r f) = (∑ k : Fin 256, x0 (ix2 r k) * x1 (ix2 r k)) * x0 (ix2 r f) := by
  unfold k1_pay1
  show broadcastTo S4000x256 _ _ (ix2 r f) * shapeCast S4000x256 x0 _ (ix2 r f) = _
  rw [bcast_col, cast_col, red_row, shapeCast_self, shapeCast_self]
  rfl

/-- Where the two loaded blocks are rows of the gathered feature array `xl` and the gathered attention array `rl`,
    the stored block's entry is the edge's message: the factors of each product commute. -/
theorem block_eq (x0 x1 : Vec Ideal S4000x256 .f32) (rl xl : SEF.Idx → EReal) (p : Fin 4000) (q : Fin 256) (e : Fin 800000)
    (h0 : ∀ k : Fin 256, x0 (ix2 p k) = xl (ix2 e k))
    (h1 : ∀ k : Fin 256, x1 (ix2 p k) = rl (ix2 e k)) :
    k1_pay1 (F := Ideal) x0 x1 (ix2 p q) = msgAt rl xl e q := by
  rw [pay_apply]
  unfold msgAt scoreAt
  rw [h0 q]
  congr 1
  exact Finset.sum_congr rfl fun k _ => by rw [h0 k, h1 k, mul_comm]

/-! ## From the blocks to the array -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The three index maps, decided over the grid: point t names block (t, 0) of each array. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the message array of the two gathered arrays as the region finds them. -/
theorem flushed_eq (t : Fin cfg1.N) :
    (dat1 (F := Ideal) V c).flushed 2 t
      = ((cfg1.win 2).blk t).view.read (Elt Ideal) (msg (V c main_v16) (V c main_v15)) := by
  show (cfg1.win 2).cut (grid1.coords t) ((dat1 V c).after 2 t) = _
  rw [after1_2]
  unfold out1_2
  rw [View.canon_unit_zero hz]
  simp only [View.ld_unit_zero (S := S4000x256) hz]
  obtain ⟨e00, e01, e10, e11, e20, e21⟩ := idx_facts t
  funext j
  show k1_pay1 (F := Ideal) (iblk1 V c 0 t) (iblk1 V c 1 t) j
    = msg (V c main_v16) (V c main_v15) (((cfg1.win 2).blk t).view.emb j)
  have hi1 : ((((cfg1.win 2).blk t).view.emb j) 1 : Fin 256) = j 1 := Fin.ext (by
    show win1_2.index t (1 : Fin 2) * 256 + 1 * (j 1).val = (j 1).val
    omega)
  refine ((congrArg (k1_pay1 (F := Ideal) (iblk1 V c 0 t) (iblk1 V c 1 t)) (eq_ix2 (n0 := 4000) (n1 := 256) j)).trans
    (block_eq (iblk1 V c 0 t) (iblk1 V c 1 t) (V c main_v16) (V c main_v15) (j 0) (j 1)
      ((((cfg1.win 2).blk t).view.emb j) 0) ?_ ?_)).trans ?_
  · intro k
    show V c main_v15 (((cfg1.win 0).blk t).view.emb (ix2 (j 0) k)) = V c main_v15 _
    refine congrArg (V c main_v15) (funext fun a => Fin.ext ?_)
    match a with
    | ⟨0, _⟩ =>
      show win1_0.index t (0 : Fin 2) * 4000 + 1 * (j 0).val = win1_2.index t (0 : Fin 2) * 4000 + 1 * (j 0).val
      omega
    | ⟨1, _⟩ =>
      show win1_0.index t (1 : Fin 2) * 256 + 1 * k.val = k.val
      omega
  · intro k
    show V c main_v16 (((cfg1.win 1).blk t).view.emb (ix2 (j 0) k)) = V c main_v16 _
    refine congrArg (V c main_v16) (funext fun a => Fin.ext ?_)
    match a with
    | ⟨0, _⟩ =>
      show win1_1.index t (0 : Fin 2) * 4000 + 1 * (j 0).val = win1_2.index t (0 : Fin 2) * 4000 + 1 * (j 0).val
      omega
    | ⟨1, _⟩ =>
      show win1_1.index t (1 : Fin 2) * 256 + 1 * k.val = k.val
      omega
  · show msgAt _ _ _ _ = msgAt _ _ _ ((((cfg1.win 2).blk t).view.emb j) 1)
    rw [hi1]

/-- An index of the array is in point t's block iff each coordinate is in the block's range on its axis. -/
theorem mem_blk (t : Fin cfg1.N) (i : S800000x256.Idx) :
    i ∈ ((cfg1.win 2).blk t).view.set
      ↔ ∀ a : Fin 2, win1_2.index t a * S4000x256.size a ≤ (i a).val
          ∧ (i a).val < win1_2.index t a * S4000x256.size a + S4000x256.size a := by
  show i ∈ ((View.whole main_v19).slice (win1_2.rect t)).set ↔ _
  rw [View.set_slice_whole, Rect.mem_set_unit]
  exact Iff.rfl

/-- Every row of the array is in some point's block: row r in block r / 4000. -/
theorem covered (i : S800000x256.Idx) :
    ∃ t : Fin cfg1.N, (cfg1.win 2).flush t = true ∧ i ∈ ((cfg1.win 2).blk t).view.set := by
  have hi0 : (i 0).val < 800000 := idx2_lt0 i
  have hi1 : (i 1).val < 256 := idx2_lt1 i
  have hN : cfg1.N = 200 := N_1
  refine ⟨⟨(i 0).val / 4000, by rw [hN]; omega⟩, flush1_2 _, ?_⟩
  rw [mem_blk]
  obtain ⟨-, -, -, -, e20, e21⟩ := idx_facts ⟨(i 0).val / 4000, by rw [hN]; omega⟩
  intro a
  match a with
  | ⟨0, _⟩ =>
    show win1_2.index _ (0 : Fin 2) * 4000 ≤ (i 0).val ∧ (i 0).val < win1_2.index _ (0 : Fin 2) * 4000 + 4000
    rw [e20]
    show (i 0).val / 4000 * 4000 ≤ (i 0).val ∧ (i 0).val < (i 0).val / 4000 * 4000 + 4000
    omega
  | ⟨1, _⟩ =>
    show win1_2.index _ (1 : Fin 2) * 256 ≤ (i 1).val ∧ (i 1).val < win1_2.index _ (1 : Fin 2) * 256 + 256
    rw [e21]
    omega

/-- The output array after the last point: every edge's message. -/
theorem region1_array :
    (dat1 (F := Ideal) V c).arrAt 2 cfg1.N = msg (V c main_v16) (V c main_v15) :=
  (dat1 (F := Ideal) V c).arrAt_eq_of_cover 2 (msg (V c main_v16) (V c main_v15)) (fun t _ => flushed_eq V c t) (covered)

end Cert.KernelIdeal.Region1

end
-- ==== Proof.Region2.lean ====
/-
  What the second per-edge message computation (the negative edges) leaves in its [800000, 256] output array: entry (e, f)
  is the inner product of row e of the gathered attention rows with row e of the gathered feature rows, times entry
  (e, f) of the feature rows.  First the body's stored block read at an index (a lane sum into the zero accumulator,
  kept as a column and broadcast back along the lanes); then each grid point's block is block (t, 0) of that one
  array function, because all three index maps send point t to block (t, 0); then the 200 blocks of 4000 rows cover
  the array, row r lying in block r / 4000.
-/
import proofs.«405337_j10660108829350_1_alg».proof.Proof.Gen.KernelIdeal.Frame
import proofs.«405337_j10660108829350_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.SignedConv

/-! ## The body's arithmetic at an index -/

/-- A [4000, 1] column broadcast along the lanes reads its row's entry. -/
theorem bcast_col (v : FVec Ideal S4000x1 .f32) (h : S4000x1.Broadcasts S4000x256) (r : Fin 4000) (f : Fin 256) :
    broadcastTo S4000x256 v h (ix2 r f) = v (ix2 r 0) :=
  broadcastTo_apply v h (ix2 r f) (ix2 r 0) fun a => by
    match a with
    | ⟨0, _⟩ => rfl
    | ⟨1, _⟩ => rfl

/-- A [4000] vector viewed as a [4000, 1] column reads the same entry. -/
theorem cast_col (v : FVec Ideal S4000 .f32) (h : S4000.ShapeCasts S4000x1) (r : Fin 4000) :
    shapeCast S4000x1 v h (ix2 r 0) = v (ix1 r) :=
  shapeCast_apply v h (ix2 r 0) (ix1 r) (by
    rw [Shape.rowMajor_val_one, Shape.rowMajor_val_two]
    show r.val = r.val * 1 + 0
    omega)

/-- The sum over the lanes of a [4000, 256] block into the zero accumulator, at a row. -/
theorem red_row (src : FVec Ideal S4000x256 .f32) (h : S4000x256.Reduces [1] S4000) (hφ : FKind.Formats FTy.f32)
    (hacc : (0x00000000#32 : BitVec 32) = 0x00000000#32) (r : Fin 4000) :
    multiReduction .add [1] S4000 src 0x00000000#32 h hφ hacc (ix1 r) = ∑ k : Fin 256, src (ix2 r k) := by
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The stored block at (r, f): the row's inner product of the two loaded blocks, times the first block's entry. -/
theorem pay_apply (x0 x1 : Vec Ideal S4000x256 .f32) (r : Fin 4000) (f : Fin 256) :
    k2_pay1 (F := Ideal) x0 x1 (ix2 r f) = (∑ k : Fin 256, x0 (ix2 r k) * x1 (ix2 r k)) * x0 (ix2 r f) := by
  unfold k2_pay1
  show broadcastTo S4000x256 _ _ (ix2 r f) * shapeCast S4000x256 x0 _ (ix2 r f) = _
  rw [bcast_col, cast_col, red_row, shapeCast_self, shapeCast_self]
  rfl

/-- Where the two loaded blocks are rows of the gathered feature array `xl` and the gathered attention array `rl`,
    the stored block's entry is the edge's message: the factors of each product commute. -/
theorem block_eq (x0 x1 : Vec Ideal S4000x256 .f32) (rl xl : SEF.Idx → EReal) (p : Fin 4000) (q : Fin 256) (e : Fin 800000)
    (h0 : ∀ k : Fin 256, x0 (ix2 p k) = xl (ix2 e k))
    (h1 : ∀ k : Fin 256, x1 (ix2 p k) = rl (ix2 e k)) :
    k2_pay1 (F := Ideal) x0 x1 (ix2 p q) = msgAt rl xl e q := by
  rw [pay_apply]
  unfold msgAt scoreAt
  rw [h0 q]
  congr 1
  exact Finset.sum_congr rfl fun k _ => by rw [h0 k, h1 k, mul_comm]

/-! ## From the blocks to the array -/

variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The three index maps, decided over the grid: point t names block (t, 0) of each array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is block t of the message array of the two gathered arrays as the region finds them. -/
theorem flushed_eq (t : Fin cfg2.N) :
    (dat2 (F := Ideal) V c).flushed 2 t
      = ((cfg2.win 2).blk t).view.read (Elt Ideal) (msg (V c main_v18) (V c main_v17)) := by
  show (cfg2.win 2).cut (grid2.coords t) ((dat2 V c).after 2 t) = _
  rw [after2_2]
  unfold out2_2
  rw [View.canon_unit_zero hz]
  simp only [View.ld_unit_zero (S := S4000x256) hz]
  obtain ⟨e00, e01, e10, e11, e20, e21⟩ := idx_facts t
  funext j
  show k2_pay1 (F := Ideal) (iblk2 V c 0 t) (iblk2 V c 1 t) j
    = msg (V c main_v18) (V c main_v17) (((cfg2.win 2).blk t).view.emb j)
  have hi1 : ((((cfg2.win 2).blk t).view.emb j) 1 : Fin 256) = j 1 := Fin.ext (by
    show win2_2.index t (1 : Fin 2) * 256 + 1 * (j 1).val = (j 1).val
    omega)
  refine ((congrArg (k2_pay1 (F := Ideal) (iblk2 V c 0 t) (iblk2 V c 1 t)) (eq_ix2 (n0 := 4000) (n1 := 256) j)).trans
    (block_eq (iblk2 V c 0 t) (iblk2 V c 1 t) (V c main_v18) (V c main_v17) (j 0) (j 1)
      ((((cfg2.win 2).blk t).view.emb j) 0) ?_ ?_)).trans ?_
  · intro k
    show V c main_v17 (((cfg2.win 0).blk t).view.emb (ix2 (j 0) k)) = V c main_v17 _
    refine congrArg (V c main_v17) (funext fun a => Fin.ext ?_)
    match a with
    | ⟨0, _⟩ =>
      show win2_0.index t (0 : Fin 2) * 4000 + 1 * (j 0).val = win2_2.index t (0 : Fin 2) * 4000 + 1 * (j 0).val
      omega
    | ⟨1, _⟩ =>
      show win2_0.index t (1 : Fin 2) * 256 + 1 * k.val = k.val
      omega
  · intro k
    show V c main_v18 (((cfg2.win 1).blk t).view.emb (ix2 (j 0) k)) = V c main_v18 _
    refine congrArg (V c main_v18) (funext fun a => Fin.ext ?_)
    match a with
    | ⟨0, _⟩ =>
      show win2_1.index t (0 : Fin 2) * 4000 + 1 * (j 0).val = win2_2.index t (0 : Fin 2) * 4000 + 1 * (j 0).val
      omega
    | ⟨1, _⟩ =>
      show win2_1.index t (1 : Fin 2) * 256 + 1 * k.val = k.val
      omega
  · show msgAt _ _ _ _ = msgAt _ _ _ ((((cfg2.win 2).blk t).view.emb j) 1)
    rw [hi1]

/-- An index of the array is in point t's block iff each coordinate is in the block's range on its axis. -/
theorem mem_blk (t : Fin cfg2.N) (i : S800000x256.Idx) :
    i ∈ ((cfg2.win 2).blk t).view.set
      ↔ ∀ a : Fin 2, win2_2.index t a * S4000x256.size a ≤ (i a).val
          ∧ (i a).val < win2_2.index t a * S4000x256.size a + S4000x256.size a := by
  show i ∈ ((View.whole main_v20).slice (win2_2.rect t)).set ↔ _
  rw [View.set_slice_whole, Rect.mem_set_unit]
  exact Iff.rfl

/-- Every row of the array is in some point's block: row r in block r / 4000. -/
theorem covered (i : S800000x256.Idx) :
    ∃ t : Fin cfg2.N, (cfg2.win 2).flush t = true ∧ i ∈ ((cfg2.win 2).blk t).view.set := by
  have hi0 : (i 0).val < 800000 := idx2_lt0 i
  have hi1 : (i 1).val < 256 := idx2_lt1 i
  have hN : cfg2.N = 200 := N_2
  refine ⟨⟨(i 0).val / 4000, by rw [hN]; omega⟩, flush2_2 _, ?_⟩
  rw [mem_blk]
  obtain ⟨-, -, -, -, e20, e21⟩ := idx_facts ⟨(i 0).val / 4000, by rw [hN]; omega⟩
  intro a
  match a with
  | ⟨0, _⟩ =>
    show win2_2.index _ (0 : Fin 2) * 4000 ≤ (i 0).val ∧ (i 0).val < win2_2.index _ (0 : Fin 2) * 4000 + 4000
    rw [e20]
    show (i 0).val / 4000 * 4000 ≤ (i 0).val ∧ (i 0).val < (i 0).val / 4000 * 4000 + 4000
    omega
  | ⟨1, _⟩ =>
    show win2_2.index _ (1 : Fin 2) * 256 ≤ (i 1).val ∧ (i 1).val < win2_2.index _ (1 : Fin 2) * 256 + 256
    rw [e21]
    omega

/-- The output array after the last point: every edge's message. -/
theorem region2_array :
    (dat2 (F := Ideal) V c).arrAt 2 cfg2.N = msg (V c main_v18) (V c main_v17) :=
  (dat2 (F := Ideal) V c).arrAt_eq_of_cover 2 (msg (V c main_v18) (V c main_v17)) (fun t _ => flushed_eq V c t) (covered)

end Cert.KernelIdeal.Region2

end
-- ==== Proof.Region3.lean ====
/-
  What the last tiled computation leaves in its output array.  The grid has 25 points; point t reads rows
  2000 t … 2000 t + 1999 of the summed messages, of the reciprocal counts and of the features, and the six weight and
  bias arrays whole, and writes rows 2000 t … 2000 t + 1999 of the [50000, 256] result as two column rectangles:
  columns 0 … 127 hold the positive sign's half, columns 128 … 255 the negative sign's.  A half at (n, j) is
  (Σ_f (ag[n, f] · rc[n, 0]) · w[f, j]  +  Σ_f x[n, f] · wc[f, j])  +  b[0, j];  the specification's `comboAt` groups the
  same three terms as  a + (b + c),  and addition on the extended reals is associative.  The narrowing of a factor to
  a shorter format is the identity on extended reals.  The 25 row blocks cover the 50000 rows (row r lies in block
  r / 2000), so the array ends holding `combo` of the eleven arrays the computation finds.
-/
import proofs.«405337_j10660108829350_1_alg».proof.Proof.Gen.KernelIdeal.Frame
import proofs.«405337_j10660108829350_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.SignedConv

/-- The two-entry offset vector of zeros, as the constant function. -/
theorem hz : (![0, 0] : Fin 2 → Nat) = fun _ => 0 := funext fun a => by fin_cases a <;> rfl

/-! ## A product of a [2000,256] block with a [256,128] matrix, at an entry -/

theorem lhs_dot_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_dot_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_dot_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_dot_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block product into a zero accumulator, at entry (p, q), is the sum over the 256 shared coordinates. -/
theorem matmul_at {φ₁ φ₂ : FTy} (a : FVec Ideal S2000x256 φ₁) (b : FVec Ideal S256x128 φ₂) (p : Fin 2000) (q : Fin 128) :
    matmul dot_S2000x256_S256x128_S2000x128_1_0_0_1_n_n none a b (constant (F := Ideal) S2000x128 .f32 0x00000000#32) (ix2 p q)
      = ∑ k : Fin 256, a (ix2 p k) * b (ix2 k q) := by
  show FloatOps.matmul _ _ _ _ _ _ = _
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-! ## The two broadcasts, at an entry -/

/-- A [2000,1] column broadcast along the lanes reads its row's entry. -/
theorem bcast_col_at {α : Type} (v : S2000x1.Idx → α) (p : Fin 2000) (k : Fin 256) :
    broadcastTo S2000x256 v broadcasts_S2000x1_S2000x256 (ix2 p k) = v (ix2 p 0) :=
  broadcastTo_apply v broadcasts_S2000x1_S2000x256 (ix2 p k) (ix2 p 0) (fun a => match a with
    | ⟨0, _⟩ => rfl
    | ⟨1, _⟩ => rfl)

/-- A [1,128] row broadcast down the rows reads its column's entry. -/
theorem bcast_row_at {α : Type} (v : S1x128.Idx → α) (p : Fin 2000) (q : Fin 128) :
    broadcastTo S2000x128 v broadcasts_S1x128_S2000x128 (ix2 p q) = v (ix2 0 q) :=
  broadcastTo_apply v broadcasts_S1x128_S2000x128 (ix2 p q) (ix2 0 q) (fun a => match a with
    | ⟨0, _⟩ => rfl
    | ⟨1, _⟩ => rfl)

/-! ## The two stored payloads, at an entry -/

/-- The positive half's payload at (p, q): the normalised messages against one weight matrix, plus the features against
    the other, plus the bias, in the order the kernel adds them. -/
theorem pay4_at (x0 : Vec Ideal S2000x256 .f32) (x1 : Vec Ideal S2000x1 .f32) (x4 : Vec Ideal S2000x256 .f32)
    (x5 x6 : Vec Ideal S256x128 .f32) (x7 : Vec Ideal S1x128 .f32) (p : Fin 2000) (q : Fin 128) :
    k3_pay4 (F := Ideal) x0 x1 x4 x5 x6 x7 (ix2 p q)
      = ((∑ f : Fin 256, (x0 (ix2 p f) * x1 (ix2 p 0)) * x5 (ix2 f q)) + (∑ f : Fin 256, x4 (ix2 p f) * x6 (ix2 f q))) + x7 (ix2 0 q) := by
  unfold k3_pay4 k3_pay2
  simp only [shapeCast_self]
  rw [addf_apply, addf_apply, matmul_at, matmul_at, bcast_row_at]
  simp only [truncf_apply, mulf_apply, bcast_col_at]

/-- The negative half's payload at (p, q), the same with the negative sign's arrays. -/
theorem pay1_at (x2 : Vec Ideal S2000x256 .f32) (x3 : Vec Ideal S2000x1 .f32) (x4 : Vec Ideal S2000x256 .f32)
    (x8 x9 : Vec Ideal S256x128 .f32) (x10 : Vec Ideal S1x128 .f32) (p : Fin 2000) (q : Fin 128) :
    k3_pay1 (F := Ideal) (k3_pay2 x4) (k3_pay3 x9) (k3_pay5 x2 x3 x8) x10 (ix2 p q)
      = ((∑ f : Fin 256, (x2 (ix2 p f) * x3 (ix2 p 0)) * x8 (ix2 f q)) + (∑ f : Fin 256, x4 (ix2 p f) * x9 (ix2 f q))) + x10 (ix2 0 q) := by
  unfold k3_pay1 k3_pay2 k3_pay3 k3_pay5
  simp only [shapeCast_self]
  rw [addf_apply, addf_apply, matmul_at, matmul_at, bcast_row_at]
  simp only [truncf_apply, mulf_apply, bcast_col_at]

/-! ## The stored block as one function of its index -/

/-- One half of a stored block at row p, column q, in the order the kernel adds. -/
def halfBlk (ag : Vec Ideal S2000x256 .f32) (rc : Vec Ideal S2000x1 .f32) (x : Vec Ideal S2000x256 .f32)
    (w wc : Vec Ideal S256x128 .f32) (b : Vec Ideal S1x128 .f32) (p : Fin 2000) (q : Fin 128) : EReal :=
  ((∑ f : Fin 256, (ag (ix2 p f) * rc (ix2 p 0)) * w (ix2 f q)) + (∑ f : Fin 256, x (ix2 p f) * wc (ix2 f q))) + b (ix2 0 q)

/-- The whole [2000,256] block: the positive half in columns 0 … 127, the negative half in columns 128 … 255. -/
def blockFn (x0 : Vec Ideal S2000x256 .f32) (x1 : Vec Ideal S2000x1 .f32) (x2 : Vec Ideal S2000x256 .f32) (x3 : Vec Ideal S2000x1 .f32)
    (x4 : Vec Ideal S2000x256 .f32) (x5 x6 : Vec Ideal S256x128 .f32) (x7 : Vec Ideal S1x128 .f32) (x8 x9 : Vec Ideal S256x128 .f32)
    (x10 : Vec Ideal S1x128 .f32) : S2000x256.Idx → EReal := fun y =>
  if h : (y 1).val < 128 then halfBlk x0 x1 x4 x5 x6 x7 (y 0) ⟨(y 1).val, h⟩
  else halfBlk x2 x3 x4 x8 x9 x10 (y 0) ⟨(y 1).val - 128, by have := idx2_lt1 y; omega⟩

/-- The two column rectangles the body stores, read back, are that one function. -/
theorem out_eq (x0 : Vec Ideal S2000x256 .f32) (x1 : Vec Ideal S2000x1 .f32) (x2 : Vec Ideal S2000x256 .f32) (x3 : Vec Ideal S2000x1 .f32)
    (x4 : Vec Ideal S2000x256 .f32) (x5 x6 : Vec Ideal S256x128 .f32) (x7 : Vec Ideal S1x128 .f32) (x8 x9 : Vec Ideal S256x128 .f32)
    (x10 : Vec Ideal S1x128 .f32) (y : S2000x256.Idx) :
    out3_11 (F := Ideal) x0 x1 x2 x3 x4 x5 x6 x7 x8 x9 x10 y = blockFn x0 x1 x2 x3 x4 x5 x6 x7 x8 x9 x10 y := by
  unfold out3_11
  simp only [View.ld_unit_zero (S := S2000x256) hz, View.ld_unit_zero (S := S2000x1) hz, View.ld_unit_zero (S := S256x128) hz, View.ld_unit_zero (S := S1x128) hz]
  refine View.canon_apply_of_pieces (Val := Elt Ideal) (e := .f32) (blockFn x0 x1 x2 x3 x4 x5 x6 x7 x8 x9 x10) _ ?_ y (cover3_11 _ _ y)
  intro pc hpc x
  simp only [List.mem_cons, List.not_mem_nil, or_false] at hpc
  rcases hpc with rfl | rfl
  · obtain ⟨p, q, rfl⟩ : ∃ (p : Fin 2000) (q : Fin 128), x = ix2 p q := ⟨x 0, x 1, eq_ix2 x⟩
    show k3_pay1 (F := Ideal) (k3_pay2 x4) (k3_pay3 x9) (k3_pay5 x2 x3 x8) x10 (ix2 p q) = _
    rw [pay1_at]
    have h1 : ((r3_5.emb (ix2 p q)) 1).val = 128 + q.val := by
      rw [Rect.emb_apply]; show 128 + 1 * q.val = _; omega
    have h0 : (r3_5.emb (ix2 p q)) 0 = p := Fin.ext (by
      rw [Rect.emb_apply]; show 0 + 1 * p.val = _; omega)
    unfold blockFn
    rw [dif_neg (by rw [h1]; omega), h0]
    have hq : (⟨((r3_5.emb (ix2 p q)) 1).val - 128, by rw [h1]; omega⟩ : Fin 128) = q := Fin.ext (by show _ - 128 = _; rw [h1]; omega)
    rw [hq]
    rfl
  · obtain ⟨p, q, rfl⟩ : ∃ (p : Fin 2000) (q : Fin 128), x = ix2 p q := ⟨x 0, x 1, eq_ix2 x⟩
    show k3_pay4 (F := Ideal) x0 x1 x4 x5 x6 x7 (ix2 p q) = _
    rw [pay4_at]
    have h1 : ((r3_4.emb (ix2 p q)) 1).val = q.val := by
      rw [Rect.emb_apply]; show 0 + 1 * q.val = _; omega
    have h0 : (r3_4.emb (ix2 p q)) 0 = p := Fin.ext (by
      rw [Rect.emb_apply]; show 0 + 1 * p.val = _; omega)
    unfold blockFn
    rw [dif_pos (by rw [h1]; exact q.isLt), h0]
    have hq : (⟨((r3_4.emb (ix2 p q)) 1).val, by rw [h1]; exact q.isLt⟩ : Fin 128) = q := Fin.ext h1
    rw [hq]
    rfl

/-! ## The input blocks as rows of the arrays the region finds -/

variable (V : (c : Dev nD) → (b : Ref sig .tc) → Buf (Elt Ideal) ((c : Thread nD τ).loc b)) (c : Dev nD)

/-- The index maps over the 25 points: the five row-blocked inputs and the output take block (t, 0); the six weight
    and bias windows take the whole array at every point. -/
theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0)
    ∧ (win3_11.index t (0 : Fin 2) = t.val ∧ win3_11.index t (1 : Fin 2) = 0) :=
  (by decide +kernel : ∀ t : Fin grid3.N, _)

/-- Block t of the summed positive messages is rows 2000 t … 2000 t + 1999. -/
theorem blk0_at (t : Fin cfg3.N) (p : Fin 2000) (f : Fin 256) (n : Fin 50000) (hn : n.val = 2000 * t.val + p.val) :
    (iblk3 (F := Ideal) V c 0 t : Vec Ideal S2000x256 .f32) (ix2 p f) = (V c main_v23 : SNF.Idx → EReal) (ix2 n f) := by
  obtain ⟨h0, h1, h2, h3, h4, h5, h6, h7, h8, h9, h10, h11⟩ := idx_facts t
  obtain ⟨e0, e1⟩ := h0
  unfold iblk3
  rw [View.read_apply]
  show V c main_v23 _ = V c main_v23 _
  congr 1
  funext a
  apply Fin.ext
  match a with
  | ⟨0, _⟩ => show win3_0.index t (0 : Fin 2) * 2000 + 1 * p.val = n.val; rw [e0, hn]; omega
  | ⟨1, _⟩ => show win3_0.index t (1 : Fin 2) * 256 + 1 * f.val = f.val; rw [e1]; omega

/-- Block t of the positive reciprocal counts is rows 2000 t … 2000 t + 1999 of the column. -/
theorem blk1_at (t : Fin cfg3.N) (p : Fin 2000) (n : Fin 50000) (hn : n.val = 2000 * t.val + p.val) :
    (iblk3 (F := Ideal) V c 1 t : Vec Ideal S2000x1 .f32) (ix2 p 0) = (V c main_v39 : SN1.Idx → EReal) (ix2 n 0) := by
  obtain ⟨h0, h1, h2, h3, h4, h5, h6, h7, h8, h9, h10, h11⟩ := idx_facts t
  obtain ⟨e0, e1⟩ := h1
  unfold iblk3
  rw [View.read_apply]
  show V c main_v39 _ = V c main_v39 _
  congr 1
  funext a
  apply Fin.ext
  match a with
  | ⟨0, _⟩ => show win3_1.index t (0 : Fin 2) * 2000 + 1 * p.val = n.val; rw [e0, hn]; omega
  | ⟨1, _⟩ => show win3_1.index t (1 : Fin 2) * 1 + 1 * 0 = 0; rw [e1]

/-- Block t of the summed negative messages, the same rows. -/
theorem blk2_at (t : Fin cfg3.N) (p : Fin 2000) (f : Fin 256) (n : Fin 50000) (hn : n.val = 2000 * t.val + p.val) :
    (iblk3 (F := Ideal) V c 2 t : Vec Ideal S2000x256 .f32) (ix2 p f) = (V c main_v30 : SNF.Idx → EReal) (ix2 n f) := by
  obtain ⟨h0, h1, h2, h3, h4, h5, h6, h7, h8, h9, h10, h11⟩ := idx_facts t
  obtain ⟨e0, e1⟩ := h2
  unfold iblk3
  rw [View.read_apply]
  show V c main_v30 _ = V c main_v30 _
  congr 1
  funext a
  apply Fin.ext
  match a with
  | ⟨0, _⟩ => show win3_2.index t (0 : Fin 2) * 2000 + 1 * p.val = n.val; rw [e0, hn]; omega
  | ⟨1, _⟩ => show win3_2.index t (1 : Fin 2) * 256 + 1 * f.val = f.val; rw [e1]; omega

/-- Block t of the negative reciprocal counts, the same rows. -/
theorem blk3_at (t : Fin cfg3.N) (p : Fin 2000) (n : Fin 50000) (hn : n.val = 2000 * t.val + p.val) :
    (iblk3 (F := Ideal) V c 3 t : Vec Ideal S2000x1 .f32) (ix2 p 0) = (V c main_v44 : SN1.Idx → EReal) (ix2 n 0) := by
  obtain ⟨h0, h1, h2, h3, h4, h5, h6, h7, h8, h9, h10, h11⟩ := idx_facts t
  obtain ⟨e0, e1⟩ := h3
  unfold iblk3
  rw [View.read_apply]
  show V c main_v44 _ = V c main_v44 _
  congr 1
  funext a
  apply Fin.ext
  match a with
  | ⟨0, _⟩ => show win3_3.index t (0 : Fin 2) * 2000 + 1 * p.val = n.val; rw [e0, hn]; omega
  | ⟨1, _⟩ => show win3_3.index t (1 : Fin 2) * 1 + 1 * 0 = 0; rw [e1]

/-- Block t of the features, the same rows. -/
theorem blk4_at (t : Fin cfg3.N) (p : Fin 2000) (f : Fin 256) (n : Fin 50000) (hn : n.val = 2000 * t.val + p.val) :
    (iblk3 (F := Ideal) V c 4 t : Vec Ideal S2000x256 .f32) (ix2 p f) = (V c main_arg0 : SNF.Idx → EReal) (ix2 n f) := by
  obtain ⟨h0, h1, h2, h3, h4, h5, h6, h7, h8, h9, h10, h11⟩ := idx_facts t
  obtain ⟨e0, e1⟩ := h4
  unfold iblk3
  rw [View.read_apply]
  show V c main_arg0 _ = V c main_arg0 _
  congr 1
  funext a
  apply Fin.ext
  match a with
  | ⟨0, _⟩ => show win3_4.index t (0 : Fin 2) * 2000 + 1 * p.val = n.val; rw [e0, hn]; omega
  | ⟨1, _⟩ => show win3_4.index t (1 : Fin 2) * 256 + 1 * f.val = f.val; rw [e1]; omega

/-- The positive sign's first weight matrix is read whole at every point. -/
theorem blk5_at (t : Fin cfg3.N) (f : Fin 256) (q : Fin 128) :
    (iblk3 (F := Ideal) V c 5 t : Vec Ideal S256x128 .f32) (ix2 f q) = (V c main_v45 : SFO.Idx → EReal) (ix2 f q) := by
  obtain ⟨h0, h1, h2, h3, h4, h5, h6, h7, h8, h9, h10, h11⟩ := idx_facts t
  obtain ⟨e0, e1⟩ := h5
  unfold iblk3
  rw [View.read_apply]
  show V c main_v45 _ = V c main_v45 _
  congr 1
  funext a
  apply Fin.ext
  match a with
  | ⟨0, _⟩ => show win3_5.index t (0 : Fin 2) * 256 + 1 * f.val = f.val; rw [e0]; omega
  | ⟨1, _⟩ => show win3_5.index t (1 : Fin 2) * 128 + 1 * q.val = q.val; rw [e1]; omega

/-- The positive sign's second weight matrix, whole. -/
theorem blk6_at (t : Fin cfg3.N) (f : Fin 256) (q : Fin 128) :
    (iblk3 (F := Ideal) V c 6 t : Vec Ideal S256x128 .f32) (ix2 f q) = (V c main_v46 : SFO.Idx → EReal) (ix2 f q) := by
  obtain ⟨h0, h1, h2, h3, h4, h5, h6, h7, h8, h9, h10, h11⟩ := idx_facts t
  obtain ⟨e0, e1⟩ := h6
  unfold iblk3
  rw [View.read_apply]
  show V c main_v46 _ = V c main_v46 _
  congr 1
  funext a
  apply Fin.ext
  match a with
  | ⟨0, _⟩ => show win3_6.index t (0 : Fin 2) * 256 + 1 * f.val = f.val; rw [e0]; omega
  | ⟨1, _⟩ => show win3_6.index t (1 : Fin 2) * 128 + 1 * q.val = q.val; rw [e1]; omega

/-- The positive sign's bias row, whole. -/
theorem blk7_at (t : Fin cfg3.N) (q : Fin 128) :
    (iblk3 (F := Ideal) V c 7 t : Vec Ideal S1x128 .f32) (ix2 0 q) = (V c main_v47 : S1O.Idx → EReal) (ix2 0 q) := by
  obtain ⟨h0, h1, h2, h3, h4, h5, h6, h7, h8, h9, h10, h11⟩ := idx_facts t
  obtain ⟨e0, e1⟩ := h7
  unfold iblk3
  rw [View.read_apply]
  show V c main_v47 _ = V c main_v47 _
  congr 1
  funext a
  apply Fin.ext
  match a with
  | ⟨0, _⟩ => show win3_7.index t (0 : Fin 2) * 1 + 1 * 0 = 0; rw [e0]
  | ⟨1, _⟩ => show win3_7.index t (1 : Fin 2) * 128 + 1 * q.val = q.val; rw [e1]; omega

/-- The negative sign's first weight matrix, whole. -/
theorem blk8_at (t : Fin cfg3.N) (f : Fin 256) (q : Fin 128) :
    (iblk3 (F := Ideal) V c 8 t : Vec Ideal S256x128 .f32) (ix2 f q) = (V c main_v48 : SFO.Idx → EReal) (ix2 f q) := by
  obtain ⟨h0, h1, h2, h3, h4, h5, h6, h7, h8, h9, h10, h11⟩ := idx_facts t
  obtain ⟨e0, e1⟩ := h8
  unfold iblk3
  rw [View.read_apply]
  show V c main_v48 _ = V c main_v48 _
  congr 1
  funext a
  apply Fin.ext
  match a with
  | ⟨0, _⟩ => show win3_8.index t (0 : Fin 2) * 256 + 1 * f.val = f.val; rw [e0]; omega
  | ⟨1, _⟩ => show win3_8.index t (1 : Fin 2) * 128 + 1 * q.val = q.val; rw [e1]; omega

/-- The negative sign's second weight matrix, whole. -/
theorem blk9_at (t : Fin cfg3.N) (f : Fin 256) (q : Fin 128) :
    (iblk3 (F := Ideal) V c 9 t : Vec Ideal S256x128 .f32) (ix2 f q) = (V c main_v49 : SFO.Idx → EReal) (ix2 f q) := by
  obtain ⟨h0, h1, h2, h3, h4, h5, h6, h7, h8, h9, h10, h11⟩ := idx_facts t
  obtain ⟨e0, e1⟩ := h9
  unfold iblk3
  rw [View.read_apply]
  show V c main_v49 _ = V c main_v49 _
  congr 1
  funext a
  apply Fin.ext
  match a with
  | ⟨0, _⟩ => show win3_9.index t (0 : Fin 2) * 256 + 1 * f.val = f.val; rw [e0]; omega
  | ⟨1, _⟩ => show win3_9.index t (1 : Fin 2) * 128 + 1 * q.val = q.val; rw [e1]; omega

/-- The negative sign's bias row, whole. -/
theorem blk10_at (t : Fin cfg3.N) (q : Fin 128) :
    (iblk3 (F := Ideal) V c 10 t : Vec Ideal S1x128 .f32) (ix2 0 q) = (V c main_v50 : S1O.Idx → EReal) (ix2 0 q) := by
  obtain ⟨h0, h1, h2, h3, h4, h5, h6, h7, h8, h9, h10, h11⟩ := idx_facts t
  obtain ⟨e0, e1⟩ := h10
  unfold iblk3
  rw [View.read_apply]
  show V c main_v50 _ = V c main_v50 _
  congr 1
  funext a
  apply Fin.ext
  match a with
  | ⟨0, _⟩ => show win3_10.index t (0 : Fin 2) * 1 + 1 * 0 = 0; rw [e0]
  | ⟨1, _⟩ => show win3_10.index t (1 : Fin 2) * 128 + 1 * q.val = q.val; rw [e1]; omega

/-! ## A block of the kernel's result is a block of the whole result -/

/-- The positive half of block t at row p is the positive half of the result at row 2000 t + p: each block entry is
    the array's entry, and (a + b) + c = a + (b + c) on the extended reals. -/
theorem half_pos (t : Fin cfg3.N) (p : Fin 2000) (q : Fin 128) (n : Fin 50000) (hn : n.val = 2000 * t.val + p.val) :
    halfBlk (iblk3 (F := Ideal) V c 0 t) (iblk3 (F := Ideal) V c 1 t) (iblk3 (F := Ideal) V c 4 t) (iblk3 (F := Ideal) V c 5 t) (iblk3 (F := Ideal) V c 6 t) (iblk3 (F := Ideal) V c 7 t) p q
      = comboAt (V c main_v23) (V c main_v39) (V c main_arg0) (V c main_v45) (V c main_v46) (V c main_v47) n q := by
  unfold halfBlk comboAt
  rw [blk7_at V c t q, add_assoc]
  congr 1
  · refine Finset.sum_congr rfl fun f _ => ?_
    rw [blk0_at V c t p f n hn, blk1_at V c t p n hn, blk5_at V c t f q]
  · congr 1
    refine Finset.sum_congr rfl fun f _ => ?_
    rw [blk4_at V c t p f n hn, blk6_at V c t f q]

/-- The negative half likewise. -/
theorem half_neg (t : Fin cfg3.N) (p : Fin 2000) (q : Fin 128) (n : Fin 50000) (hn : n.val = 2000 * t.val + p.val) :
    halfBlk (iblk3 (F := Ideal) V c 2 t) (iblk3 (F := Ideal) V c 3 t) (iblk3 (F := Ideal) V c 4 t) (iblk3 (F := Ideal) V c 8 t) (iblk3 (F := Ideal) V c 9 t) (iblk3 (F := Ideal) V c 10 t) p q
      = comboAt (V c main_v30) (V c main_v44) (V c main_arg0) (V c main_v48) (V c main_v49) (V c main_v50) n q := by
  unfold halfBlk comboAt
  rw [blk10_at V c t q, add_assoc]
  congr 1
  · refine Finset.sum_congr rfl fun f _ => ?_
    rw [blk2_at V c t p f n hn, blk3_at V c t p n hn, blk8_at V c t f q]
  · congr 1
    refine Finset.sum_congr rfl fun f _ => ?_
    rw [blk4_at V c t p f n hn, blk9_at V c t f q]

/-- Block t's function at (r, j) is the whole result at (2000 t + r, j). -/
theorem block_eq_combo (t : Fin cfg3.N) (y : S2000x256.Idx) (i : SNF.Idx)
    (h0 : (i 0).val = 2000 * t.val + (y 0).val) (h1 : (i 1).val = (y 1).val) :
    blockFn (iblk3 (F := Ideal) V c 0 t) (iblk3 (F := Ideal) V c 1 t) (iblk3 (F := Ideal) V c 2 t) (iblk3 (F := Ideal) V c 3 t) (iblk3 (F := Ideal) V c 4 t) (iblk3 (F := Ideal) V c 5 t) (iblk3 (F := Ideal) V c 6 t) (iblk3 (F := Ideal) V c 7 t) (iblk3 (F := Ideal) V c 8 t) (iblk3 (F := Ideal) V c 9 t) (iblk3 (F := Ideal) V c 10 t) y
      = combo (V c main_v23) (V c main_v39) (V c main_v30) (V c main_v44) (V c main_arg0) (V c main_v45) (V c main_v46) (V c main_v47) (V c main_v48) (V c main_v49) (V c main_v50) i := by
  unfold blockFn combo
  by_cases h : (y 1).val < 128
  · have h' : (i 1).val < 128 := by rw [h1]; exact h
    rw [dif_pos h, dif_pos h']
    exact (half_pos V c t (y 0) ⟨(y 1).val, h⟩ (i 0) h0).trans
      (congrArg (comboAt (V c main_v23) (V c main_v39) (V c main_arg0) (V c main_v45) (V c main_v46) (V c main_v47) (i 0)) (Fin.ext h1.symm))
  · have h' : ¬ (i 1).val < 128 := by rw [h1]; exact h
    rw [dif_neg h, dif_neg h']
    exact (half_neg V c t (y 0) ⟨(y 1).val - 128, by have := idx2_lt1 y; omega⟩ (i 0) h0).trans
      (congrArg (comboAt (V c main_v30) (V c main_v44) (V c main_arg0) (V c main_v48) (V c main_v49) (V c main_v50) (i 0)) (Fin.ext (by show (y 1).val - 128 = (i 1).val - 128; rw [h1])))

/-! ## What a point writes back, and the array after the last point -/

/-- What point t writes back is block t of the whole result. -/
theorem flushed_eq (t : Fin cfg3.N) :
    (dat3 (F := Ideal) V c).flushed 11 t = ((cfg3.win 11).blk t).view.read (Elt Ideal)
      (combo (V c main_v23) (V c main_v39) (V c main_v30) (V c main_v44) (V c main_arg0) (V c main_v45) (V c main_v46) (V c main_v47) (V c main_v48) (V c main_v49) (V c main_v50)) := by
  show (cfg3.win 11).cut (grid3.coords t) ((dat3 (F := Ideal) V c).after 11 t) = _
  rw [after3_11]
  obtain ⟨-, -, -, -, -, -, -, -, -, -, -, e0, e1⟩ := idx_facts t
  funext j
  show out3_11 (F := Ideal) (iblk3 (F := Ideal) V c 0 t) (iblk3 (F := Ideal) V c 1 t) (iblk3 (F := Ideal) V c 2 t) (iblk3 (F := Ideal) V c 3 t) (iblk3 (F := Ideal) V c 4 t) (iblk3 (F := Ideal) V c 5 t) (iblk3 (F := Ideal) V c 6 t) (iblk3 (F := Ideal) V c 7 t) (iblk3 (F := Ideal) V c 8 t) (iblk3 (F := Ideal) V c 9 t) (iblk3 (F := Ideal) V c 10 t) ((cfg3.win 11).xinj (grid3.coords t) j)
    = (combo (V c main_v23) (V c main_v39) (V c main_v30) (V c main_v44) (V c main_arg0) (V c main_v45) (V c main_v46) (V c main_v47) (V c main_v48) (V c main_v49) (V c main_v50)) (((cfg3.win 11).blk t).view.emb j)
  refine (out_eq (iblk3 (F := Ideal) V c 0 t) (iblk3 (F := Ideal) V c 1 t) (iblk3 (F := Ideal) V c 2 t) (iblk3 (F := Ideal) V c 3 t) (iblk3 (F := Ideal) V c 4 t) (iblk3 (F := Ideal) V c 5 t) (iblk3 (F := Ideal) V c 6 t) (iblk3 (F := Ideal) V c 7 t) (iblk3 (F := Ideal) V c 8 t) (iblk3 (F := Ideal) V c 9 t) (iblk3 (F := Ideal) V c 10 t) _).trans ?_
  refine block_eq_combo V c t _ _ ?_ ?_
  · show win3_11.index t (0 : Fin 2) * 2000 + 1 * (j 0).val = 2000 * t.val + (j 0).val
    rw [e0]; omega
  · show win3_11.index t (1 : Fin 2) * 256 + 1 * (j 1).val = (j 1).val
    rw [e1]; omega

/-- An index of the result array is in point t's block iff each coordinate is in the block's range on its axis. -/
theorem mem_blk (t : Fin cfg3.N) (i : SNF.Idx) :
    i ∈ ((cfg3.win 11).blk t).view.set ↔ ∀ a : Fin 2, win3_11.index t a * S2000x256.size a ≤ (i a).val ∧ (i a).val < win3_11.index t a * S2000x256.size a + S2000x256.size a := by
  show i ∈ ((View.whole main_v51).slice (win3_11.rect t)).set ↔ _
  rw [View.set_slice_whole, Rect.mem_set_unit]
  exact Iff.rfl

/-- THE ARRAY after the last point: the 25 row blocks cover the 50000 rows (row r is in block r / 2000), so the output
    array holds the whole result. -/
theorem region3_array :
    (dat3 (F := Ideal) V c).arrAt 11 cfg3.N
      = combo (V c main_v23) (V c main_v39) (V c main_v30) (V c main_v44) (V c main_arg0) (V c main_v45) (V c main_v46) (V c main_v47) (V c main_v48) (V c main_v49) (V c main_v50) :=
  (dat3 (F := Ideal) V c).arrAt_eq_of_cover 11 (combo (V c main_v23) (V c main_v39) (V c main_v30) (V c main_v44) (V c main_arg0) (V c main_v45) (V c main_v46) (V c main_v47) (V c main_v48) (V c main_v49) (V c main_v50))
    (fun t _ => flushed_eq V c t) (fun i => by
      have hi0 : (i 0).val < 50000 := (i 0).isLt
      have hi1 : (i 1).val < 256 := (i 1).isLt
      have hN : cfg3.N = 25 := N_3
      obtain ⟨-, -, -, -, -, -, -, -, -, -, -, e0, e1⟩ := idx_facts ⟨(i 0).val / 2000, by rw [hN]; omega⟩
      refine ⟨⟨(i 0).val / 2000, by rw [hN]; omega⟩, flush3_11 _, ?_⟩
      rw [mem_blk]
      intro a
      match a with
      | ⟨0, _⟩ =>
        show win3_11.index ⟨(i 0).val / 2000, _⟩ (0 : Fin 2) * 2000 ≤ (i 0).val ∧ (i 0).val < win3_11.index ⟨(i 0).val / 2000, _⟩ (0 : Fin 2) * 2000 + 2000
        rw [e0]; show (i 0).val / 2000 * 2000 ≤ (i 0).val ∧ (i 0).val < (i 0).val / 2000 * 2000 + 2000; omega
      | ⟨1, _⟩ =>
        show win3_11.index ⟨(i 0).val / 2000, _⟩ (1 : Fin 2) * 256 ≤ (i 1).val ∧ (i 1).val < win3_11.index ⟨(i 0).val / 2000, _⟩ (1 : Fin 2) * 256 + 256
        rw [e1]; omega)

end Cert.KernelIdeal.Region3

end
-- ==== Proof.HostReads.lean ====
/-
  What the caller's first two stretches of layout operations leave in the arrays the tiled computations and the row
  gathers read: the two attention weight matrices stacked and transposed, the two attention biases joined as a row,
  the projection's left and right halves, and each row of the two edge-index arrays as a flat vector; the features
  and the edge-index arrays themselves stay as launched.
-/
import proofs.«405337_j10660108829350_1_alg».proof.Proof.Gen.KernelIdeal.Frame
import proofs.«405337_j10660108829350_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.HostReads

open Cert.KernelIdeal Cert.KernelIdeal.Gen Cert.SignedConv

variable (m : (ℓ : Loc nD τ sig) → Buf (Elt Ideal) ℓ) (ρ : Dev nD → PrngReg)

/-- A stretch of host operations none of which writes a buffer leaves that buffer as it found it. -/
local macro "host_keeps " ops:ident : tactic =>
  `(tactic| exact StableHlo.after_of_forall_not_mem _ _ (List.forall_iff_forall_mem.mp (by
      simp only [$ops:ident, List.flatten_cons, List.flatten_nil, List.append_nil, List.cons_append, List.nil_append,
        List.Forall, StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The first stretch: the attention weights and biases laid out for the projection -/

theorem W1_arg0 (c : Dev nD) : W1 m ρ c (Proc.devRef .tc main_arg0) = m ((c : Thread nD τ).loc main_arg0) := by
  have e : W1 m ρ c (Proc.devRef .tc main_arg0) = W0 m ρ c (Proc.devRef .tc main_arg0) := by host_keeps hostOps0
  exact e.trans rfl

/-- Two [256, 256] matrices stacked along the rows: row j < 256 is the first's row j, row j ≥ 256 the second's row j − 256. -/
theorem stack_apply (A B : SFF.Idx → EReal) (j : Fin 512) (k : Fin 256) :
    concatenate S512x256 0 [⟨S256x256, A⟩, ⟨S256x256, B⟩] concatenates_S256x256_S256x256_S512x256_d0 (ix2 j k)
      = if h : j.val < 256 then A (ix2 ⟨j.val, h⟩ k) else B (ix2 ⟨j.val - 256, by have := j.isLt; omega⟩ k) := by
  by_cases h : j.val < 256
  · rw [dif_pos h]
    refine concatenate_pair_apply_left (t := S512x256) (s₁ := S256x256) (s₂ := S256x256) 0 A B _ (ix2 j k) rfl
      (ix2 ⟨j.val, h⟩ k) ?_
    intro b
    match b with
    | ⟨0, _⟩ => rfl
    | ⟨1, _⟩ => rfl
  · rw [dif_neg h]
    refine concatenate_pair_apply_right (t := S512x256) (s₁ := S256x256) (s₂ := S256x256) 0 A B _ (ix2 j k) rfl rfl
      (ix2 ⟨j.val - 256, by have := j.isLt; omega⟩ k) ?_ ?_
    · intro b hb
      match b, hb with
      | ⟨0, _⟩, hb => exact (hb (Fin.ext rfl)).elim
      | ⟨1, _⟩, _ => rfl
    · show (j.val - 256) + 256 = j.val
      omega

/-- Two [256] vectors laid end to end. -/
theorem join_apply (a b : SF.Idx → EReal) (j : Fin 512) :
    concatenate S512 0 [⟨S256, a⟩, ⟨S256, b⟩] concatenates_S256_S256_S512_d0 (ix1 j)
      = if h : j.val < 256 then a (ix1 ⟨j.val, h⟩) else b (ix1 ⟨j.val - 256, by have := j.isLt; omega⟩) := by
  by_cases h : j.val < 256
  · rw [dif_pos h]
    refine concatenate_pair_apply_left (t := S512) (s₁ := S256) (s₂ := S256) 0 a b _ (ix1 j) rfl (ix1 ⟨j.val, h⟩) ?_
    intro d
    match d with
    | ⟨0, _⟩ => rfl
  · rw [dif_neg h]
    refine concatenate_pair_apply_right (t := S512) (s₁ := S256) (s₂ := S256) 0 a b _ (ix1 j) rfl rfl
      (ix1 ⟨j.val - 256, by have := j.isLt; omega⟩) ?_ ?_
    · intro d hd
      match d, hd with
      | ⟨0, _⟩, hd => exact (hd (Fin.ext rfl)).elim
    · show (j.val - 256) + 256 = j.val
      omega

theorem W1_v3 (c : Dev nD) : W1 m ρ c (Proc.devRef .tc main_v3)
    = catT (m ((c : Thread nD τ).loc main_arg9)) (m ((c : Thread nD τ).loc main_arg11)) := by
  have e : (W1 m ρ c (Proc.devRef .tc main_v3) : S256x512.Idx → EReal)
      = transpose S256x512 [1, 0] (concatenate S512x256 0
          [⟨S256x256, m ((c : Thread nD τ).loc main_arg9)⟩, ⟨S256x256, m ((c : Thread nD τ).loc main_arg11)⟩]
          concatenates_S256x256_S256x256_S512x256_d0) transposes_S512x256_S256x512_1_0 := by
    show StableHlo.after hostOps0 _ (Proc.devRef .tc main_v3) = _
    after_results
  refine e.trans ?_
  funext i
  obtain ⟨k, j, rfl⟩ : ∃ k j, i = ix2 k j := ⟨i 0, i 1, eq_ix2 i⟩
  rw [transpose_ix2_apply, stack_apply]
  rfl

theorem W1_v2 (c : Dev nD) : W1 m ρ c (Proc.devRef .tc main_v2)
    = catRow (m ((c : Thread nD τ).loc main_arg10)) (m ((c : Thread nD τ).loc main_arg12)) := by
  have e : (W1 m ρ c (Proc.devRef .tc main_v2) : S1x512.Idx → EReal)
      = shapeCast S1x512 (concatenate S512 0
          [⟨S256, m ((c : Thread nD τ).loc main_arg10)⟩, ⟨S256, m ((c : Thread nD τ).loc main_arg12)⟩]
          concatenates_S256_S256_S512_d0) shapeCasts_S512_S1x512 := by
    show StableHlo.after hostOps0 _ (Proc.devRef .tc main_v2) = _
    after_results
    rfl
  refine e.trans ?_
  funext i
  obtain ⟨u, j, rfl⟩ : ∃ u j, i = ix2 u j := ⟨i 0, i 1, eq_ix2 i⟩
  rw [shapeCast_a_1a_apply, join_apply]
  rfl

/-! ## The second stretch: the projection's two halves and the edge-index rows -/

/-- The first tiled computation reads the features and leaves them as launched. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_arg0 m ρ c)

/-- Nothing up to the first tiled computation's exit writes either edge-index array. -/
theorem W2_arg1 (c : Dev nD) : W2 m ρ c (Proc.devRef .tc main_arg1) = m ((c : Thread nD τ).loc main_arg1) := by
  have e : W1 m ρ c (Proc.devRef .tc main_arg1) = W0 m ρ c (Proc.devRef .tc main_arg1) := by host_keeps hostOps0
  exact ((W2_of_ne m ρ c main_arg1 (by decide)).trans e).trans rfl

theorem W2_arg2 (c : Dev nD) : W2 m ρ c (Proc.devRef .tc main_arg2) = m ((c : Thread nD τ).loc main_arg2) := by
  have e : W1 m ρ c (Proc.devRef .tc main_arg2) = W0 m ρ c (Proc.devRef .tc main_arg2) := by host_keeps hostOps0
  exact ((W2_of_ne m ρ c main_arg2 (by decide)).trans e).trans rfl

theorem W3_arg0 (c : Dev nD) : W3 m ρ c (Proc.devRef .tc main_arg0) = m ((c : Thread nD τ).loc main_arg0) := by
  have e : W3 m ρ c (Proc.devRef .tc main_arg0) = W2 m ρ c (Proc.devRef .tc main_arg0) := by host_keeps hostOps1
  exact e.trans (W2_arg0 m ρ c)

theorem W3_v5 (c : Dev nD) : W3 m ρ c (Proc.devRef .tc main_v5) = leftHalf (W2 m ρ c (Proc.devRef .tc main_v4)) := by
  have e : (W3 m ρ c (Proc.devRef .tc main_v5) : S50000x256.Idx → EReal)
      = extractStridedSlice S50000x256 ![0, 0] (W2 m ρ c (Proc.devRef .tc main_v4) : S50000x512.Idx → EReal)
          slices_S50000x512_S50000x256_0_0 := by
    show StableHlo.after hostOps1 _ (Proc.devRef .tc main_v5) = _
    after_results
  refine e.trans ?_
  funext i
  obtain ⟨n, f, rfl⟩ : ∃ n f, i = ix2 n f := ⟨i 0, i 1, eq_ix2 i⟩
  exact slice2_axis1_apply 0 _ _ n f ⟨f.val, by have := f.isLt; omega⟩ (Nat.zero_add _).symm

theorem W3_v6 (c : Dev nD) : W3 m ρ c (Proc.devRef .tc main_v6) = rightHalf (W2 m ρ c (Proc.devRef .tc main_v4)) := by
  have e : (W3 m ρ c (Proc.devRef .tc main_v6) : S50000x256.Idx → EReal)
      = extractStridedSlice S50000x256 ![0, 256] (W2 m ρ c (Proc.devRef .tc main_v4) : S50000x512.Idx → EReal)
          slices_S50000x512_S50000x256_0_256 := by
    show StableHlo.after hostOps1 _ (Proc.devRef .tc main_v6) = _
    after_results
  refine e.trans ?_
  funext i
  obtain ⟨n, f, rfl⟩ : ∃ n f, i = ix2 n f := ⟨i 0, i 1, eq_ix2 i⟩
  exact slice2_axis1_apply 256 _ _ n f ⟨f.val + 256, by have := f.isLt; omega⟩ (Nat.add_comm _ _)

/-- Row r of an edge-index array cut out as a [1, E] slice and flattened to [E]. -/
theorem flat_row (a : IVec S2x800000 32) (r : Fin 2) (h : S2x800000.Slices ![r.val, 0] S1x800000) :
    shapeCast S800000 (extractStridedSlice S1x800000 ![r.val, 0] a h) shapeCasts_S1x800000_S800000 = rowFlat a r := by
  funext i
  obtain ⟨e, rfl⟩ : ∃ e, i = ix1 e := ⟨i 0, eq_ix1 i⟩
  rw [shapeCast_1a_a_apply]
  exact slice2_axis0_apply r.val a h (0 : Fin 1) e r (Nat.add_zero _).symm

theorem W3_v8 (c : Dev nD) : W3 m ρ c (Proc.devRef .tc main_v8) = rowFlat (m ((c : Thread nD τ).loc main_arg1)) 0 := by
  have e : (W3 m ρ c (Proc.devRef .tc main_v8) : IVec S800000 32)
      = shapeCast S800000 (extractStridedSlice S1x800000 ![0, 0] (W2 m ρ c (Proc.devRef .tc main_arg1) : IVec S2x800000 32)
          slices_S2x800000_S1x800000_0_0) shapeCasts_S1x800000_S800000 := by
    show StableHlo.after hostOps1 _ (Proc.devRef .tc main_v8) = _
    after_results
    rfl
  rw [e, W2_arg1]
  exact flat_row _ 0 _

theorem W3_v10 (c : Dev nD) : W3 m ρ c (Proc.devRef .tc main_v10) = rowFlat (m ((c : Thread nD τ).loc main_arg1)) 1 := by
  have e : (W3 m ρ c (Proc.devRef .tc main_v10) : IVec S800000 32)
      = shapeCast S800000 (extractStridedSlice S1x800000 ![1, 0] (W2 m ρ c (Proc.devRef .tc main_arg1) : IVec S2x800000 32)
          slices_S2x800000_S1x800000_1_0) shapeCasts_S1x800000_S800000 := by
    show StableHlo.after hostOps1 _ (Proc.devRef .tc main_v10) = _
    after_results
    rfl
  rw [e, W2_arg1]
  exact flat_row _ 1 _

theorem W3_v12 (c : Dev nD) : W3 m ρ c (Proc.devRef .tc main_v12) = rowFlat (m ((c : Thread nD τ).loc main_arg2)) 0 := by
  have e : (W3 m ρ c (Proc.devRef .tc main_v12) : IVec S800000 32)
      = shapeCast S800000 (extractStridedSlice S1x800000 ![0, 0] (W2 m ρ c (Proc.devRef .tc main_arg2) : IVec S2x800000 32)
          slices_S2x800000_S1x800000_0_0) shapeCasts_S1x800000_S800000 := by
    show StableHlo.after hostOps1 _ (Proc.devRef .tc main_v12) = _
    after_results
    rfl
  rw [e, W2_arg2]
  exact flat_row _ 0 _

theorem W3_v14 (c : Dev nD) : W3 m ρ c (Proc.devRef .tc main_v14) = rowFlat (m ((c : Thread nD τ).loc main_arg2)) 1 := by
  have e : (W3 m ρ c (Proc.devRef .tc main_v14) : IVec S800000 32)
      = shapeCast S800000 (extractStridedSlice S1x800000 ![1, 0] (W2 m ρ c (Proc.devRef .tc main_arg2) : IVec S2x800000 32)
          slices_S2x800000_S1x800000_1_0) shapeCasts_S1x800000_S800000 := by
    show StableHlo.after hostOps1 _ (Proc.devRef .tc main_v14) = _
    after_results
    rfl
  rw [e, W2_arg2]
  exact flat_row _ 1 _

end Cert.KernelIdeal.HostReads

end
-- ==== Proof.HostTail.lean ====
/-
  What the caller's last stretch of array operations, between the message computation and the final combination,
  leaves in the eleven arrays the combination reads: the messages summed per target node (a scatter-add into zeros at
  the column of target indices), the column of reciprocals 1 / max(count, 1) of the per-node edge counts (a scatter-add
  of ones, the maximum with one, the quotient of one by it, cast to a column), the four [128, 256] weight matrices
  transposed, the two [128] biases as rows, and the features untouched.
-/
import proofs.«405337_j10660108829350_1_alg».proof.Proof.Gen.KernelIdeal.Frame
import proofs.«405337_j10660108829350_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.HostTail

open Cert.KernelIdeal Cert.KernelIdeal.Gen Cert.SignedConv

variable (m : (ℓ : Loc nD τ sig) → Buf (Elt Ideal) ℓ) (ρ : Dev nD → PrngReg)

/-! ## The layout operations of the stretch, as functions -/

/-- A [128, 256] matrix transposed is `tr` of it. -/
theorem transpose_eq_tr (W : SOF.Idx → EReal) (h : SOF.Transposes [1, 0] SFO) : transpose SFO [1, 0] W h = tr W := by
  funext i
  obtain ⟨a, b, rfl⟩ : ∃ a b, i = ix2 a b := ⟨i 0, i 1, eq_ix2 i⟩
  exact transpose_ix2_apply W h a b

/-- A [128] vector cast to [1, 128] is `row` of it. -/
theorem shapeCast_eq_row (v : SO.Idx → EReal) (h : SO.ShapeCasts S1O) : shapeCast S1O v h = row v := by
  funext i
  obtain ⟨u, j, rfl⟩ : ∃ u j, i = ix2 u j := ⟨i 0, i 1, eq_ix2 i⟩
  exact shapeCast_a_1a_apply v h u j

/-- A flat [E] vector of indices broadcast along a new trailing unit axis is `colFlat` of it. -/
theorem bcast_eq_colFlat (v : IVec SE 32) (h : SE.BroadcastsInDim SE1 ![0]) : broadcastInDim SE1 ![0] h v = colFlat v := by
  funext i
  refine broadcastInDim_apply ![0] h v i (ix1 (i 0)) fun a => ?_
  have ha : a = 0 := Subsingleton.elim _ _
  subst ha
  rw [if_neg (by decide)]
  rfl

/-- A [N] vector cast to an [N, 1] column reads, at (n, 0), the vector at n. -/
theorem shapeCast_col_apply (v : SN.Idx → EReal) (h : SN.ShapeCasts SN1) (i : SN1.Idx) : shapeCast SN1 v h i = v (ix1 (i 0)) := by
  refine shapeCast_apply v h i (ix1 (i 0)) ?_
  have h1 : (i 1).val = 0 := by have := idx2_lt1 i; omega
  rw [Shape.rowMajor_val_one, Shape.rowMajor_val_two]
  show (i 0).val = (i 0).val * 1 + (i 1).val
  rw [h1, Nat.mul_one, Nat.add_zero]

/-- The scalar words 0.0 and 1.0 broadcast to any shape are the constant functions. -/
theorem bcast_zero {t : Shape} (dims : Fin S_.rank → Fin t.rank) (h : S_.BroadcastsInDim t dims) :
    broadcastInDim t dims h (constant (F := Ideal) S_ .f32 0x00000000#32) = fun _ => zero32 := by
  funext i; rfl
theorem bcast_one {t : Shape} (dims : Fin S_.rank → Fin t.rank) (h : S_.BroadcastsInDim t dims) :
    broadcastInDim t dims h (constant (F := Ideal) S_ .f32 0x3F800000#32) = fun _ => one32 := by
  funext i; rfl

/-- The reciprocal-count chain: 1 / max(count, 1) as a column. -/
theorem recip_chain (ct : SN.Idx → EReal) (h : SN.ShapeCasts SN1) :
    shapeCast SN1 (Host.divf (F := Ideal) (s := SN) (φ := .f32) (fun _ => one32) (maximumf (F := Ideal) (s := SN) (φ := .f32) ct (fun _ => one32))) h = recipCol ct := by
  funext i
  rw [shapeCast_col_apply]
  rfl

/-! ## What the stretch leaves in the buffers the last region reads -/

theorem W10_arg0 (c : Dev nD) : W10 m ρ c (Proc.devRef .tc main_arg0) = W9 m ρ c (Proc.devRef .tc main_arg0) :=
  StableHlo.after_of_forall_not_mem (b := Proc.devRef .tc main_arg0) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem W10_v23 (c : Dev nD) : W10 m ρ c (Proc.devRef .tc main_v23)
    = Host.scatterAdd (F := Ideal) (φ := .f32) scatter_S50000x256_S800000x1_S800000x256_1_0_0_1 (fun _ => zero32) (colFlat (W9 m ρ c (Proc.devRef .tc main_v8))) (W9 m ρ c (Proc.devRef .tc main_v19)) := by
  show StableHlo.after hostOps3 _ (Proc.devRef .tc main_v23) = _
  after_results
  rw [bcast_zero, bcast_eq_colFlat]

theorem W10_v39 (c : Dev nD) : W10 m ρ c (Proc.devRef .tc main_v39)
    = recipCol (Host.scatterAdd (F := Ideal) (φ := .f32) scatter_S50000_S800000x1_S800000_n_0_0_1 (fun _ => zero32) (colFlat (W9 m ρ c (Proc.devRef .tc main_v8))) (fun _ => one32)) := by
  show StableHlo.after hostOps3 _ (Proc.devRef .tc main_v39) = _
  after_results
  simp only [bcast_zero, bcast_one, bcast_eq_colFlat]
  exact recip_chain _ _

theorem W10_v30 (c : Dev nD) : W10 m ρ c (Proc.devRef .tc main_v30)
    = Host.scatterAdd (F := Ideal) (φ := .f32) scatter_S50000x256_S800000x1_S800000x256_1_0_0_1 (fun _ => zero32) (colFlat (W9 m ρ c (Proc.devRef .tc main_v12))) (W9 m ρ c (Proc.devRef .tc main_v20)) := by
  show StableHlo.after hostOps3 _ (Proc.devRef .tc main_v30) = _
  after_results
  rw [bcast_zero, bcast_eq_colFlat]

theorem W10_v44 (c : Dev nD) : W10 m ρ c (Proc.devRef .tc main_v44)
    = recipCol (Host.scatterAdd (F := Ideal) (φ := .f32) scatter_S50000_S800000x1_S800000_n_0_0_1 (fun _ => zero32) (colFlat (W9 m ρ c (Proc.devRef .tc main_v12))) (fun _ => one32)) := by
  show StableHlo.after hostOps3 _ (Proc.devRef .tc main_v44) = _
  after_results
  simp only [bcast_zero, bcast_one, bcast_eq_colFlat]
  exact recip_chain _ _

theorem W10_v45 (c : Dev nD) : W10 m ρ c (Proc.devRef .tc main_v45) = tr (W9 m ρ c (Proc.devRef .tc main_arg3)) := by
  show StableHlo.after hostOps3 _ (Proc.devRef .tc main_v45) = _
  after_results
  exact transpose_eq_tr _ _

theorem W10_v46 (c : Dev nD) : W10 m ρ c (Proc.devRef .tc main_v46) = tr (W9 m ρ c (Proc.devRef .tc main_arg4)) := by
  show StableHlo.after hostOps3 _ (Proc.devRef .tc main_v46) = _
  after_results
  exact transpose_eq_tr _ _

theorem W10_v47 (c : Dev nD) : W10 m ρ c (Proc.devRef .tc main_v47) = row (W9 m ρ c (Proc.devRef .tc main_arg5)) := by
  show StableHlo.after hostOps3 _ (Proc.devRef .tc main_v47) = _
  after_results
  exact shapeCast_eq_row _ _

theorem W10_v48 (c : Dev nD) : W10 m ρ c (Proc.devRef .tc main_v48) = tr (W9 m ρ c (Proc.devRef .tc main_arg6)) := by
  show StableHlo.after hostOps3 _ (Proc.devRef .tc main_v48) = _
  after_results
  exact transpose_eq_tr _ _

theorem W10_v49 (c : Dev nD) : W10 m ρ c (Proc.devRef .tc main_v49) = tr (W9 m ρ c (Proc.devRef .tc main_arg7)) := by
  show StableHlo.after hostOps3 _ (Proc.devRef .tc main_v49) = _
  after_results
  exact transpose_eq_tr _ _

theorem W10_v50 (c : Dev nD) : W10 m ρ c (Proc.devRef .tc main_v50) = row (W9 m ρ c (Proc.devRef .tc main_arg8)) := by
  show StableHlo.after hostOps3 _ (Proc.devRef .tc main_v50) = _
  after_results
  exact shapeCast_eq_row _ _

end Cert.KernelIdeal.HostTail

end
-- ==== Proof.Takes.lean ====
/-
  The four row gathers of the caller, each read off its stretch of host
  operations: a negative index is wrapped (v < 0 ↦ v + 50000), the wrapped indices are laid out as an [800000, 1] column of
  start indices, the rows are gathered there, and a row whose index fails the range test 0 ≤ w ≤ 49999 is replaced by
  NaN.  When every index names a node (0 ≤ v < 50000, read signed) the wrap is the identity, the range test passes on
  every row, and the result is the plain gather at the specification's wrapped column `wrapFlat`.  The four stretches
  differ only in the buffers they name, so the mathematics is done once, over a pure term (`takeTerm`), and each stretch
  is shown to compute that term.
-/
import proofs.«405337_j10660108829350_1_alg».proof.Proof.Gen.KernelIdeal.Frame
import proofs.«405337_j10660108829350_1_alg».proof.Proof.Spec
import Idealize.ShloMosaic.Lib.ValueIdx
import Idealize.ShloMosaic.PureOps.Ideal.Laws
import Idealize.ShloMosaic.Lib.StableHlo.Run
import Idealize.ShloMosaic.Lib.StableHlo.Predicate
import Idealize.ShloMosaic.Lib.Affine

set_option maxRecDepth 16384

noncomputable section

open scoped BigOperators
open Idealize.ShloMosaic Idealize.ShloMosaic.TcCoe Idealize.SL.Sem Idealize.ShloMosaic.ValueIdx

namespace Cert.KernelIdeal.Takes

open Cert.KernelIdeal Cert.KernelIdeal.Gen Cert.SignedConv

/-! ## Words: an index that names a node wraps to itself and passes the range test -/

/-- A 32-bit word that is at least 0 and below 50000, read signed, is below 50000 read unsigned. -/
private theorem toNat_lt_of_signed (v : BitVec 32) (h0 : IntOp.cmpi .sge v 0#32 = 1#1)
    (h1 : IntOp.cmpi .slt v 50000#32 = 1#1) : v.toNat < 50000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (50000#32 : BitVec 32).toInt = 50000 := by decide
  rw [e0] at h0
  rw [e1] at h1
  have hlt := v.isLt
  rw [BitVec.toInt_eq_toNat_cond] at h0 h1
  split_ifs at h0 h1 <;> omega

/-- The wrap of a negative index (v < 0 ↦ v + 50000) leaves such a word alone, and the word passes both halves of the
    range test 0 ≤ w ≤ 49999. -/
private theorem wrap_in_range (v : BitVec 32) (h0 : IntOp.cmpi .sge v 0#32 = 1#1) (h1 : IntOp.cmpi .slt v 50000#32 = 1#1) :
    IntOp.cmpi .sge (Scalar.select (IntOp.cmpi .slt v 0#32) (IntOp.addi v 50000#32) v) 0#32 = 1#1 ∧
    IntOp.cmpi .sle (Scalar.select (IntOp.cmpi .slt v 0#32) (IntOp.addi v 50000#32) v) 49999#32 = 1#1 := by
  have hv := toNat_lt_of_signed v h0 h1
  have hv31 : v.toNat < 2 ^ 31 := by omega
  have z31 : (0#32 : BitVec 32).toNat < 2 ^ 31 := by decide
  have t31 : (49999#32 : BitVec 32).toNat < 2 ^ 31 := by decide
  have hneg : IntOp.cmpi .slt v 0#32 = 0#1 := by
    refine eq_zero_of_ne_one fun h => ?_
    have := (StableHlo.Predicate.slt_iff_toNat hv31 z31).1 h
    simp at this
  rw [hneg, select_zero]
  refine ⟨h0, (StableHlo.Predicate.sle_iff_toNat hv31 t31).2 ?_⟩
  show v.toNat ≤ 49999
  omega

/-- A left fold by `and` from 1 over bits that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

/-! ## One take as a pure term -/

/-- The flat index vector after the wrap of a negative index. -/
def wrapV (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The wrapped indices as an [800000, 1] column of start indices. -/
def colV (v : IVec S800000 32) : IVec S800000x1 32 :=
  broadcastInDim S800000x1 ![0] bcast_S800000_S800000x1_0 (wrapV v)

/-- The range test 0 ≤ w ≤ 49999 on the column. -/
def maskV (v : IVec S800000 32) : IVec S800000x1 1 :=
  andi (cmpi .sge (colV v) (broadcastInDim S800000x1 ![] bcast_S_S800000x1 (constantI S_ 32 0#32)))
    (cmpi .sle (colV v) (broadcastInDim S800000x1 ![0, 1] bcast_S1x1_S800000x1_0_1
      (broadcastInDim S1x1 ![1] bcast_S1_S1x1_1 (constantI S1 32 49999#32))))

/-- The range test reduced by `and` over the column's one-entry axis: one bit per edge. -/
def rowMaskV (v : IVec S800000 32) : IVec S800000 1 :=
  Host.reduce IntOp.andi (maskV v) (constantI S_ 1 1#1) reducesTo_S800000x1_S800000_d1 h_S_

/-- ONE TAKE: the rows gathered at the wrapped indices where the range test passes, a NaN elsewhere. -/
def takeTerm (x : FVec Ideal S50000x256 .f32) (v : IVec S800000 32) : FVec Ideal S800000x256 .f32 :=
  select (broadcastInDim S800000x256 ![0] bcast_S800000_S800000x256_0 (rowMaskV v))
    (Host.gather gather_S50000x256_S800000x1_S800000x256_1_0_n_n_0_1_1256 x (colV v))
    (broadcastInDim S800000x256 ![] bcast_S_S800000x256 (constant (F := Ideal) S_ .f32 0x7FC00000#32))

/-- The wrapped vector at an entry. -/
theorem wrapV_apply (v : IVec S800000 32) (j : S800000.Idx) :
    wrapV v j = Scalar.select (IntOp.cmpi .slt (v j) 0#32) (IntOp.addi (v j) 50000#32) (v j) := rfl

/-- A flat vector as a column reads, at (e, 0), the vector at e. -/
theorem bcast_col_apply {α : Type} (u : S800000.Idx → α) (i : S800000x1.Idx) :
    broadcastInDim S800000x1 ![0] bcast_S800000_S800000x1_0 u i = u (ix1 (i 0)) := by
  simp only [broadcastInDim]
  congr 1
  funext a
  have ha : a = 0 := Subsingleton.elim _ _
  subst ha
  apply Fin.ext
  split
  · next h1 => change 800000 = 1 at h1; omega
  · rfl

/-- The column of start indices is the specification's wrapped column. -/
theorem colV_eq (v : IVec S800000 32) : colV v = wrapFlat v := by
  funext i
  unfold colV
  rw [bcast_col_apply, wrapV_apply]
  rfl

/-- The range test at an entry. -/
theorem maskV_apply (v : IVec S800000 32) (i : S800000x1.Idx) :
    maskV v i = IntOp.andi (IntOp.cmpi .sge (colV v i) 0#32) (IntOp.cmpi .sle (colV v i) 49999#32) := rfl

section InRange
variable (v : IVec S800000 32)
  (hin : ∀ i, IntOp.cmpi .sge (v i) 0#32 = 1#1 ∧ IntOp.cmpi .slt (v i) 50000#32 = 1#1)
include hin

/-- Every index names a node: the range test passes everywhere … -/
theorem maskV_one (i : S800000x1.Idx) : maskV v i = 1#1 := by
  rw [maskV_apply, colV_eq]
  have h := wrap_in_range (v (ix1 (i 0))) (hin _).1 (hin _).2
  exact IntOp.andi_eq_one.2 h

/-- … so does its reduction over the one-entry axis … -/
theorem rowMaskV_one (j : S800000.Idx) : rowMaskV v j = 1#1 := by
  unfold rowMaskV
  rw [Host.reduce_eq_foldl]
  exact foldl_andi_ones _ (maskV_one v hin) _

/-- … and the take is the plain gather at the wrapped column. -/
theorem takeTerm_eq (x : FVec Ideal S50000x256 .f32) :
    takeTerm x v = Host.gather gather_S50000x256_S800000x1_S800000x256_1_0_n_n_0_1_1256 x (wrapFlat v) := by
  funext i
  unfold takeTerm
  rw [select_apply]
  have hm : broadcastInDim S800000x256 ![0] bcast_S800000_S800000x256_0 (rowMaskV v) i = 1#1 := rowMaskV_one v hin _
  rw [hm, select_one, colV_eq]

end InRange

/-- Contents carried to a buffer's own type and back are the contents. -/
theorem ofBuf_toBuf {T : BufTy} (x : StableHlo.TRef sig T) (u : T.Contents (Elt Ideal)) :
    x.ofBuf (x.toBuf u) = u := by
  unfold StableHlo.TRef.ofBuf StableHlo.TRef.toBuf
  rw [cast_cast, cast_eq]

/-! ## The four takes of the caller

Each stretch's last buffer holds `takeTerm` of its operand and its index vector: the operations' term, with the contents
carried to each buffer's own type and back dropped, is `takeTerm` unfolded. -/

set_option maxHeartbeats 4000000 in
/-- The feature rows at the positive edges' sources. -/
theorem take_pos_x (W : Valuation τ sig (Elt Ideal))
    (hin : ∀ i, IntOp.cmpi .sge (W (Proc.devRef .tc main_v10) i) 0#32 = 1#1 ∧ IntOp.cmpi .slt (W (Proc.devRef .tc main_v10) i) 50000#32 = 1#1) :
    StableHlo.after hostOps1_1 W (Proc.devRef .tc main_v15)
      = Host.gather gather_S50000x256_S800000x1_S800000x256_1_0_n_n_0_1_1256 (W (Proc.devRef .tc main_arg0)) (wrapFlat (W (Proc.devRef .tc main_v10))) := by
  refine Eq.trans ?_ (takeTerm_eq (W (Proc.devRef .tc main_v10)) hin (W (Proc.devRef .tc main_arg0)))
  after_results_simp
  simp only [ofBuf_toBuf]
  have e1 : (StableHlo.TRef.of main_v10 : StableHlo.TRef sig ⟨S800000, .i32⟩).ofBuf (W (Proc.devRef .tc main_v10)) = W (Proc.devRef .tc main_v10) := rfl
  have e2 : (StableHlo.TRef.of main_arg0 : StableHlo.TRef sig ⟨S50000x256, .f32⟩).ofBuf (W (Proc.devRef .tc main_arg0)) = W (Proc.devRef .tc main_arg0) := rfl
  have e3 : ∀ X : FVec Ideal S800000x256 .f32,
      (StableHlo.TRef.of main_v15 : StableHlo.TRef sig ⟨S800000x256, .f32⟩).toBuf (Val := Elt Ideal) X = X := fun _ => rfl
  rw [e1, e2, e3]
  unfold takeTerm rowMaskV maskV colV wrapV
  rfl

set_option maxHeartbeats 4000000 in
/-- The positive attention rows at the positive edges' targets. -/
theorem take_pos_att (W : Valuation τ sig (Elt Ideal))
    (hin : ∀ i, IntOp.cmpi .sge (W (Proc.devRef .tc main_v8) i) 0#32 = 1#1 ∧ IntOp.cmpi .slt (W (Proc.devRef .tc main_v8) i) 50000#32 = 1#1) :
    StableHlo.after hostOps1_2 W (Proc.devRef .tc main_v16)
      = Host.gather gather_S50000x256_S800000x1_S800000x256_1_0_n_n_0_1_1256 (W (Proc.devRef .tc main_v5)) (wrapFlat (W (Proc.devRef .tc main_v8))) := by
  refine Eq.trans ?_ (takeTerm_eq (W (Proc.devRef .tc main_v8)) hin (W (Proc.devRef .tc main_v5)))
  after_results_simp
  simp only [ofBuf_toBuf]
  have e1 : (StableHlo.TRef.of main_v8 : StableHlo.TRef sig ⟨S800000, .i32⟩).ofBuf (W (Proc.devRef .tc main_v8)) = W (Proc.devRef .tc main_v8) := rfl
  have e2 : (StableHlo.TRef.of main_v5 : StableHlo.TRef sig ⟨S50000x256, .f32⟩).ofBuf (W (Proc.devRef .tc main_v5)) = W (Proc.devRef .tc main_v5) := rfl
  have e3 : ∀ X : FVec Ideal S800000x256 .f32,
      (StableHlo.TRef.of main_v16 : StableHlo.TRef sig ⟨S800000x256, .f32⟩).toBuf (Val := Elt Ideal) X = X := fun _ => rfl
  rw [e1, e2, e3]
  unfold takeTerm rowMaskV maskV colV wrapV
  rfl

set_option maxHeartbeats 4000000 in
/-- The feature rows at the negative edges' sources. -/
theorem take_neg_x (W : Valuation τ sig (Elt Ideal))
    (hin : ∀ i, IntOp.cmpi .sge (W (Proc.devRef .tc main_v14) i) 0#32 = 1#1 ∧ IntOp.cmpi .slt (W (Proc.devRef .tc main_v14) i) 50000#32 = 1#1) :
    StableHlo.after hostOps1_3 W (Proc.devRef .tc main_v17)
      = Host.gather gather_S50000x256_S800000x1_S800000x256_1_0_n_n_0_1_1256 (W (Proc.devRef .tc main_arg0)) (wrapFlat (W (Proc.devRef .tc main_v14))) := by
  refine Eq.trans ?_ (takeTerm_eq (W (Proc.devRef .tc main_v14)) hin (W (Proc.devRef .tc main_arg0)))
  after_results_simp
  simp only [ofBuf_toBuf]
  have e1 : (StableHlo.TRef.of main_v14 : StableHlo.TRef sig ⟨S800000, .i32⟩).ofBuf (W (Proc.devRef .tc main_v14)) = W (Proc.devRef .tc main_v14) := rfl
  have e2 : (StableHlo.TRef.of main_arg0 : StableHlo.TRef sig ⟨S50000x256, .f32⟩).ofBuf (W (Proc.devRef .tc main_arg0)) = W (Proc.devRef .tc main_arg0) := rfl
  have e3 : ∀ X : FVec Ideal S800000x256 .f32,
      (StableHlo.TRef.of main_v17 : StableHlo.TRef sig ⟨S800000x256, .f32⟩).toBuf (Val := Elt Ideal) X = X := fun _ => rfl
  rw [e1, e2, e3]
  unfold takeTerm rowMaskV maskV colV wrapV
  rfl

set_option maxHeartbeats 4000000 in
/-- The negative attention rows at the negative edges' targets. -/
theorem take_neg_att (W : Valuation τ sig (Elt Ideal))
    (hin : ∀ i, IntOp.cmpi .sge (W (Proc.devRef .tc main_v12) i) 0#32 = 1#1 ∧ IntOp.cmpi .slt (W (Proc.devRef .tc main_v12) i) 50000#32 = 1#1) :
    StableHlo.after hostOps1_4 W (Proc.devRef .tc main_v18)
      = Host.gather gather_S50000x256_S800000x1_S800000x256_1_0_n_n_0_1_1256 (W (Proc.devRef .tc main_v6)) (wrapFlat (W (Proc.devRef .tc main_v12))) := by
  refine Eq.trans ?_ (takeTerm_eq (W (Proc.devRef .tc main_v12)) hin (W (Proc.devRef .tc main_v6)))
  after_results_simp
  simp only [ofBuf_toBuf]
  have e1 : (StableHlo.TRef.of main_v12 : StableHlo.TRef sig ⟨S800000, .i32⟩).ofBuf (W (Proc.devRef .tc main_v12)) = W (Proc.devRef .tc main_v12) := rfl
  have e2 : (StableHlo.TRef.of main_v6 : StableHlo.TRef sig ⟨S50000x256, .f32⟩).ofBuf (W (Proc.devRef .tc main_v6)) = W (Proc.devRef .tc main_v6) := rfl
  have e3 : ∀ X : FVec Ideal S800000x256 .f32,
      (StableHlo.TRef.of main_v18 : StableHlo.TRef sig ⟨S800000x256, .f32⟩).toBuf (Val := Elt Ideal) X = X := fun _ => rfl
  rw [e1, e2, e3]
  unfold takeTerm rowMaskV maskV colV wrapV
  rfl

end Cert.KernelIdeal.Takes

end
-- ==== Proof.FoldWalks.lean ====
/-
  Buffers the caller's run carries unchanged.  The run is a fold of buffer contents over the caller's segments: a
  stretch of host operations rewrites only the buffers its operations write, and a tiled region rewrites only its
  output array.  So a buffer that nothing in between writes is read, at a later boundary, as it stood at an earlier
  one; an argument, which nothing ever writes, is read as launched; and a region's output array, read at the
  region's exit, is what the region's write-backs leave.
-/
import proofs.«405337_j10660108829350_1_alg».proof.Proof.Gen.KernelIdeal.Frame
import proofs.«405337_j10660108829350_1_alg».proof.Proof.Spec
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.FoldWalks

open Cert.KernelIdeal Cert.KernelIdeal.Gen Cert.SignedConv

/-- A stretch of host operations leaves a buffer that none of its operations writes: each operation writes one
    buffer, and that buffer is another one. -/
local macro "keeps " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg)

/-! ## The first row gather's stretch -/

/-- The left half of the joint projection and the positive targets pass the first gather. -/
theorem W4_v5 (c : Dev nD) : W4 m ρ c (Proc.devRef .tc main_v5) = W3 m ρ c (Proc.devRef .tc main_v5) :=
  keeps hostOps1_1
theorem W4_v8 (c : Dev nD) : W4 m ρ c (Proc.devRef .tc main_v8) = W3 m ρ c (Proc.devRef .tc main_v8) :=
  keeps hostOps1_1

/-! ## An argument up to the slices: nothing writes it -/

/-- The node features, read after the slices, are as launched: the projection region only reads them, through an input
    window, and an input window's array leaves a region as it entered. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := keeps hostOps1
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keeps hostOps0
    _ = m ((c : Thread nD τ).loc main_arg0) := rfl

/-- The positive aggregation weights, read after the slices, are as launched: the projection region has no window on them. -/
theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := keeps hostOps1
    _ = W1 m ρ c (Proc.devRef .tc main_arg3) := W2_of_ne m ρ c main_arg3 (by decide)
    _ = W0 m ρ c (Proc.devRef .tc main_arg3) := keeps hostOps0
    _ = m ((c : Thread nD τ).loc main_arg3) := rfl

/-- The positive self weights, read after the slices, are as launched: the projection region has no window on them. -/
theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := keeps hostOps1
    _ = W1 m ρ c (Proc.devRef .tc main_arg4) := W2_of_ne m ρ c main_arg4 (by decide)
    _ = W0 m ρ c (Proc.devRef .tc main_arg4) := keeps hostOps0
    _ = m ((c : Thread nD τ).loc main_arg4) := rfl

/-- The positive bias, read after the slices, is as launched: the projection region has no window on it. -/
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := keeps hostOps1
    _ = W1 m ρ c (Proc.devRef .tc main_arg5) := W2_of_ne m ρ c main_arg5 (by decide)
    _ = W0 m ρ c (Proc.devRef .tc main_arg5) := keeps hostOps0
    _ = m ((c : Thread nD τ).loc main_arg5) := rfl

/-- The negative aggregation weights, read after the slices, are as launched: the projection region has no window on them. -/
theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := keeps hostOps1
    _ = W1 m ρ c (Proc.devRef .tc main_arg6) := W2_of_ne m ρ c main_arg6 (by decide)
    _ = W0 m ρ c (Proc.devRef .tc main_arg6) := keeps hostOps0
    _ = m ((c : Thread nD τ).loc main_arg6) := rfl

/-- The negative self weights, read after the slices, are as launched: the projection region has no window on them. -/
theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := keeps hostOps1
    _ = W1 m ρ c (Proc.devRef .tc main_arg7) := W2_of_ne m ρ c main_arg7 (by decide)
    _ = W0 m ρ c (Proc.devRef .tc main_arg7) := keeps hostOps0
    _ = m ((c : Thread nD τ).loc main_arg7) := rfl

/-- The negative bias, read after the slices, is as launched: the projection region has no window on it. -/
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := keeps hostOps1
    _ = W1 m ρ c (Proc.devRef .tc main_arg8) := W2_of_ne m ρ c main_arg8 (by decide)
    _ = W0 m ρ c (Proc.devRef .tc main_arg8) := keeps hostOps0
    _ = m ((c : Thread nD τ).loc main_arg8) := rfl

/-! ## Across the four row gathers

A row gather's stretch writes the gathered rows and its own temporaries only. -/

theorem W7_arg0_W3 (c : Dev nD) : W7 m ρ c (Proc.devRef .tc main_arg0) = W3 m ρ c (Proc.devRef .tc main_arg0) :=
  calc W7 m ρ c (Proc.devRef .tc main_arg0)
    _ = W6 m ρ c (Proc.devRef .tc main_arg0) := keeps hostOps1_4
    _ = W5 m ρ c (Proc.devRef .tc main_arg0) := keeps hostOps1_3
    _ = W4 m ρ c (Proc.devRef .tc main_arg0) := keeps hostOps1_2
    _ = W3 m ρ c (Proc.devRef .tc main_arg0) := keeps hostOps1_1

theorem W7_arg3_W3 (c : Dev nD) : W7 m ρ c (Proc.devRef .tc main_arg3) = W3 m ρ c (Proc.devRef .tc main_arg3) :=
  calc W7 m ρ c (Proc.devRef .tc main_arg3)
    _ = W6 m ρ c (Proc.devRef .tc main_arg3) := keeps hostOps1_4
    _ = W5 m ρ c (Proc.devRef .tc main_arg3) := keeps hostOps1_3
    _ = W4 m ρ c (Proc.devRef .tc main_arg3) := keeps hostOps1_2
    _ = W3 m ρ c (Proc.devRef .tc main_arg3) := keeps hostOps1_1

theorem W7_arg4_W3 (c : Dev nD) : W7 m ρ c (Proc.devRef .tc main_arg4) = W3 m ρ c (Proc.devRef .tc main_arg4) :=
  calc W7 m ρ c (Proc.devRef .tc main_arg4)
    _ = W6 m ρ c (Proc.devRef .tc main_arg4) := keeps hostOps1_4
    _ = W5 m ρ c (Proc.devRef .tc main_arg4) := keeps hostOps1_3
    _ = W4 m ρ c (Proc.devRef .tc main_arg4) := keeps hostOps1_2
    _ = W3 m ρ c (Proc.devRef .tc main_arg4) := keeps hostOps1_1

theorem W7_arg5_W3 (c : Dev nD) : W7 m ρ c (Proc.devRef .tc main_arg5) = W3 m ρ c (Proc.devRef .tc main_arg5) :=
  calc W7 m ρ c (Proc.devRef .tc main_arg5)
    _ = W6 m ρ c (Proc.devRef .tc main_arg5) := keeps hostOps1_4
    _ = W5 m ρ c (Proc.devRef .tc main_arg5) := keeps hostOps1_3
    _ = W4 m ρ c (Proc.devRef .tc main_arg5) := keeps hostOps1_2
    _ = W3 m ρ c (Proc.devRef .tc main_arg5) := keeps hostOps1_1

theorem W7_arg6_W3 (c : Dev nD) : W7 m ρ c (Proc.devRef .tc main_arg6) = W3 m ρ c (Proc.devRef .tc main_arg6) :=
  calc W7 m ρ c (Proc.devRef .tc main_arg6)
    _ = W6 m ρ c (Proc.devRef .tc main_arg6) := keeps hostOps1_4
    _ = W5 m ρ c (Proc.devRef .tc main_arg6) := keeps hostOps1_3
    _ = W4 m ρ c (Proc.devRef .tc main_arg6) := keeps hostOps1_2
    _ = W3 m ρ c (Proc.devRef .tc main_arg6) := keeps hostOps1_1

theorem W7_arg7_W3 (c : Dev nD) : W7 m ρ c (Proc.devRef .tc main_arg7) = W3 m ρ c (Proc.devRef .tc main_arg7) :=
  calc W7 m ρ c (Proc.devRef .tc main_arg7)
    _ = W6 m ρ c (Proc.devRef .tc main_arg7) := keeps hostOps1_4
    _ = W5 m ρ c (Proc.devRef .tc main_arg7) := keeps hostOps1_3
    _ = W4 m ρ c (Proc.devRef .tc main_arg7) := keeps hostOps1_2
    _ = W3 m ρ c (Proc.devRef .tc main_arg7) := keeps hostOps1_1

theorem W7_arg8_W3 (c : Dev nD) : W7 m ρ c (Proc.devRef .tc main_arg8) = W3 m ρ c (Proc.devRef .tc main_arg8) :=
  calc W7 m ρ c (Proc.devRef .tc main_arg8)
    _ = W6 m ρ c (Proc.devRef .tc main_arg8) := keeps hostOps1_4
    _ = W5 m ρ c (Proc.devRef .tc main_arg8) := keeps hostOps1_3
    _ = W4 m ρ c (Proc.devRef .tc main_arg8) := keeps hostOps1_2
    _ = W3 m ρ c (Proc.devRef .tc main_arg8) := keeps hostOps1_1

theorem W7_v8_W3 (c : Dev nD) : W7 m ρ c (Proc.devRef .tc main_v8) = W3 m ρ c (Proc.devRef .tc main_v8) :=
  calc W7 m ρ c (Proc.devRef .tc main_v8)
    _ = W6 m ρ c (Proc.devRef .tc main_v8) := keeps hostOps1_4
    _ = W5 m ρ c (Proc.devRef .tc main_v8) := keeps hostOps1_3
    _ = W4 m ρ c (Proc.devRef .tc main_v8) := keeps hostOps1_2
    _ = W3 m ρ c (Proc.devRef .tc main_v8) := keeps hostOps1_1

theorem W7_v12_W3 (c : Dev nD) : W7 m ρ c (Proc.devRef .tc main_v12) = W3 m ρ c (Proc.devRef .tc main_v12) :=
  calc W7 m ρ c (Proc.devRef .tc main_v12)
    _ = W6 m ρ c (Proc.devRef .tc main_v12) := keeps hostOps1_4
    _ = W5 m ρ c (Proc.devRef .tc main_v12) := keeps hostOps1_3
    _ = W4 m ρ c (Proc.devRef .tc main_v12) := keeps hostOps1_2
    _ = W3 m ρ c (Proc.devRef .tc main_v12) := keeps hostOps1_1

/-- The features pass the first two gathers. -/
theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := keeps hostOps1_2
    _ = W3 m ρ c (Proc.devRef .tc main_arg0) := keeps hostOps1_1
    _ = m ((c : Thread nD τ).loc main_arg0) := W3_arg0 m ρ c
/-- The negative sources pass the first two gathers. -/
theorem W5_v14 (c : Dev nD) : W5 m ρ c (Proc.devRef .tc main_v14) = W3 m ρ c (Proc.devRef .tc main_v14) :=
  calc W5 m ρ c (Proc.devRef .tc main_v14)
    _ = W4 m ρ c (Proc.devRef .tc main_v14) := keeps hostOps1_2
    _ = W3 m ρ c (Proc.devRef .tc main_v14) := keeps hostOps1_1

/-- The right half of the joint projection and the negative targets pass the first three gathers. -/
theorem W6_v6 (c : Dev nD) : W6 m ρ c (Proc.devRef .tc main_v6) = W3 m ρ c (Proc.devRef .tc main_v6) :=
  calc W6 m ρ c (Proc.devRef .tc main_v6)
    _ = W5 m ρ c (Proc.devRef .tc main_v6) := keeps hostOps1_3
    _ = W4 m ρ c (Proc.devRef .tc main_v6) := keeps hostOps1_2
    _ = W3 m ρ c (Proc.devRef .tc main_v6) := keeps hostOps1_1
theorem W6_v12 (c : Dev nD) : W6 m ρ c (Proc.devRef .tc main_v12) = W3 m ρ c (Proc.devRef .tc main_v12) :=
  calc W6 m ρ c (Proc.devRef .tc main_v12)
    _ = W5 m ρ c (Proc.devRef .tc main_v12) := keeps hostOps1_3
    _ = W4 m ρ c (Proc.devRef .tc main_v12) := keeps hostOps1_2
    _ = W3 m ρ c (Proc.devRef .tc main_v12) := keeps hostOps1_1

/-- A gather's rows pass the later gathers. -/
theorem W7_v15 (c : Dev nD) : W7 m ρ c (Proc.devRef .tc main_v15) = W4 m ρ c (Proc.devRef .tc main_v15) :=
  calc W7 m ρ c (Proc.devRef .tc main_v15)
    _ = W6 m ρ c (Proc.devRef .tc main_v15) := keeps hostOps1_4
    _ = W5 m ρ c (Proc.devRef .tc main_v15) := keeps hostOps1_3
    _ = W4 m ρ c (Proc.devRef .tc main_v15) := keeps hostOps1_2
theorem W7_v16 (c : Dev nD) : W7 m ρ c (Proc.devRef .tc main_v16) = W5 m ρ c (Proc.devRef .tc main_v16) :=
  calc W7 m ρ c (Proc.devRef .tc main_v16)
    _ = W6 m ρ c (Proc.devRef .tc main_v16) := keeps hostOps1_4
    _ = W5 m ρ c (Proc.devRef .tc main_v16) := keeps hostOps1_3

/-! ## Across the message regions -/

/-- The negative sign's gathered rows are no window of the positive sign's message region. -/
theorem W8_v17 (c : Dev nD) : W8 m ρ c (Proc.devRef .tc main_v17) = W6 m ρ c (Proc.devRef .tc main_v17) :=
  calc W8 m ρ c (Proc.devRef .tc main_v17)
    _ = W7 m ρ c (Proc.devRef .tc main_v17) := W8_of_ne m ρ c main_v17 (by decide)
    _ = W6 m ρ c (Proc.devRef .tc main_v17) := keeps hostOps1_4
theorem W8_v18 (c : Dev nD) : W8 m ρ c (Proc.devRef .tc main_v18) = W7 m ρ c (Proc.devRef .tc main_v18) :=
  W8_of_ne m ρ c main_v18 (by decide)

/-- The target vectors are no window of either message region. -/
theorem W9_v8 (c : Dev nD) : W9 m ρ c (Proc.devRef .tc main_v8) = W3 m ρ c (Proc.devRef .tc main_v8) :=
  calc W9 m ρ c (Proc.devRef .tc main_v8)
    _ = W8 m ρ c (Proc.devRef .tc main_v8) := W9_of_ne m ρ c main_v8 (by decide)
    _ = W7 m ρ c (Proc.devRef .tc main_v8) := W8_of_ne m ρ c main_v8 (by decide)
    _ = W3 m ρ c (Proc.devRef .tc main_v8) := W7_v8_W3 m ρ c
theorem W9_v12 (c : Dev nD) : W9 m ρ c (Proc.devRef .tc main_v12) = W3 m ρ c (Proc.devRef .tc main_v12) :=
  calc W9 m ρ c (Proc.devRef .tc main_v12)
    _ = W8 m ρ c (Proc.devRef .tc main_v12) := W9_of_ne m ρ c main_v12 (by decide)
    _ = W7 m ρ c (Proc.devRef .tc main_v12) := W8_of_ne m ρ c main_v12 (by decide)
    _ = W3 m ρ c (Proc.devRef .tc main_v12) := W7_v12_W3 m ρ c

/-- The positive messages are no window of the negative sign's message region. -/
theorem W9_v19 (c : Dev nD) : W9 m ρ c (Proc.devRef .tc main_v19) = W8 m ρ c (Proc.devRef .tc main_v19) :=
  W9_of_ne m ρ c main_v19 (by decide)

/-! ## An argument after the message regions -/

theorem W9_arg0 (c : Dev nD) : W9 m ρ c (Proc.devRef .tc main_arg0) = m ((c : Thread nD τ).loc main_arg0) :=
  calc W9 m ρ c (Proc.devRef .tc main_arg0)
    _ = W8 m ρ c (Proc.devRef .tc main_arg0) := W9_of_ne m ρ c main_arg0 (by decide)
    _ = W7 m ρ c (Proc.devRef .tc main_arg0) := W8_of_ne m ρ c main_arg0 (by decide)
    _ = W3 m ρ c (Proc.devRef .tc main_arg0) := W7_arg0_W3 m ρ c
    _ = m ((c : Thread nD τ).loc main_arg0) := W3_arg0 m ρ c

theorem W9_arg3 (c : Dev nD) : W9 m ρ c (Proc.devRef .tc main_arg3) = m ((c : Thread nD τ).loc main_arg3) :=
  calc W9 m ρ c (Proc.devRef .tc main_arg3)
    _ = W8 m ρ c (Proc.devRef .tc main_arg3) := W9_of_ne m ρ c main_arg3 (by decide)
    _ = W7 m ρ c (Proc.devRef .tc main_arg3) := W8_of_ne m ρ c main_arg3 (by decide)
    _ = W3 m ρ c (Proc.devRef .tc main_arg3) := W7_arg3_W3 m ρ c
    _ = m ((c : Thread nD τ).loc main_arg3) := W3_arg3 m ρ c

theorem W9_arg4 (c : Dev nD) : W9 m ρ c (Proc.devRef .tc main_arg4) = m ((c : Thread nD τ).loc main_arg4) :=
  calc W9 m ρ c (Proc.devRef .tc main_arg4)
    _ = W8 m ρ c (Proc.devRef .tc main_arg4) := W9_of_ne m ρ c main_arg4 (by decide)
    _ = W7 m ρ c (Proc.devRef .tc main_arg4) := W8_of_ne m ρ c main_arg4 (by decide)
    _ = W3 m ρ c (Proc.devRef .tc main_arg4) := W7_arg4_W3 m ρ c
    _ = m ((c : Thread nD τ).loc main_arg4) := W3_arg4 m ρ c

theorem W9_arg5 (c : Dev nD) : W9 m ρ c (Proc.devRef .tc main_arg5) = m ((c : Thread nD τ).loc main_arg5) :=
  calc W9 m ρ c (Proc.devRef .tc main_arg5)
    _ = W8 m ρ c (Proc.devRef .tc main_arg5) := W9_of_ne m ρ c main_arg5 (by decide)
    _ = W7 m ρ c (Proc.devRef .tc main_arg5) := W8_of_ne m ρ c main_arg5 (by decide)
    _ = W3 m ρ c (Proc.devRef .tc main_arg5) := W7_arg5_W3 m ρ c
    _ = m ((c : Thread nD τ).loc main_arg5) := W3_arg5 m ρ c

theorem W9_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := W8_of_ne m ρ c main_arg6 (by decide)
    _ = W3 m ρ c (Proc.devRef .tc main_arg6) := W7_arg6_W3 m ρ c
    _ = m ((c : Thread nD τ).loc main_arg6) := W3_arg6 m ρ c

theorem W9_arg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W3 m ρ c (Proc.devRef .tc main_arg7) := W7_arg7_W3 m ρ c
    _ = m ((c : Thread nD τ).loc main_arg7) := W3_arg7 m ρ c

theorem W9_arg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W3 m ρ c (Proc.devRef .tc main_arg8) := W7_arg8_W3 m ρ c
    _ = m ((c : Thread nD τ).loc main_arg8) := W3_arg8 m ρ c

/-! ## A region's output array at the region's exit -/

/-- The joint projection. -/
theorem W2_v4 (c : Dev nD) : W2 m ρ c (Proc.devRef .tc main_v4) = (dat0 (V1 m ρ) c).arrAt 3 cfg0.N :=
  W2_arr m ρ c 3
/-- The positive messages. -/
theorem W8_v19 (c : Dev nD) : W8 m ρ c (Proc.devRef .tc main_v19) = (dat1 (V7 m ρ) c).arrAt 2 cfg1.N :=
  W8_arr m ρ c 2
/-- The negative messages. -/
theorem W9_v20 (c : Dev nD) : W9 m ρ c (Proc.devRef .tc main_v20) = (dat2 (V8 m ρ) c).arrAt 2 cfg2.N :=
  W9_arr m ρ c 2
/-- The result. -/
theorem W11_v51 (c : Dev nD) : W11 m ρ c (Proc.devRef .tc main_v51) = (dat3 (V10 m ρ) c).arrAt 11 cfg3.N :=
  W11_arr m ρ c 11

end Cert.KernelIdeal.FoldWalks

end
-- ==== Proof.KernelValue.lean ====
/-
  The kernel program's result is the specification's `G`.  The fold of buffer contents through the caller is read back
  from the last array to the arguments: the last tiled computation leaves `combo` of the eleven arrays it is handed;
  those are the two scatter-added message arrays, the two columns of reciprocal counts, the features, and the
  transposed weights and bias rows; the messages are what the per-edge computation leaves, `msg` of the gathered
  attention rows and the gathered feature rows; with every edge index naming a node the four takes are plain gathers;
  the attention matrices are the two halves of what the first tiled computation leaves, `proj` of the features
  against the stacked, transposed attention weights.  `combo_eq_G` then says this is the reference's arrangement.
-/
import proofs.«405337_j10660108829350_1_alg».proof.Proof.Gen.KernelIdeal.Frame
import proofs.«405337_j10660108829350_1_alg».proof.Proof.Spec
import proofs.«405337_j10660108829350_1_alg».proof.Proof.Bridge
import proofs.«405337_j10660108829350_1_alg».proof.Proof.Region0
import proofs.«405337_j10660108829350_1_alg».proof.Proof.Region1
import proofs.«405337_j10660108829350_1_alg».proof.Proof.Region2
import proofs.«405337_j10660108829350_1_alg».proof.Proof.Region3
import proofs.«405337_j10660108829350_1_alg».proof.Proof.HostReads
import proofs.«405337_j10660108829350_1_alg».proof.Proof.HostTail
import proofs.«405337_j10660108829350_1_alg».proof.Proof.Takes
import proofs.«405337_j10660108829350_1_alg».proof.Proof.FoldWalks

set_option maxRecDepth 16384

noncomputable section

open Idealize.ShloMosaic Idealize.ShloMosaic.TcCoe Idealize.SL.Sem Idealize.ShloMosaic.ValueIdx

namespace Cert.KernelIdeal.KernelValue

open Cert.KernelIdeal Cert.KernelIdeal.Gen Cert.SignedConv

variable (m : (ℓ : Loc nD τ sig) → Buf (Elt Ideal) ℓ) (ρ : Dev nD → PrngReg) (c : Dev nD)

/-- The row gather and the two scatter-adds, at the printed program's dimension numbers. -/
abbrev gath : (SNF.Idx → EReal) → IVec SE1 32 → SEF.Idx → EReal :=
  Host.gather gather_S50000x256_S800000x1_S800000x256_1_0_n_n_0_1_1256
abbrev scat2 : (SNF.Idx → EReal) → IVec SE1 32 → (SEF.Idx → EReal) → SNF.Idx → EReal :=
  Host.scatterAdd (F := Ideal) (φ := .f32) (w := 32) scatter_S50000x256_S800000x1_S800000x256_1_0_0_1
abbrev scat1 : (SN.Idx → EReal) → IVec SE1 32 → (SE.Idx → EReal) → SN.Idx → EReal :=
  Host.scatterAdd (F := Ideal) (φ := .f32) (w := 32) scatter_S50000_S800000x1_S800000_n_0_0_1

/-- The argument arrays as launched. -/
abbrev xA : SNF.Idx → EReal := m ((c : Thread nD τ).loc main_arg0)
abbrev e1 : IVec S2E 32 := m ((c : Thread nD τ).loc main_arg1)
abbrev e2 : IVec S2E 32 := m ((c : Thread nD τ).loc main_arg2)

/-- The specification's result at this program's argument arrays and dimension numbers. -/
def spec : SNF.Idx → EReal :=
    G gath scat2 scat1 (xA m c)
        (wrapCol (e1 m c) 0) (wrapCol (e1 m c) 1) (colOf (e1 m c) 0) (wrapCol (e2 m c) 0) (wrapCol (e2 m c) 1) (colOf (e2 m c) 0)
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))
        (m ((c : Thread nD τ).loc main_arg11)) (m ((c : Thread nD τ).loc main_arg12))

/-- The positive attention matrix: the left half of the first tiled computation's array. -/
theorem att_pos : W3 m ρ c (Proc.devRef .tc main_v5)
    = att (xA m c) (m ((c : Thread nD τ).loc main_arg9)) (m ((c : Thread nD τ).loc main_arg10)) := by
  rw [HostReads.W3_v5, FoldWalks.W2_v4, Region0.region0_array]
  show leftHalf (proj (W1 m ρ c (Proc.devRef .tc main_arg0)) (W1 m ρ c (Proc.devRef .tc main_v3)) (W1 m ρ c (Proc.devRef .tc main_v2))) = _
  rw [HostReads.W1_arg0, HostReads.W1_v3, HostReads.W1_v2]
  exact leftHalf_proj _ _ _ _ _

/-- The negative attention matrix: the right half. -/
theorem att_neg : W3 m ρ c (Proc.devRef .tc main_v6)
    = att (xA m c) (m ((c : Thread nD τ).loc main_arg11)) (m ((c : Thread nD τ).loc main_arg12)) := by
  rw [HostReads.W3_v6, FoldWalks.W2_v4, Region0.region0_array]
  show rightHalf (proj (W1 m ρ c (Proc.devRef .tc main_arg0)) (W1 m ρ c (Proc.devRef .tc main_v3)) (W1 m ρ c (Proc.devRef .tc main_v2))) = _
  rw [HostReads.W1_arg0, HostReads.W1_v3, HostReads.W1_v2]
  exact rightHalf_proj _ _ _ _ _

section InRange

/-- The positive edges' gathered feature rows. -/
theorem xl_pos (h1 : InRange (e1 m c)) : W7 m ρ c (Proc.devRef .tc main_v15) = gath (xA m c) (wrapCol (e1 m c) 1) := by
  rw [FoldWalks.W7_v15]
  show StableHlo.after hostOps1_1 (W3 m ρ c) (Proc.devRef .tc main_v15) = _
  rw [Takes.take_pos_x (W3 m ρ c) (by rw [HostReads.W3_v10]; exact fun i => h1 (ix2 1 (i 0))), HostReads.W3_arg0, HostReads.W3_v10]
  rfl

/-- The positive edges' gathered attention rows. -/
theorem rl_pos (h1 : InRange (e1 m c)) : W7 m ρ c (Proc.devRef .tc main_v16)
    = gath (att (xA m c) (m ((c : Thread nD τ).loc main_arg9)) (m ((c : Thread nD τ).loc main_arg10))) (wrapCol (e1 m c) 0) := by
  rw [FoldWalks.W7_v16]
  show StableHlo.after hostOps1_2 (W4 m ρ c) (Proc.devRef .tc main_v16) = _
  rw [Takes.take_pos_att (W4 m ρ c) (by rw [FoldWalks.W4_v8, HostReads.W3_v8]; exact fun i => h1 (ix2 0 (i 0))), FoldWalks.W4_v5, att_pos, FoldWalks.W4_v8, HostReads.W3_v8]
  rfl

/-- The negative edges' gathered feature rows. -/
theorem xl_neg (h2 : InRange (e2 m c)) : W8 m ρ c (Proc.devRef .tc main_v17) = gath (xA m c) (wrapCol (e2 m c) 1) := by
  rw [FoldWalks.W8_v17]
  show StableHlo.after hostOps1_3 (W5 m ρ c) (Proc.devRef .tc main_v17) = _
  rw [Takes.take_neg_x (W5 m ρ c) (by rw [FoldWalks.W5_v14, HostReads.W3_v14]; exact fun i => h2 (ix2 1 (i 0))), FoldWalks.W5_arg0, FoldWalks.W5_v14, HostReads.W3_v14]
  rfl

/-- The negative edges' gathered attention rows. -/
theorem rl_neg (h2 : InRange (e2 m c)) : W8 m ρ c (Proc.devRef .tc main_v18)
    = gath (att (xA m c) (m ((c : Thread nD τ).loc main_arg11)) (m ((c : Thread nD τ).loc main_arg12))) (wrapCol (e2 m c) 0) := by
  rw [FoldWalks.W8_v18]
  show StableHlo.after hostOps1_4 (W6 m ρ c) (Proc.devRef .tc main_v18) = _
  rw [Takes.take_neg_att (W6 m ρ c) (by rw [FoldWalks.W6_v12, HostReads.W3_v12]; exact fun i => h2 (ix2 0 (i 0))), FoldWalks.W6_v6, att_neg, FoldWalks.W6_v12, HostReads.W3_v12]
  rfl

/-- The positive messages. -/
theorem msg_pos (h1 : InRange (e1 m c)) : W9 m ρ c (Proc.devRef .tc main_v19)
    = msg (gath (att (xA m c) (m ((c : Thread nD τ).loc main_arg9)) (m ((c : Thread nD τ).loc main_arg10))) (wrapCol (e1 m c) 0))
          (gath (xA m c) (wrapCol (e1 m c) 1)) := by
  rw [FoldWalks.W9_v19, FoldWalks.W8_v19, Region1.region1_array]
  show msg (W7 m ρ c (Proc.devRef .tc main_v16)) (W7 m ρ c (Proc.devRef .tc main_v15)) = _
  rw [rl_pos m ρ c h1, xl_pos m ρ c h1]

/-- The negative messages. -/
theorem msg_neg (h2 : InRange (e2 m c)) : W9 m ρ c (Proc.devRef .tc main_v20)
    = msg (gath (att (xA m c) (m ((c : Thread nD τ).loc main_arg11)) (m ((c : Thread nD τ).loc main_arg12))) (wrapCol (e2 m c) 0))
          (gath (xA m c) (wrapCol (e2 m c) 1)) := by
  rw [FoldWalks.W9_v20, Region2.region2_array]
  show msg (W8 m ρ c (Proc.devRef .tc main_v18)) (W8 m ρ c (Proc.devRef .tc main_v17)) = _
  rw [rl_neg m ρ c h2, xl_neg m ρ c h2]

/-- THE KERNEL PROGRAM'S RESULT, with every edge index naming a node. -/
theorem result (h1 : InRange (e1 m c)) (h2 : InRange (e2 m c)) : W11 m ρ c (Proc.devRef .tc main_v51) = spec m c := by
  unfold spec
  rw [FoldWalks.W11_v51, Region3.region3_array]
  show combo (W10 m ρ c (Proc.devRef .tc main_v23)) (W10 m ρ c (Proc.devRef .tc main_v39)) (W10 m ρ c (Proc.devRef .tc main_v30))
    (W10 m ρ c (Proc.devRef .tc main_v44)) (W10 m ρ c (Proc.devRef .tc main_arg0)) (W10 m ρ c (Proc.devRef .tc main_v45))
    (W10 m ρ c (Proc.devRef .tc main_v46)) (W10 m ρ c (Proc.devRef .tc main_v47)) (W10 m ρ c (Proc.devRef .tc main_v48))
    (W10 m ρ c (Proc.devRef .tc main_v49)) (W10 m ρ c (Proc.devRef .tc main_v50)) = _
  rw [HostTail.W10_v23, HostTail.W10_v39, HostTail.W10_v30, HostTail.W10_v44, HostTail.W10_arg0, HostTail.W10_v45, HostTail.W10_v46,
    HostTail.W10_v47, HostTail.W10_v48, HostTail.W10_v49, HostTail.W10_v50,
    FoldWalks.W9_v8, FoldWalks.W9_v12, HostReads.W3_v8, HostReads.W3_v12, msg_pos m ρ c h1, msg_neg m ρ c h2,
    FoldWalks.W9_arg0, FoldWalks.W9_arg3, FoldWalks.W9_arg4, FoldWalks.W9_arg5, FoldWalks.W9_arg6, FoldWalks.W9_arg7, FoldWalks.W9_arg8]
  exact combo_eq_G gath scat2 scat1 _ _ _ _ _ _ _ _ _ _ _ _ _ _ _ _ _

end InRange

end Cert.KernelIdeal.KernelValue

end
-- ==== Proof.RefMean.lean ====
/-
  The reference's per-sign attention-weighted mean, read operation by operation: the attention matrix x Wₐᵀ + bₐ, the
  wrapped and plain edge-index columns, the per-edge score and message over the gathered rows, the messages and the
  ones summed per target node, and the quotient by max(count, 1) are the specification's mean (agg …) (cnt …), for
  the positive and for the negative sign.  The row gathers and the scatter-adds are never opened: their arguments are
  shown equal as whole functions.
-/
import proofs.«405337_j10660108829350_1_alg».proof.Proof.Gen.ReferenceIdeal.Read
import proofs.«405337_j10660108829350_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.RefMean

open Cert.ReferenceIdeal Cert.ReferenceIdeal.Gen Cert.ReferenceIdeal.Read Cert.SignedConv

/-! ## The positive sign -/

/-- The product against the transposed weight plus the doubly broadcast bias is x Wₐᵀ + bₐ entry by entry. -/
theorem att_pos (x0 : SNF.Idx → EReal) (x9 : SFF.Idx → EReal) (x10 : SF.Idx → EReal) :
    val_main_v4 (F := Ideal) x0 x9 x10 = att x0 x9 x10 := by
  funext i
  obtain ⟨n, j, rfl⟩ : ∃ (n : Fin 50000) (j : Fin 256), i = ix2 n j := ⟨i 0, i 1, eq_ix2 i⟩
  have e1 : ∀ k : Fin 256, lidx_main_v1 (ix2 n j) k = ix2 n k := fun k =>
    funext fun a => Fin.ext (by match a with | ⟨0, _⟩ => rfl | ⟨1, _⟩ => rfl)
  have e2 : ∀ k : Fin 256, idx_main_v0 (ridx_main_v1 (ix2 n j) k) = ix2 j k := fun k =>
    funext fun a => Fin.ext (by match a with | ⟨0, _⟩ => rfl | ⟨1, _⟩ => rfl)
  have e3 : idx_main_v2 (idx_main_v3 (ix2 n j)) = ix1 j :=
    funext fun a => Fin.ext (by match a with | ⟨0, _⟩ => rfl)
  rw [val_main_v4_apply, val_main_v1_apply, val_main_v3_apply, val_main_v2_apply]
  simp only [val_main_v0_apply, e1, e2, e3, Ideal.addf_def]
  rfl

/-- Row 0 sliced, flattened, wrapped where negative and set up as a column: the start indices of the attention gather. -/
theorem wrap0_pos (x1 : IVec S2E 32) : val_main_v19 (F := Ideal) x1 = wrapCol x1 0 := by
  funext i
  obtain ⟨e, z, rfl⟩ : ∃ (e : Fin 800000) (z : Fin 1), i = ix2 e z := ⟨i 0, i 1, eq_ix2 i⟩
  have h : idx_main_v10 (idx_main_v11 (idx_main_v19 (ix2 e z))) = ix2 0 e :=
    funext fun a => Fin.ext (by match a with | ⟨0, _⟩ => rfl | ⟨1, _⟩ => exact Nat.mod_eq_of_lt e.isLt)
  rw [val_main_v19_apply, val_main_v18_apply, val_main_v15_apply, val_main_v17_apply, val_main_v14_apply,
    val_main_v16_apply, val_main_c_apply, val_main_c_0_apply, val_main_v11_apply, val_main_v10_apply, h]
  rfl

/-- Row 1 likewise: the start indices of the feature gather inside the score. -/
theorem wrap1_pos (x1 : IVec S2E 32) : val_main_v26 (F := Ideal) x1 = wrapCol x1 1 := by
  funext i
  obtain ⟨e, z, rfl⟩ : ∃ (e : Fin 800000) (z : Fin 1), i = ix2 e z := ⟨i 0, i 1, eq_ix2 i⟩
  have h : idx_main_v12 (idx_main_v13 (idx_main_v26 (ix2 e z))) = ix2 1 e :=
    funext fun a => Fin.ext (by match a with | ⟨0, _⟩ => rfl | ⟨1, _⟩ => exact Nat.mod_eq_of_lt e.isLt)
  rw [val_main_v26_apply, val_main_v25_apply, val_main_v22_apply, val_main_v24_apply, val_main_v21_apply,
    val_main_v23_apply, val_main_c_1_apply, val_main_c_2_apply, val_main_v13_apply, val_main_v12_apply, h]
  rfl

/-- Row 1 once more: the start indices of the feature gather inside the message. -/
theorem wrap1b_pos (x1 : IVec S2E 32) : val_main_v60 (F := Ideal) x1 = wrapCol x1 1 := by
  funext i
  obtain ⟨e, z, rfl⟩ : ∃ (e : Fin 800000) (z : Fin 1), i = ix2 e z := ⟨i 0, i 1, eq_ix2 i⟩
  have h : idx_main_v52 (idx_main_v53 (idx_main_v60 (ix2 e z))) = ix2 1 e :=
    funext fun a => Fin.ext (by match a with | ⟨0, _⟩ => rfl | ⟨1, _⟩ => exact Nat.mod_eq_of_lt e.isLt)
  rw [val_main_v60_apply, val_main_v59_apply, val_main_v56_apply, val_main_v58_apply, val_main_v55_apply,
    val_main_v57_apply, val_main_c_8_apply, val_main_c_9_apply, val_main_v53_apply, val_main_v52_apply, h]
  rfl

/-- Row 0 unwrapped as a column: where the messages are scattered. -/
theorem col0_pos (x1 : IVec S2E 32) : val_main_v65 (F := Ideal) x1 = colOf x1 0 := by
  funext i
  obtain ⟨e, z, rfl⟩ : ∃ (e : Fin 800000) (z : Fin 1), i = ix2 e z := ⟨i 0, i 1, eq_ix2 i⟩
  have h : idx_main_v50 (idx_main_v51 (idx_main_v65 (ix2 e z))) = ix2 0 e :=
    funext fun a => Fin.ext (by match a with | ⟨0, _⟩ => rfl | ⟨1, _⟩ => exact Nat.mod_eq_of_lt e.isLt)
  rw [val_main_v65_apply, val_main_v51_apply, val_main_v50_apply, h]
  rfl

/-- The same column: where the ones are scattered. -/
theorem col0b_pos (x1 : IVec S2E 32) : val_main_v69 (F := Ideal) x1 = colOf x1 0 := by
  funext i
  obtain ⟨e, z, rfl⟩ : ∃ (e : Fin 800000) (z : Fin 1), i = ix2 e z := ⟨i 0, i 1, eq_ix2 i⟩
  have h : idx_main_v50 (idx_main_v51 (idx_main_v69 (ix2 e z))) = ix2 0 e :=
    funext fun a => Fin.ext (by match a with | ⟨0, _⟩ => rfl | ⟨1, _⟩ => exact Nat.mod_eq_of_lt e.isLt)
  rw [val_main_v69_apply, val_main_v51_apply, val_main_v50_apply, h]
  rfl

/-- The gathered attention rows. -/
theorem gathA_pos (x0 : SNF.Idx → EReal) (x1 : IVec S2E 32) (x9 : SFF.Idx → EReal) (x10 : SF.Idx → EReal) :
    val_main_v20 (F := Ideal) x0 x1 x9 x10
      = Host.gather gather_S50000x256_S800000x1_S800000x256_1_0_n_n_0_1_1256 (att x0 x9 x10) (wrapCol x1 0) := by
  unfold val_main_v20
  rw [att_pos, wrap0_pos]

/-- The gathered feature rows, inside the score. -/
theorem gathX_pos (x0 : SNF.Idx → EReal) (x1 : IVec S2E 32) :
    val_main_v27 (F := Ideal) x0 x1
      = Host.gather gather_S50000x256_S800000x1_S800000x256_1_0_n_n_0_1_1256 x0 (wrapCol x1 1) := by
  unfold val_main_v27
  rw [wrap1_pos]

/-- The gathered feature rows, inside the message: the same rows. -/
theorem gathXb_pos (x0 : SNF.Idx → EReal) (x1 : IVec S2E 32) :
    val_main_v61 (F := Ideal) x0 x1
      = Host.gather gather_S50000x256_S800000x1_S800000x256_1_0_n_n_0_1_1256 x0 (wrapCol x1 1) := by
  unfold val_main_v61
  rw [wrap1b_pos]

/-- The row sum of the products, from a zero initial value, is the edge's score. -/
theorem score_pos (x0 : SNF.Idx → EReal) (x1 : IVec S2E 32) (x9 : SFF.Idx → EReal) (x10 : SF.Idx → EReal)
    (e : Fin 800000) :
    val_main_v29 (F := Ideal) x0 x1 x9 x10 (ix1 e)
      = scoreAt (Host.gather gather_S50000x256_S800000x1_S800000x256_1_0_n_n_0_1_1256 (att x0 x9 x10) (wrapCol x1 0))
          (Host.gather gather_S50000x256_S800000x1_S800000x256_1_0_n_n_0_1_1256 x0 (wrapCol x1 1)) e := by
  have h : ∀ k : Fin 256, idx_main_v29 (ix1 e) k = ix2 e k := fun k =>
    funext fun a => Fin.ext (by match a with | ⟨0, _⟩ => rfl | ⟨1, _⟩ => rfl)
  rw [val_main_v29_apply, val_main_cst_apply, Ideal.ofBits_def, Ideal.ofBits_zero_f32, zero_add]
  simp only [val_main_v28_apply, h, Ideal.mulf_def, gathA_pos, gathX_pos]
  rfl

/-- The score broadcast along the row times the gathered feature row is the edge's message. -/
theorem msg_pos (x0 : SNF.Idx → EReal) (x1 : IVec S2E 32) (x9 : SFF.Idx → EReal) (x10 : SF.Idx → EReal) :
    val_main_v63 (F := Ideal) x0 x1 x9 x10
      = msg (Host.gather gather_S50000x256_S800000x1_S800000x256_1_0_n_n_0_1_1256 (att x0 x9 x10) (wrapCol x1 0))
          (Host.gather gather_S50000x256_S800000x1_S800000x256_1_0_n_n_0_1_1256 x0 (wrapCol x1 1)) := by
  funext i
  obtain ⟨e, f, rfl⟩ : ∃ (e : Fin 800000) (f : Fin 256), i = ix2 e f := ⟨i 0, i 1, eq_ix2 i⟩
  have h : idx_main_v54 (idx_main_v62 (ix2 e f)) = ix1 e :=
    funext fun a => Fin.ext (by match a with | ⟨0, _⟩ => rfl)
  rw [val_main_v63_apply, val_main_v62_apply, val_main_v54_apply, h, score_pos, gathXb_pos, Ideal.mulf_def]
  rfl

/-- The array the message sum starts from is zero everywhere. -/
theorem zeros2_pos : val_main_v64 (F := Ideal) = fun _ => zero32 := by
  funext i
  rw [val_main_v64_apply, val_main_cst_10_apply]
  rfl

/-- The array the count starts from is zero everywhere. -/
theorem zeros1_pos : val_main_v68 (F := Ideal) = fun _ => zero32 := by
  funext i
  rw [val_main_v68_apply, val_main_cst_12_apply]
  rfl

/-- Every edge contributes a one to the count. -/
theorem ones_pos : val_main_v67 (F := Ideal) = fun _ => one32 := by
  funext i
  rw [val_main_v67_apply, val_main_cst_11_apply]
  rfl

/-- The messages summed per target node. -/
theorem agg_pos (x0 : SNF.Idx → EReal) (x1 : IVec S2E 32) (x9 : SFF.Idx → EReal) (x10 : SF.Idx → EReal) :
    val_main_v66 (F := Ideal) x0 x1 x9 x10
      = agg (Host.gather gather_S50000x256_S800000x1_S800000x256_1_0_n_n_0_1_1256)
          (Host.scatterAdd (F := Ideal) (φ := .f32) (w := 32) scatter_S50000x256_S800000x1_S800000x256_1_0_0_1)
          x0 (att x0 x9 x10) (wrapCol x1 0) (wrapCol x1 1) (colOf x1 0) := by
  unfold val_main_v66
  rw [zeros2_pos, col0_pos, msg_pos]
  rfl

/-- The number of edges per target node. -/
theorem cnt_pos (x1 : IVec S2E 32) :
    val_main_v70 (F := Ideal) x1
      = cnt (Host.scatterAdd (F := Ideal) (φ := .f32) (w := 32) scatter_S50000_S800000x1_S800000_n_0_0_1) (colOf x1 0) := by
  unfold val_main_v70
  rw [zeros1_pos, col0b_pos, ones_pos]
  rfl

/-- The summed messages over the count raised to at least one, broadcast along the row: the attention-weighted mean. -/
theorem ref_mean_pos (x0 : SNF.Idx → EReal) (x1 : IVec S2E 32) (x9 : SFF.Idx → EReal) (x10 : SF.Idx → EReal) :
    val_main_v75 (F := Ideal) x0 x1 x9 x10
      = mean (agg (Host.gather gather_S50000x256_S800000x1_S800000x256_1_0_n_n_0_1_1256)
                  (Host.scatterAdd (F := Ideal) (φ := .f32) (w := 32) scatter_S50000x256_S800000x1_S800000x256_1_0_0_1) x0 (att x0 x9 x10)
                  (wrapCol x1 0) (wrapCol x1 1) (colOf x1 0))
             (cnt (Host.scatterAdd (F := Ideal) (φ := .f32) (w := 32) scatter_S50000_S800000x1_S800000_n_0_0_1) (colOf x1 0)) := by
  funext i
  obtain ⟨n, f, rfl⟩ : ∃ (n : Fin 50000) (f : Fin 256), i = ix2 n f := ⟨i 0, i 1, eq_ix2 i⟩
  have h : idx_main_v73 (idx_main_v74 (ix2 n f)) = ix1 n :=
    funext fun a => Fin.ext (by match a with | ⟨0, _⟩ => rfl)
  rw [val_main_v75_apply, val_main_v74_apply, val_main_v73_apply, val_main_v72_apply, val_main_v71_apply,
    val_main_cst_13_apply, h, agg_pos, cnt_pos, Ideal.hostDivf_def, Ideal.maximumf_def]
  rfl

/-! ## The negative sign -/

/-- The product against the transposed weight plus the doubly broadcast bias is x Wₐᵀ + bₐ entry by entry. -/
theorem att_neg (x0 : SNF.Idx → EReal) (x11 : SFF.Idx → EReal) (x12 : SF.Idx → EReal) :
    val_main_v9 (F := Ideal) x0 x11 x12 = att x0 x11 x12 := by
  funext i
  obtain ⟨n, j, rfl⟩ : ∃ (n : Fin 50000) (j : Fin 256), i = ix2 n j := ⟨i 0, i 1, eq_ix2 i⟩
  have e1 : ∀ k : Fin 256, lidx_main_v6 (ix2 n j) k = ix2 n k := fun k =>
    funext fun a => Fin.ext (by match a with | ⟨0, _⟩ => rfl | ⟨1, _⟩ => rfl)
  have e2 : ∀ k : Fin 256, idx_main_v5 (ridx_main_v6 (ix2 n j) k) = ix2 j k := fun k =>
    funext fun a => Fin.ext (by match a with | ⟨0, _⟩ => rfl | ⟨1, _⟩ => rfl)
  have e3 : idx_main_v7 (idx_main_v8 (ix2 n j)) = ix1 j :=
    funext fun a => Fin.ext (by match a with | ⟨0, _⟩ => rfl)
  rw [val_main_v9_apply, val_main_v6_apply, val_main_v8_apply, val_main_v7_apply]
  simp only [val_main_v5_apply, e1, e2, e3, Ideal.addf_def]
  rfl

/-- Row 0 sliced, flattened, wrapped where negative and set up as a column: the start indices of the attention gather. -/
theorem wrap0_neg (x2 : IVec S2E 32) : val_main_v39 (F := Ideal) x2 = wrapCol x2 0 := by
  funext i
  obtain ⟨e, z, rfl⟩ : ∃ (e : Fin 800000) (z : Fin 1), i = ix2 e z := ⟨i 0, i 1, eq_ix2 i⟩
  have h : idx_main_v30 (idx_main_v31 (idx_main_v39 (ix2 e z))) = ix2 0 e :=
    funext fun a => Fin.ext (by match a with | ⟨0, _⟩ => rfl | ⟨1, _⟩ => exact Nat.mod_eq_of_lt e.isLt)
  rw [val_main_v39_apply, val_main_v38_apply, val_main_v35_apply, val_main_v37_apply, val_main_v34_apply,
    val_main_v36_apply, val_main_c_3_apply, val_main_c_4_apply, val_main_v31_apply, val_main_v30_apply, h]
  rfl

/-- Row 1 likewise: the start indices of the feature gather inside the score. -/
theorem wrap1_neg (x2 : IVec S2E 32) : val_main_v46 (F := Ideal) x2 = wrapCol x2 1 := by
  funext i
  obtain ⟨e, z, rfl⟩ : ∃ (e : Fin 800000) (z : Fin 1), i = ix2 e z := ⟨i 0, i 1, eq_ix2 i⟩
  have h : idx_main_v32 (idx_main_v33 (idx_main_v46 (ix2 e z))) = ix2 1 e :=
    funext fun a => Fin.ext (by match a with | ⟨0, _⟩ => rfl | ⟨1, _⟩ => exact Nat.mod_eq_of_lt e.isLt)
  rw [val_main_v46_apply, val_main_v45_apply, val_main_v42_apply, val_main_v44_apply, val_main_v41_apply,
    val_main_v43_apply, val_main_c_5_apply, val_main_c_6_apply, val_main_v33_apply, val_main_v32_apply, h]
  rfl

/-- Row 1 once more: the start indices of the feature gather inside the message. -/
theorem wrap1b_neg (x2 : IVec S2E 32) : val_main_v94 (F := Ideal) x2 = wrapCol x2 1 := by
  funext i
  obtain ⟨e, z, rfl⟩ : ∃ (e : Fin 800000) (z : Fin 1), i = ix2 e z := ⟨i 0, i 1, eq_ix2 i⟩
  have h : idx_main_v86 (idx_main_v87 (idx_main_v94 (ix2 e z))) = ix2 1 e :=
    funext fun a => Fin.ext (by match a with | ⟨0, _⟩ => rfl | ⟨1, _⟩ => exact Nat.mod_eq_of_lt e.isLt)
  rw [val_main_v94_apply, val_main_v93_apply, val_main_v90_apply, val_main_v92_apply, val_main_v89_apply,
    val_main_v91_apply, val_main_c_14_apply, val_main_c_15_apply, val_main_v87_apply, val_main_v86_apply, h]
  rfl

/-- Row 0 unwrapped as a column: where the messages are scattered. -/
theorem col0_neg (x2 : IVec S2E 32) : val_main_v99 (F := Ideal) x2 = colOf x2 0 := by
  funext i
  obtain ⟨e, z, rfl⟩ : ∃ (e : Fin 800000) (z : Fin 1), i = ix2 e z := ⟨i 0, i 1, eq_ix2 i⟩
  have h : idx_main_v84 (idx_main_v85 (idx_main_v99 (ix2 e z))) = ix2 0 e :=
    funext fun a => Fin.ext (by match a with | ⟨0, _⟩ => rfl | ⟨1, _⟩ => exact Nat.mod_eq_of_lt e.isLt)
  rw [val_main_v99_apply, val_main_v85_apply, val_main_v84_apply, h]
  rfl

/-- The same column: where the ones are scattered. -/
theorem col0b_neg (x2 : IVec S2E 32) : val_main_v103 (F := Ideal) x2 = colOf x2 0 := by
  funext i
  obtain ⟨e, z, rfl⟩ : ∃ (e : Fin 800000) (z : Fin 1), i = ix2 e z := ⟨i 0, i 1, eq_ix2 i⟩
  have h : idx_main_v84 (idx_main_v85 (idx_main_v103 (ix2 e z))) = ix2 0 e :=
    funext fun a => Fin.ext (by match a with | ⟨0, _⟩ => rfl | ⟨1, _⟩ => exact Nat.mod_eq_of_lt e.isLt)
  rw [val_main_v103_apply, val_main_v85_apply, val_main_v84_apply, h]
  rfl

/-- The gathered attention rows. -/
theorem gathA_neg (x0 : SNF.Idx → EReal) (x2 : IVec S2E 32) (x11 : SFF.Idx → EReal) (x12 : SF.Idx → EReal) :
    val_main_v40 (F := Ideal) x0 x2 x11 x12
      = Host.gather gather_S50000x256_S800000x1_S800000x256_1_0_n_n_0_1_1256 (att x0 x11 x12) (wrapCol x2 0) := by
  unfold val_main_v40
  rw [att_neg, wrap0_neg]

/-- The gathered feature rows, inside the score. -/
theorem gathX_neg (x0 : SNF.Idx → EReal) (x2 : IVec S2E 32) :
    val_main_v47 (F := Ideal) x0 x2
      = Host.gather gather_S50000x256_S800000x1_S800000x256_1_0_n_n_0_1_1256 x0 (wrapCol x2 1) := by
  unfold val_main_v47
  rw [wrap1_neg]

/-- The gathered feature rows, inside the message: the same rows. -/
theorem gathXb_neg (x0 : SNF.Idx → EReal) (x2 : IVec S2E 32) :
    val_main_v95 (F := Ideal) x0 x2
      = Host.gather gather_S50000x256_S800000x1_S800000x256_1_0_n_n_0_1_1256 x0 (wrapCol x2 1) := by
  unfold val_main_v95
  rw [wrap1b_neg]

/-- The row sum of the products, from a zero initial value, is the edge's score. -/
theorem score_neg (x0 : SNF.Idx → EReal) (x2 : IVec S2E 32) (x11 : SFF.Idx → EReal) (x12 : SF.Idx → EReal)
    (e : Fin 800000) :
    val_main_v49 (F := Ideal) x0 x2 x11 x12 (ix1 e)
      = scoreAt (Host.gather gather_S50000x256_S800000x1_S800000x256_1_0_n_n_0_1_1256 (att x0 x11 x12) (wrapCol x2 0))
          (Host.gather gather_S50000x256_S800000x1_S800000x256_1_0_n_n_0_1_1256 x0 (wrapCol x2 1)) e := by
  have h : ∀ k : Fin 256, idx_main_v49 (ix1 e) k = ix2 e k := fun k =>
    funext fun a => Fin.ext (by match a with | ⟨0, _⟩ => rfl | ⟨1, _⟩ => rfl)
  rw [val_main_v49_apply, val_main_cst_7_apply, Ideal.ofBits_def, Ideal.ofBits_zero_f32, zero_add]
  simp only [val_main_v48_apply, h, Ideal.mulf_def, gathA_neg, gathX_neg]
  rfl

/-- The score broadcast along the row times the gathered feature row is the edge's message. -/
theorem msg_neg (x0 : SNF.Idx → EReal) (x2 : IVec S2E 32) (x11 : SFF.Idx → EReal) (x12 : SF.Idx → EReal) :
    val_main_v97 (F := Ideal) x0 x2 x11 x12
      = msg (Host.gather gather_S50000x256_S800000x1_S800000x256_1_0_n_n_0_1_1256 (att x0 x11 x12) (wrapCol x2 0))
          (Host.gather gather_S50000x256_S800000x1_S800000x256_1_0_n_n_0_1_1256 x0 (wrapCol x2 1)) := by
  funext i
  obtain ⟨e, f, rfl⟩ : ∃ (e : Fin 800000) (f : Fin 256), i = ix2 e f := ⟨i 0, i 1, eq_ix2 i⟩
  have h : idx_main_v88 (idx_main_v96 (ix2 e f)) = ix1 e :=
    funext fun a => Fin.ext (by match a with | ⟨0, _⟩ => rfl)
  rw [val_main_v97_apply, val_main_v96_apply, val_main_v88_apply, h, score_neg, gathXb_neg, Ideal.mulf_def]
  rfl

/-- The array the message sum starts from is zero everywhere. -/
theorem zeros2_neg : val_main_v98 (F := Ideal) = fun _ => zero32 := by
  funext i
  rw [val_main_v98_apply, val_main_cst_16_apply]
  rfl

/-- The array the count starts from is zero everywhere. -/
theorem zeros1_neg : val_main_v102 (F := Ideal) = fun _ => zero32 := by
  funext i
  rw [val_main_v102_apply, val_main_cst_18_apply]
  rfl

/-- Every edge contributes a one to the count. -/
theorem ones_neg : val_main_v101 (F := Ideal) = fun _ => one32 := by
  funext i
  rw [val_main_v101_apply, val_main_cst_17_apply]
  rfl

/-- The messages summed per target node. -/
theorem agg_neg (x0 : SNF.Idx → EReal) (x2 : IVec S2E 32) (x11 : SFF.Idx → EReal) (x12 : SF.Idx → EReal) :
    val_main_v100 (F := Ideal) x0 x2 x11 x12
      = agg (Host.gather gather_S50000x256_S800000x1_S800000x256_1_0_n_n_0_1_1256)
          (Host.scatterAdd (F := Ideal) (φ := .f32) (w := 32) scatter_S50000x256_S800000x1_S800000x256_1_0_0_1)
          x0 (att x0 x11 x12) (wrapCol x2 0) (wrapCol x2 1) (colOf x2 0) := by
  unfold val_main_v100
  rw [zeros2_neg, col0_neg, msg_neg]
  rfl

/-- The number of edges per target node. -/
theorem cnt_neg (x2 : IVec S2E 32) :
    val_main_v104 (F := Ideal) x2
      = cnt (Host.scatterAdd (F := Ideal) (φ := .f32) (w := 32) scatter_S50000_S800000x1_S800000_n_0_0_1) (colOf x2 0) := by
  unfold val_main_v104
  rw [zeros1_neg, col0b_neg, ones_neg]
  rfl

/-- The summed messages over the count raised to at least one, broadcast along the row: the attention-weighted mean. -/
theorem ref_mean_neg (x0 : SNF.Idx → EReal) (x2 : IVec S2E 32) (x11 : SFF.Idx → EReal) (x12 : SF.Idx → EReal) :
    val_main_v109 (F := Ideal) x0 x2 x11 x12
      = mean (agg (Host.gather gather_S50000x256_S800000x1_S800000x256_1_0_n_n_0_1_1256)
                  (Host.scatterAdd (F := Ideal) (φ := .f32) (w := 32) scatter_S50000x256_S800000x1_S800000x256_1_0_0_1) x0 (att x0 x11 x12)
                  (wrapCol x2 0) (wrapCol x2 1) (colOf x2 0))
             (cnt (Host.scatterAdd (F := Ideal) (φ := .f32) (w := 32) scatter_S50000_S800000x1_S800000_n_0_0_1) (colOf x2 0)) := by
  funext i
  obtain ⟨n, f, rfl⟩ : ∃ (n : Fin 50000) (f : Fin 256), i = ix2 n f := ⟨i 0, i 1, eq_ix2 i⟩
  have h : idx_main_v107 (idx_main_v108 (ix2 n f)) = ix1 n :=
    funext fun a => Fin.ext (by match a with | ⟨0, _⟩ => rfl)
  rw [val_main_v109_apply, val_main_v108_apply, val_main_v107_apply, val_main_v106_apply, val_main_v105_apply,
    val_main_cst_19_apply, h, agg_neg, cnt_neg, Ideal.hostDivf_def, Ideal.maximumf_def]
  rfl

end Cert.ReferenceIdeal.RefMean

end
-- ==== Proof.RefHalves.lean ====
import proofs.«405337_j10660108829350_1_alg».proof.Proof.Gen.ReferenceIdeal.Read
import proofs.«405337_j10660108829350_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The reference's last stages.  For each sign the mean of the summed messages is multiplied against the sign's weight
  matrix (contracting the 256 features), the skip term  x W_ccᵀ + b_cc  is added, and the two [50000, 128] halves are
  laid side by side along the feature axis.  With the two means named, the result at (n, c) is the positive half at
  column c when c < 128 and the negative half at column c − 128 otherwise: the body of `G`.
-/

set_option maxRecDepth 16384

noncomputable section

open scoped BigOperators
open Idealize.ShloMosaic Idealize.ShloMosaic.TcCoe Idealize.SL.Sem Idealize.ShloMosaic.ValueIdx

namespace Cert.ReferenceIdeal.RefHalves

open Cert.ReferenceIdeal Cert.ReferenceIdeal.Gen Cert.ReferenceIdeal.Read Cert.SignedConv

/-- The positive half at an index: the contraction of the mean's row against a row of W_pos (the transpose read
    back), plus the contraction of the features' row against a row of W_pos_cc, plus the bias entry (the two
    broadcasts read back to the bias's own index). -/
theorem half_pos (x0 : SNF.Idx → EReal) (x1 : IVec S2E 32) (x3 x4 : SOF.Idx → EReal) (x5 : SO.Idx → EReal)
    (x9 : SFF.Idx → EReal) (x10 : SF.Idx → EReal) (MP : SNF.Idx → EReal)
    (hp : val_main_v75 (F := Ideal) x0 x1 x9 x10 = MP) (j : S50000x128.Idx) :
    val_main_v83 (F := Ideal) x0 x1 x3 x4 x5 x9 x10 j = halfAt MP x0 x3 x4 x5 (j 0) (j 1) := by
  have e1 : ∀ k : Fin 256, lidx_main_v77 j k = ix2 (j 0) k := fun k =>
    funext fun a => Fin.ext (by match a with | ⟨0, _⟩ => rfl | ⟨1, _⟩ => rfl)
  have e2 : ∀ k : Fin 256, idx_main_v76 (ridx_main_v77 j k) = ix2 (j 1) k := fun k =>
    funext fun a => Fin.ext (by match a with | ⟨0, _⟩ => rfl | ⟨1, _⟩ => rfl)
  have e3 : ∀ k : Fin 256, lidx_main_v79 j k = ix2 (j 0) k := fun k =>
    funext fun a => Fin.ext (by match a with | ⟨0, _⟩ => rfl | ⟨1, _⟩ => rfl)
  have e4 : ∀ k : Fin 256, idx_main_v78 (ridx_main_v79 j k) = ix2 (j 1) k := fun k =>
    funext fun a => Fin.ext (by match a with | ⟨0, _⟩ => rfl | ⟨1, _⟩ => rfl)
  have e5 : idx_main_v80 (idx_main_v81 j) = ix1 (j 1) :=
    funext fun a => Fin.ext (by match a with | ⟨0, _⟩ => rfl)
  rw [val_main_v83_apply, val_main_v77_apply, val_main_v82_apply, val_main_v79_apply, val_main_v81_apply,
    val_main_v80_apply, hp]
  simp only [val_main_v76_apply, val_main_v78_apply, e1, e2, e3, e4, e5, Ideal.addf_def]
  rfl

/-- The negative half at an index, the same reading over the negative sign's weights. -/
theorem half_neg (x0 : SNF.Idx → EReal) (x2 : IVec S2E 32) (x6 x7 : SOF.Idx → EReal) (x8 : SO.Idx → EReal)
    (x11 : SFF.Idx → EReal) (x12 : SF.Idx → EReal) (MN : SNF.Idx → EReal)
    (hn : val_main_v109 (F := Ideal) x0 x2 x11 x12 = MN) (j : S50000x128.Idx) :
    val_main_v117 (F := Ideal) x0 x2 x6 x7 x8 x11 x12 j = halfAt MN x0 x6 x7 x8 (j 0) (j 1) := by
  have e1 : ∀ k : Fin 256, lidx_main_v111 j k = ix2 (j 0) k := fun k =>
    funext fun a => Fin.ext (by match a with | ⟨0, _⟩ => rfl | ⟨1, _⟩ => rfl)
  have e2 : ∀ k : Fin 256, idx_main_v110 (ridx_main_v111 j k) = ix2 (j 1) k := fun k =>
    funext fun a => Fin.ext (by match a with | ⟨0, _⟩ => rfl | ⟨1, _⟩ => rfl)
  have e3 : ∀ k : Fin 256, lidx_main_v113 j k = ix2 (j 0) k := fun k =>
    funext fun a => Fin.ext (by match a with | ⟨0, _⟩ => rfl | ⟨1, _⟩ => rfl)
  have e4 : ∀ k : Fin 256, idx_main_v112 (ridx_main_v113 j k) = ix2 (j 1) k := fun k =>
    funext fun a => Fin.ext (by match a with | ⟨0, _⟩ => rfl | ⟨1, _⟩ => rfl)
  have e5 : idx_main_v114 (idx_main_v115 j) = ix1 (j 1) :=
    funext fun a => Fin.ext (by match a with | ⟨0, _⟩ => rfl)
  rw [val_main_v117_apply, val_main_v111_apply, val_main_v116_apply, val_main_v113_apply, val_main_v115_apply,
    val_main_v114_apply, hn]
  simp only [val_main_v110_apply, val_main_v112_apply, e1, e2, e3, e4, e5, Ideal.addf_def]
  rfl

/-- The reference's result with the two means named: a column below 128 reads the first piece of the concatenation
    at the same coordinates, any other column reads the second piece 128 columns to the left. -/
theorem ref_halves (x0 : SNF.Idx → EReal) (x1 x2 : IVec S2E 32) (x3 x4 : SOF.Idx → EReal) (x5 : SO.Idx → EReal)
    (x6 x7 : SOF.Idx → EReal) (x8 : SO.Idx → EReal) (x9 : SFF.Idx → EReal) (x10 : SF.Idx → EReal)
    (x11 : SFF.Idx → EReal) (x12 : SF.Idx → EReal) (MP MN : SNF.Idx → EReal)
    (hp : val_main_v75 (F := Ideal) x0 x1 x9 x10 = MP) (hn : val_main_v109 (F := Ideal) x0 x2 x11 x12 = MN) :
    val_main_v118 (F := Ideal) x0 x1 x2 x3 x4 x5 x6 x7 x8 x9 x10 x11 x12
      = fun i => if h : (i 1).val < 128 then halfAt MP x0 x3 x4 x5 (i 0) ⟨(i 1).val, h⟩
                 else halfAt MN x0 x6 x7 x8 (i 0) ⟨(i 1).val - 128, by have := idx2_lt1 i; omega⟩ := by
  funext i
  unfold val_main_v118
  by_cases h : (i 1).val < 128
  · rw [dif_pos h,
      concatenate_pair_apply_left (1 : Fin S50000x256.rank) _ _ concatenates_S50000x128_S50000x128_S50000x256_d1 i rfl
        (ix2 (i 0) ⟨(i 1).val, h⟩) (fun b => match b with | ⟨0, _⟩ => rfl | ⟨1, _⟩ => rfl)]
    exact half_pos x0 x1 x3 x4 x5 x9 x10 MP hp _
  · have h2 : (i 1).val - 128 < 128 := by have := idx2_lt1 i; omega
    rw [dif_neg h,
      concatenate_pair_apply_right (1 : Fin S50000x256.rank) _ _ concatenates_S50000x128_S50000x128_S50000x256_d1 i rfl rfl
        (ix2 (i 0) ⟨(i 1).val - 128, h2⟩)
        (fun b => match b with | ⟨0, _⟩ => fun _ => rfl | ⟨1, _⟩ => fun hb => absurd rfl hb)
        (by show (i 1).val - 128 + 128 = (i 1).val; omega)]
    exact half_neg x0 x2 x6 x7 x8 x11 x12 MN hn _

end Cert.ReferenceIdeal.RefHalves

end
-- ==== Proof.RefValue.lean ====
/-
  The reference's result is the specification's `G`: the last stages read as two halves over the two means
  (`ref_halves`), each mean the attention-weighted scatter mean of its sign (`ref_mean_pos`, `ref_mean_neg`).
-/
import proofs.«405337_j10660108829350_1_alg».proof.Proof.Gen.ReferenceIdeal.Read
import proofs.«405337_j10660108829350_1_alg».proof.Proof.Spec
import proofs.«405337_j10660108829350_1_alg».proof.Proof.RefMean
import proofs.«405337_j10660108829350_1_alg».proof.Proof.RefHalves

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.SignedConv

/-- The result of the reference's run, on every device, as the specification's function of the argument arrays. -/
theorem result (m : (ℓ : Loc nD τ sig) → Buf (Elt Ideal) ℓ) (c : Dev nD) :
    Cert.ReferenceIdeal.Value.res_main_v118 (F := Ideal) m c
      = G (Host.gather gather_S50000x256_S800000x1_S800000x256_1_0_n_n_0_1_1256)
          (Host.scatterAdd (F := Ideal) (φ := .f32) (w := 32) scatter_S50000x256_S800000x1_S800000x256_1_0_0_1)
          (Host.scatterAdd (F := Ideal) (φ := .f32) (w := 32) scatter_S50000_S800000x1_S800000_n_0_0_1)
          (m ((c.tc : Thread nD τ).loc main_arg0))
          (wrapCol (m ((c.tc : Thread nD τ).loc main_arg1)) 0) (wrapCol (m ((c.tc : Thread nD τ).loc main_arg1)) 1) (colOf (m ((c.tc : Thread nD τ).loc main_arg1)) 0)
          (wrapCol (m ((c.tc : Thread nD τ).loc main_arg2)) 0) (wrapCol (m ((c.tc : Thread nD τ).loc main_arg2)) 1) (colOf (m ((c.tc : Thread nD τ).loc main_arg2)) 0)
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12)) := by
  rw [val_main_v118_eq]
  exact Cert.ReferenceIdeal.RefHalves.ref_halves _ _ _ _ _ _ _ _ _ _ _ _ _ _ _
    (Cert.ReferenceIdeal.RefMean.ref_mean_pos _ _ _ _) (Cert.ReferenceIdeal.RefMean.ref_mean_neg _ _ _ _)

end Cert.ReferenceIdeal.RefValue

end
-- ==== Proof.lean ====
/-
  The certificate of the signed graph convolution: a Pallas kernel program (an attention-matrix projection, a per-edge
  score-and-message computation run once per sign, a final normalise-and-combine computation, with jnp gathers and
  scatter-adds between them) against its jnp reference, over the extended reals.

  The statement carries one added precondition beside the finiteness of the float inputs: every entry of the two
  edge-index arrays names a node, 0 ≤ v < 50000.  Outside that range the reference itself indexes out of range (its
  `x[l]` clamps) while the kernel's `jnp.take` fills the row with NaN, and the results differ.

  The three frames: the two kernel programs' are the generated frame proofs; the reference has no kernel, and its frame
  is its generated run with the result dropped.  The idealization rewrote nothing, so `preserves` is `True`.
  The value claim: the kernel program's run ends with its result at the last contents of the fold through the caller
  (`ValueRun.run_named`), which is the specification's function `G` of the argument arrays once every edge index is in
  range (`KernelValue.result`; the range from the precondition, `EdgeRange.inRange_of_pre`); the reference's run ends at
  the same `G` (`RefValue.result`); the two programs' gather and scatter-add dimension numbers are the same records.
-/
import proofs.«405337_j10660108829350_1_alg».proof.Defs
import proofs.«405337_j10660108829350_1_alg».proof.Proof.Gen.Kernel
import proofs.«405337_j10660108829350_1_alg».proof.Proof.Gen.Kernel.Skeleton
import proofs.«405337_j10660108829350_1_alg».proof.Proof.Gen.Kernel.Launch
import proofs.«405337_j10660108829350_1_alg».proof.Proof.Gen.Kernel.Points
import proofs.«405337_j10660108829350_1_alg».proof.Proof.Gen.Kernel.Frame
import proofs.«405337_j10660108829350_1_alg».proof.Proof.Gen.KernelIdeal
import proofs.«405337_j10660108829350_1_alg».proof.Proof.Gen.KernelIdeal.Skeleton
import proofs.«405337_j10660108829350_1_alg».proof.Proof.Gen.KernelIdeal.Launch
import proofs.«405337_j10660108829350_1_alg».proof.Proof.Gen.KernelIdeal.Points
import proofs.«405337_j10660108829350_1_alg».proof.Proof.Gen.KernelIdeal.Frame
import proofs.«405337_j10660108829350_1_alg».proof.Proof.Gen.ReferenceIdeal
import proofs.«405337_j10660108829350_1_alg».proof.Proof.Gen.Pre_finite_inputs
import proofs.«405337_j10660108829350_1_alg».proof.Proof.Gen.ReferenceIdeal.Run
import proofs.«405337_j10660108829350_1_alg».proof.Proof.Gen.ReferenceIdeal.Read
import proofs.«405337_j10660108829350_1_alg».proof.Proof.Spec
import proofs.«405337_j10660108829350_1_alg».proof.Proof.EdgeRange
import proofs.«405337_j10660108829350_1_alg».proof.Proof.KernelRun
import proofs.«405337_j10660108829350_1_alg».proof.Proof.KernelValue
import proofs.«405337_j10660108829350_1_alg».proof.Proof.RefValue
import Idealize.ShloMosaic.Adequacy
import Idealize.ShloMosaic.Init

noncomputable section

namespace Cert.Proof

open Idealize.ShloMosaic Idealize.ShloMosaic.TcCoe Idealize.SL.Sem Cert.SignedConv

/-! ## The two programs gather and scatter by the same dimension numbers -/

theorem gather_same :
    (Host.gather Cert.KernelIdeal.gather_S50000x256_S800000x1_S800000x256_1_0_n_n_0_1_1256 : (SNF.Idx → EReal) → IVec SE1 32 → SEF.Idx → EReal)
      = Host.gather Cert.ReferenceIdeal.gather_S50000x256_S800000x1_S800000x256_1_0_n_n_0_1_1256 := rfl

theorem scatter_rows_same :
    (Host.scatterAdd (F := Ideal) (φ := .f32) (w := 32) Cert.KernelIdeal.scatter_S50000x256_S800000x1_S800000x256_1_0_0_1 : (SNF.Idx → EReal) → IVec SE1 32 → (SEF.Idx → EReal) → SNF.Idx → EReal)
      = Host.scatterAdd (F := Ideal) (φ := .f32) (w := 32) Cert.ReferenceIdeal.scatter_S50000x256_S800000x1_S800000x256_1_0_0_1 := rfl

theorem scatter_counts_same :
    (Host.scatterAdd (F := Ideal) (φ := .f32) (w := 32) Cert.KernelIdeal.scatter_S50000_S800000x1_S800000_n_0_0_1 : (SN.Idx → EReal) → IVec SE1 32 → (SE.Idx → EReal) → SN.Idx → EReal)
      = Host.scatterAdd (F := Ideal) (φ := .f32) (w := 32) Cert.ReferenceIdeal.scatter_S50000_S800000x1_S800000_n_0_0_1 := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the specification's `G` of arguments that agree. -/
theorem algebraic : Cert.algebraic_KernelIdeal_ReferenceIdeal := by
  intro m ρ m' ρ' hpre hagree
  refine ⟨fun c => Cert.KernelIdeal.KernelValue.spec m c, ?_, ?_⟩
  · exact (θ_run Cert.KernelIdeal.defs _ _).mono
      (fun r h c => ⟨(h c).1.trans (Cert.KernelIdeal.KernelValue.result m ρ c
          (Cert.KernelIdeal.EdgeRange.inRange_of_pre m hpre c).1 (Cert.KernelIdeal.EdgeRange.inRange_of_pre m hpre c).2), (h c).2⟩)
      (Cert.KernelIdeal.ValueRun.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.RefValue.result m' c, a0, a1, a2, a3, a4, a5, a6, a7, a8, a9, a10, a11, a12]
    unfold Cert.KernelIdeal.KernelValue.spec
    rw [← gather_same, ← scatter_rows_same, ← scatter_counts_same]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
